-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768 : Shape := ⟨2, ![1, 768]⟩
abbrev S2048x768 : Shape := ⟨2, ![2048, 768]⟩
abbrev S2048 : Shape := ⟨1, ![2048]⟩
abbrev S32768 : Shape := ⟨1, ![32768]⟩
abbrev S100000 : Shape := ⟨1, ![100000]⟩
abbrev S1000x768 : Shape := ⟨2, ![1000, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S100000x768 : Shape := ⟨2, ![100000, 768]⟩
abbrev S_ : Shape := ⟨0, ![]⟩

class Facts : Prop where
  bcast_S_S1x768 : S_.BroadcastsInDim S1x768 (![] : Fin 0 → Fin S1x768.rank)
  reducesTo_S1x768_S_d0_1 : S1x768.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S1000x768 : S_.BroadcastsInDim S1000x768 (![] : Fin 0 → Fin S1000x768.rank)
  reducesTo_S1000x768_S_d0_1 : S1000x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S100000x768 : S_.BroadcastsInDim S100000x768 (![] : Fin 0 → Fin S100000x768.rank)
  reducesTo_S100000x768_S_d0_1 : S100000x768.ReducesTo [0, 1] S_
  bcast_S_S32768 : S_.BroadcastsInDim S32768 (![] : Fin 0 → Fin S32768.rank)
  reducesTo_S32768_S_d0 : S32768.ReducesTo [0] S_

variable [Facts]

def fn_part4 {F : FTy → Type} [FloatOps F] (main_arg5 : IVec S32768 32) (main_v65 : IVec S_ 1) (main_v67 : IVec S32768 1) : IVec S_ 1 :=
  let main_c_26 : IVec S_ 32 := constantI S_ 32 1000#32
  let main_v68 : IVec S32768 32 := broadcastInDim S32768 ![] bcast_S_S32768 main_c_26
  let main_v69 : IVec S32768 1 := cmpi .slt main_arg5 main_v68
  let main_v70 : IVec S32768 1 := andi main_v67 main_v69
  let main_c_27 : IVec S_ 1 := constantI S_ 1 1#1
  let main_v71 : IVec S_ 1 := (fun x v => Host.reduce IntOp.andi x v reducesTo_S32768_S_d0 h_S_) main_v70 main_c_27
  let main_v72 : IVec S_ 1 := andi main_v65 main_v71
  main_v72

def fn_part3 {F : FTy → Type} [FloatOps F] (main_arg3 : IVec S32768 32) (main_arg5 : IVec S32768 32) (main_arg17 : FVec F S100000x768 .f32) (main_v48 : IVec S_ 1) (main_v49 : FVec F S2304 .f32) (main_v50 : FVec F S2304 .f32) : IVec S_ 1 :=
  let main_v51 : IVec S2304 1 := cmpf .olt main_v49 main_v50
  let main_c_19 : IVec S_ 1 := constantI S_ 1 1#1
  let main_v52 : IVec S_ 1 := (fun x v => Host.reduce IntOp.andi x v reducesTo_S2304_S_d0 h_S_) main_v51 main_c_19
  let main_v53 : IVec S_ 1 := andi main_v48 main_v52
  let main_v54 : FVec F S100000x768 .f32 := Host.absf main_arg17
  let main_cst_20 : FVec F S_ .f32 := constant S_ .f32 0x7F800000#32
  let main_v55 : FVec F S100000x768 .f32 := broadcastInDim S100000x768 ![] bcast_S_S100000x768 main_cst_20
  let main_v56 : IVec S100000x768 1 := cmpf .olt main_v54 main_v55
  let main_c_21 : IVec S_ 1 := constantI S_ 1 1#1
  let main_v57 : IVec S_ 1 := (fun x v => Host.reduce IntOp.andi x v reducesTo_S100000x768_S_d0_1 h_S_) main_v56 main_c_21
  let main_v58 : IVec S_ 1 := andi main_v53 main_v57
  let main_c_22 : IVec S_ 32 := constantI S_ 32 4294965248#32
  let main_v59 : IVec S32768 32 := broadcastInDim S32768 ![] bcast_S_S32768 main_c_22
  let main_v60 : IVec S32768 1 := cmpi .sge main_arg3 main_v59
  let main_c_23 : IVec S_ 32 := constantI S_ 32 2048#32
  let main_v61 : IVec S32768 32 := broadcastInDim S32768 ![] bcast_S_S32768 main_c_23
  let main_v62 : IVec S32768 1 := cmpi .slt main_arg3 main_v61
  let main_v63 : IVec S32768 1 := andi main_v60 main_v62
  let main_c_24 : IVec S_ 1 := constantI S_ 1 1#1
  let main_v64 : IVec S_ 1 := (fun x v => Host.reduce IntOp.andi x v reducesTo_S32768_S_d0 h_S_) main_v63 main_c_24
  let main_v65 : IVec S_ 1 := andi main_v58 main_v64
  let main_c_25 : IVec S_ 32 := constantI S_ 32 4294966296#32
  let main_v66 : IVec S32768 32 := broadcastInDim S32768 ![] bcast_S_S32768 main_c_25
  let main_v67 : IVec S32768 1 := cmpi .sge main_arg5 main_v66
  fn_part4 (F := F) main_arg5 main_v65 main_v67

def fn_part2 {F : FTy → Type} [FloatOps F] (main_arg3 : IVec S32768 32) (main_arg5 : IVec S32768 32) (main_arg13 : FVec F S2304x768 .f32) (main_arg14 : FVec F S2304x768 .f32) (main_arg15 : FVec F S2304 .f32) (main_arg16 : FVec F S2304 .f32) (main_arg17 : FVec F S100000x768 .f32) (main_v33 : IVec S_ 1) : IVec S_ 1 :=
  let main_v34 : FVec F S2304x768 .f32 := Host.absf main_arg13
  let main_cst_12 : FVec F S_ .f32 := constant S_ .f32 0x7F800000#32
  let main_v35 : FVec F S2304x768 .f32 := broadcastInDim S2304x768 ![] bcast_S_S2304x768 main_cst_12
  let main_v36 : IVec S2304x768 1 := cmpf .olt main_v34 main_v35
  let main_c_13 : IVec S_ 1 := constantI S_ 1 1#1
  let main_v37 : IVec S_ 1 := (fun x v => Host.reduce IntOp.andi x v reducesTo_S2304x768_S_d0_1 h_S_) main_v36 main_c_13
  let main_v38 : IVec S_ 1 := andi main_v33 main_v37
  let main_v39 : FVec F S2304x768 .f32 := Host.absf main_arg14
  let main_cst_14 : FVec F S_ .f32 := constant S_ .f32 0x7F800000#32
  let main_v40 : FVec F S2304x768 .f32 := broadcastInDim S2304x768 ![] bcast_S_S2304x768 main_cst_14
  let main_v41 : IVec S2304x768 1 := cmpf .olt main_v39 main_v40
  let main_c_15 : IVec S_ 1 := constantI S_ 1 1#1
  let main_v42 : IVec S_ 1 := (fun x v => Host.reduce IntOp.andi x v reducesTo_S2304x768_S_d0_1 h_S_) main_v41 main_c_15
  let main_v43 : IVec S_ 1 := andi main_v38 main_v42
  let main_v44 : FVec F S2304 .f32 := Host.absf main_arg15
  let main_cst_16 : FVec F S_ .f32 := constant S_ .f32 0x7F800000#32
  let main_v45 : FVec F S2304 .f32 := broadcastInDim S2304 ![] bcast_S_S2304 main_cst_16
  let main_v46 : IVec S2304 1 := cmpf .olt main_v44 main_v45
  let main_c_17 : IVec S_ 1 := constantI S_ 1 1#1
  let main_v47 : IVec S_ 1 := (fun x v => Host.reduce IntOp.andi x v reducesTo_S2304_S_d0 h_S_) main_v46 main_c_17
  let main_v48 : IVec S_ 1 := andi main_v43 main_v47
  let main_v49 : FVec F S2304 .f32 := Host.absf main_arg16
  let main_cst_18 : FVec F S_ .f32 := constant S_ .f32 0x7F800000#32
  let main_v50 : FVec F S2304 .f32 := broadcastInDim S2304 ![] bcast_S_S2304 main_cst_18
  fn_part3 (F := F) main_arg3 main_arg5 main_arg17 main_v48 main_v49 main_v50

def fn_part1 {F : FTy → Type} [FloatOps F] (main_arg3 : IVec S32768 32) (main_arg5 : IVec S32768 32) (main_arg10 : FVec F S768 .f32) (main_arg11 : FVec F S768x768 .f32) (main_arg12 : FVec F S768 .f32) (main_arg13 : FVec F S2304x768 .f32) (main_arg14 : FVec F S2304x768 .f32) (main_arg15 : FVec F S2304 .f32) (main_arg16 : FVec F S2304 .f32) (main_arg17 : FVec F S100000x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg10
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg11
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg12
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg3 main_arg5 main_arg13 main_arg14 main_arg15 main_arg16 main_arg17 main_v33

def fn {F : FTy → Type} [FloatOps F] (main_arg0 : FVec F S1x768 .f32) (main_arg1 : FVec F S2048x768 .f32) (main_arg2 : IVec S2048 32) (main_arg3 : IVec S32768 32) (main_arg4 : IVec S32768 32) (main_arg5 : IVec S32768 32) (main_arg6 : IVec S100000 32) (main_arg7 : IVec S100000 32) (main_arg8 : FVec F S1000x768 .f32) (main_arg9 : FVec F S768x768 .f32) (main_arg10 : FVec F S768 .f32) (main_arg11 : FVec F S768x768 .f32) (main_arg12 : FVec F S768 .f32) (main_arg13 : FVec F S2304x768 .f32) (main_arg14 : FVec F S2304x768 .f32) (main_arg15 : FVec F S2304 .f32) (main_arg16 : FVec F S2304 .f32) (main_arg17 : FVec F S100000x768 .f32) : IVec S_ 1 :=
  let main_v0 : FVec F S1x768 .f32 := Host.absf main_arg0
  let main_cst : FVec F S_ .f32 := constant S_ .f32 0x7F800000#32
  let main_v1 : FVec F S1x768 .f32 := broadcastInDim S1x768 ![] bcast_S_S1x768 main_cst
  let main_v2 : IVec S1x768 1 := cmpf .olt main_v0 main_v1
  let main_c : IVec S_ 1 := constantI S_ 1 1#1
  let main_v3 : IVec S_ 1 := (fun x v => Host.reduce IntOp.andi x v reducesTo_S1x768_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S1000x768 .f32 := Host.absf main_arg8
  let main_cst_2 : FVec F S_ .f32 := constant S_ .f32 0x7F800000#32
  let main_v10 : FVec F S1000x768 .f32 := broadcastInDim S1000x768 ![] bcast_S_S1000x768 main_cst_2
  let main_v11 : IVec S1000x768 1 := cmpf .olt main_v9 main_v10
  let main_c_3 : IVec S_ 1 := constantI S_ 1 1#1
  let main_v12 : IVec S_ 1 := (fun x v => Host.reduce IntOp.andi x v reducesTo_S1000x768_S_d0_1 h_S_) main_v11 main_c_3
  let main_v13 : IVec S_ 1 := andi main_v8 main_v12
  let main_v14 : FVec F S768x768 .f32 := Host.absf main_arg9
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg3 main_arg5 main_arg10 main_arg11 main_arg12 main_arg13 main_arg14 main_arg15 main_arg16 main_arg17 main_v13 main_v16
-- ==== Kernel.lean ====
abbrev S1x768 : Shape := ⟨2, ![1, 768]⟩
abbrev S2048x768 : Shape := ⟨2, ![2048, 768]⟩
abbrev S2048 : Shape := ⟨1, ![2048]⟩
abbrev S32768 : Shape := ⟨1, ![32768]⟩
abbrev S100000 : Shape := ⟨1, ![100000]⟩
abbrev S1000x768 : Shape := ⟨2, ![1000, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S100000x768 : Shape := ⟨2, ![100000, 768]⟩
abbrev S768x2304 : Shape := ⟨2, ![768, 2304]⟩
abbrev S1x2304 : Shape := ⟨2, ![1, 2304]⟩
abbrev S256x768 : Shape := ⟨2, ![256, 768]⟩
abbrev S256x2304 : Shape := ⟨2, ![256, 2304]⟩
abbrev S_ : Shape := ⟨0, ![]⟩
abbrev S2048x1 : Shape := ⟨2, ![2048, 1]⟩
abbrev S32768x1 : Shape := ⟨2, ![32768, 1]⟩
abbrev S1 : Shape := ⟨1, ![1]⟩
abbrev S1x1 : Shape := ⟨2, ![1, 1]⟩
abbrev S32768x768 : Shape := ⟨2, ![32768, 768]⟩
abbrev S100000x1 : Shape := ⟨2, ![100000, 1]⟩

abbrev nBuf : Space → Nat
  | .hbm => 213
  | .vmem => 25
  | .smem => 0
  | _ => 0

abbrev hbmTy0_0 (i : Nat) : BufTy := match i % 128 with
  | 0 => ⟨S1x768, .f32⟩
  | 1 => ⟨S2048x768, .f32⟩
  | 2 => ⟨S2048, .i32⟩
  | 3 => ⟨S32768, .i32⟩
  | 4 => ⟨S32768, .i32⟩
  | 5 => ⟨S32768, .i32⟩
  | 6 => ⟨S100000, .i32⟩
  | 7 => ⟨S100000, .i32⟩
  | 8 => ⟨S1000x768, .f32⟩
  | 9 => ⟨S768x768, .f32⟩
  | 10 => ⟨S768, .f32⟩
  | 11 => ⟨S768x768, .f32⟩
  | 12 => ⟨S768, .f32⟩
  | 13 => ⟨S2304x768, .f32⟩
  | 14 => ⟨S2304x768, .f32⟩
  | 15 => ⟨S2304, .f32⟩
  | 16 => ⟨S2304, .f32⟩
  | 17 => ⟨S100000x768, .f32⟩
  | 18 => ⟨S768x768, .f32⟩
  | 19 => ⟨S768x768, .bf16⟩
  | 20 => ⟨S768x768, .f32⟩
  | 21 => ⟨S768x768, .bf16⟩
  | 22 => ⟨S768x2304, .f32⟩
  | 23 => ⟨S768x2304, .bf16⟩
  | 24 => ⟨S768x2304, .f32⟩
  | 25 => ⟨S768x2304, .bf16⟩
  | 26 => ⟨S1x768, .f32⟩
  | 27 => ⟨S1x768, .f32⟩
  | 28 => ⟨S1x2304, .f32⟩
  | 29 => ⟨S1x2304, .f32⟩
  | 30 => ⟨S2048x768, .f32⟩
  | 31 => ⟨S2048x768, .f32⟩
  | 32 => ⟨S_, .i32⟩
  | 33 => ⟨S100000, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S100000, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S32768x1, .i32⟩
  | 61 => ⟨S1, .i32⟩
  | 62 => ⟨S_, .i32⟩
  | 63 => ⟨S32768x1, .i32⟩
  | 64 => ⟨S32768x1, .i1⟩
  | 65 => ⟨S1x1, .i32⟩
  | 66 => ⟨S32768x1, .i32⟩
  | 67 => ⟨S32768x1, .i1⟩
  | 68 => ⟨S32768x1, .i1⟩
  | 69 => ⟨S_, .i1⟩
  | 70 => ⟨S32768, .i1⟩
  | 71 => ⟨S32768x768, .f32⟩
  | 72 => ⟨S32768x768, .i1⟩
  | 73 => ⟨S_, .f32⟩
  | 74 => ⟨S32768x768, .f32⟩
  | 75 => ⟨S32768x768, .f32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S32768x1, .i32⟩
  | 84 => ⟨S1, .i32⟩
  | 85 => ⟨S_, .i32⟩
  | 86 => ⟨S32768x1, .i32⟩
  | 87 => ⟨S32768x1, .i1⟩
  | 88 => ⟨S1x1, .i32⟩
  | 89 => ⟨S32768x1, .i32⟩
  | 90 => ⟨S32768x1, .i1⟩
  | 91 => ⟨S32768x1, .i1⟩
  | 92 => ⟨S_, .i1⟩
  | 93 => ⟨S32768, .i1⟩
  | 94 => ⟨S32768x768, .f32⟩
  | 95 => ⟨S32768x768, .i1⟩
  | 96 => ⟨S_, .f32⟩
  | 97 => ⟨S32768x768, .f32⟩
  | 98 => ⟨S32768x768, .f32⟩
  | 99 => ⟨S32768x768, .f32⟩
  | 100 => ⟨S2048, .i32⟩
  | 101 => ⟨S_, .i32⟩
  | 102 => ⟨S2048, .i32⟩
  | 103 => ⟨S2048, .i32⟩
  | 104 => ⟨S_, .i32⟩
  | 105 => ⟨S32768, .i32⟩
  | 106 => ⟨S32768, .i32⟩
  | 107 => ⟨S_, .i32⟩
  | 108 => ⟨S32768, .i32⟩
  | 109 => ⟨S32768, .i32⟩
  | 110 => ⟨S32768, .i32⟩
  | 111 => ⟨S32768, .i32⟩
  | 112 => ⟨S_, .i32⟩
  | 113 => ⟨S100000, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S100000, .i32⟩
  | 123 => ⟨S_, .i32⟩
  | 124 => ⟨S32768, .i32⟩
  | 125 => ⟨S32768, .i1⟩
  | 126 => ⟨S_, .i32⟩
  | 127 => ⟨S32768, .i32⟩
  | _ => ⟨S1x768, .f32⟩

abbrev hbmTy0_1 (i : Nat) : BufTy := match i % 128 with
  | 0 => ⟨S32768, .i32⟩
  | 1 => ⟨S32768, .i32⟩
  | 2 => ⟨S32768x1, .i32⟩
  | 3 => ⟨S100000, .i32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S2048x1, .i32⟩
  | 12 => ⟨S2048, .i32⟩
  | 13 => ⟨S2048, .i1⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768, .i32⟩
  | 23 => ⟨S32768, .i1⟩
  | 24 => ⟨S_, .f32⟩
  | 25 => ⟨S100000x768, .f32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i1⟩
  | 33 => ⟨S_, .i32⟩
  | 34 => ⟨S2048, .i32⟩
  | 35 => ⟨S2048, .i32⟩
  | 36 => ⟨S2048, .i32⟩
  | 37 => ⟨S2048x1, .i32⟩
  | 38 => ⟨S100000x768, .f32⟩
  | 39 => ⟨S_, .i32⟩
  | 40 => ⟨S_, .i32⟩
  | 41 => ⟨S32768, .i32⟩
  | 42 => ⟨S32768, .i32⟩
  | 43 => ⟨S_, .i32⟩
  | 44 => ⟨S32768, .i32⟩
  | 45 => ⟨S32768, .i1⟩
  | 46 => ⟨S_, .i32⟩
  | 47 => ⟨S32768, .i32⟩
  | 48 => ⟨S32768, .i32⟩
  | 49 => ⟨S32768, .i32⟩
  | 50 => ⟨S32768x1, .i32⟩
  | 51 => ⟨S100000x768, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000, .i32⟩
  | 70 => ⟨S_, .i32⟩
  | 71 => ⟨S100000, .i32⟩
  | 72 => ⟨S100000, .i1⟩
  | 73 => ⟨S100000x1, .i1⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x768, .f32⟩
  | 83 => ⟨S100000x768, .i1⟩
  | 84 => ⟨S100000x768, .f32⟩
  | _ => ⟨S1x768, .f32⟩

abbrev hbmTy (i : Nat) : BufTy := match i / 128 with
  | 0 => hbmTy0_0 i
  | 1 => hbmTy0_1 i
  | _ => ⟨S1x768, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S768x768, .bf16⟩
  | .local _ .vmem, ⟨4, _⟩ => ⟨S1x768, .f32⟩
  | .local _ .vmem, ⟨5, _⟩ => ⟨S768x2304, .bf16⟩
  | .local _ .vmem, ⟨6, _⟩ => ⟨S768x2304, .bf16⟩
  | .local _ .vmem, ⟨7, _⟩ => ⟨S1x2304, .f32⟩
  | .local _ .vmem, ⟨8, _⟩ => ⟨S1x2304, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S768x2304, .bf16⟩
  | .local _ .vmem, ⟨18, _⟩ => ⟨S768x2304, .bf16⟩
  | .local _ .vmem, ⟨19, _⟩ => ⟨S1x2304, .f32⟩
  | .local _ .vmem, ⟨20, _⟩ => ⟨S1x2304, .f32⟩
  | .local _ .vmem, ⟨21, _⟩ => ⟨S768x768, .bf16⟩
  | .local _ .vmem, ⟨22, _⟩ => ⟨S1x768, .f32⟩
  | .local _ .vmem, ⟨23, _⟩ => ⟨S256x768, .f32⟩
  | .local _ .vmem, ⟨24, _⟩ => ⟨S256x768, .f32⟩
  | _, _ => ⟨S1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v29 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_4 : Ref sig .tc := ⟨.hbm, 101, rfl⟩
abbrev main_v33 : Ref sig .tc := ⟨.hbm, 102, rfl⟩
abbrev main_v34 : Ref sig .tc := ⟨.hbm, 103, rfl⟩
abbrev main_c_5 : Ref sig .tc := ⟨.hbm, 104, rfl⟩
abbrev main_v35 : Ref sig .tc := ⟨.hbm, 105, rfl⟩
abbrev main_v36 : Ref sig .tc := ⟨.hbm, 106, rfl⟩
abbrev main_c_6 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_c_7 : Ref sig .tc := ⟨.hbm, 112, rfl⟩
abbrev main_v41 : Ref sig .tc := ⟨.hbm, 113, rfl⟩
abbrev main_c_8 : Ref sig .tc := ⟨.hbm, 114, rfl⟩
abbrev main_v42 : Ref sig .tc := ⟨.hbm, 115, rfl⟩
abbrev main_v43 : Ref sig .tc := ⟨.hbm, 116, rfl⟩
abbrev main_c_9 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_c_10 : Ref sig .tc := ⟨.hbm, 123, rfl⟩
abbrev main_v49 : Ref sig .tc := ⟨.hbm, 124, rfl⟩
abbrev main_v50 : Ref sig .tc := ⟨.hbm, 125, rfl⟩
abbrev main_c_11 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_c_12 : Ref sig .tc := ⟨.hbm, 132, rfl⟩
abbrev main_v56 : Ref sig .tc := ⟨.hbm, 133, rfl⟩
abbrev main_v57 : Ref sig .tc := ⟨.hbm, 134, rfl⟩
abbrev main_c_13 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_c_14 : Ref sig .tc := ⟨.hbm, 142, rfl⟩
abbrev main_v64 : Ref sig .tc := ⟨.hbm, 143, rfl⟩
abbrev main_v65 : Ref sig .tc := ⟨.hbm, 144, rfl⟩
abbrev main_c_15 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst : Ref sig .tc := ⟨.hbm, 152, rfl⟩
abbrev main_v72 : Ref sig .tc := ⟨.hbm, 153, rfl⟩
abbrev main_c_16 : Ref sig .tc := ⟨.hbm, 154, rfl⟩
abbrev main_call2_v0 : Ref sig .tc := ⟨.hbm, 155, rfl⟩
abbrev main_call2_v1 : Ref sig .tc := ⟨.hbm, 156, rfl⟩
abbrev main_v73 : Ref sig .tc := ⟨.hbm, 157, rfl⟩
abbrev main_c_17 : Ref sig .tc := ⟨.hbm, 158, rfl⟩
abbrev main_v74 : Ref sig .tc := ⟨.hbm, 159, rfl⟩
abbrev main_v75 : Ref sig .tc := ⟨.hbm, 160, rfl⟩
abbrev main_c_18 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_c_19 : Ref sig .tc := ⟨.hbm, 167, rfl⟩
abbrev main_call3_v0 : Ref sig .tc := ⟨.hbm, 168, rfl⟩
abbrev main_call3_v1 : Ref sig .tc := ⟨.hbm, 169, rfl⟩
abbrev main_v81 : Ref sig .tc := ⟨.hbm, 170, rfl⟩
abbrev main_c_20 : Ref sig .tc := ⟨.hbm, 171, rfl⟩
abbrev main_v82 : Ref sig .tc := ⟨.hbm, 172, rfl⟩
abbrev main_v83 : Ref sig .tc := ⟨.hbm, 173, rfl⟩
abbrev main_c_21 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_c_22 : Ref sig .tc := ⟨.hbm, 180, rfl⟩
abbrev main_v89 : Ref sig .tc := ⟨.hbm, 181, rfl⟩
abbrev main_v90 : Ref sig .tc := ⟨.hbm, 182, rfl⟩
abbrev main_c_23 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_c_24 : Ref sig .tc := ⟨.hbm, 189, rfl⟩
abbrev main_v96 : Ref sig .tc := ⟨.hbm, 190, rfl⟩
abbrev main_v97 : Ref sig .tc := ⟨.hbm, 191, rfl⟩
abbrev main_c_25 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_c_26 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_c_27 : Ref sig .tc := ⟨.hbm, 202, rfl⟩
abbrev main_v106 : Ref sig .tc := ⟨.hbm, 203, rfl⟩
abbrev main_v107 : Ref sig .tc := ⟨.hbm, 204, rfl⟩
abbrev main_c_28 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_call4_v0 : Ref sig .tc := ⟨.hbm, 211, rfl⟩
abbrev main_v113 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x2304 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x2304 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2304 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2304 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x768 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S768x768_S768x768_1_0 : S768x768.Transposes [1, 0] S768x768
  bitsLt_bf16_f32 : FTy.bits .bf16 < FTy.bits .f32
  transposes_S2304x768_S768x2304_1_0 : S2304x768.Transposes [1, 0] S768x2304
  shapeCasts_S768_S1x768 : S768.ShapeCasts S1x768
  shapeCasts_S2304_S1x2304 : S2304.ShapeCasts S1x2304
  inb_S256x768_S256x768_0_0 : ∀ a, (![0, 0] : Fin 2 → Nat) a + S256x768.size a ≤ S256x768.size a
  h_S256x768 : 0 < S256x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  slices_S256x2304_o0_0_S256x768 : S256x2304.Slices ![0, 0] S256x768
  slices_S256x2304_o0_768_S256x768 : S256x2304.Slices ![0, 768] S256x768
  slices_S256x2304_o0_1536_S256x768 : S256x2304.Slices ![0, 1536] S256x768
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x768_0 : S32768.BroadcastsInDim S32768x768 (![0] : Fin 1 → Fin S32768x768.rank)
  bcast_S_S32768x768 : S_.BroadcastsInDim S32768x768 (![] : Fin 0 → Fin S32768x768.rank)
  shapeCasts_S256x768_S256x768 : S256x768.ShapeCasts S256x768
  bcast_S_S100000x768 : S_.BroadcastsInDim S100000x768 (![] : Fin 0 → Fin S100000x768.rank)
  bcast_S100000_S100000x1_0 : S100000.BroadcastsInDim S100000x1 (![0] : Fin 1 → Fin S100000x1.rank)
  bcast_S100000x1_S100000x768_0_1 : S100000x1.BroadcastsInDim S100000x768 (![0, 1] : Fin 2 → Fin S100000x768.rank)
  dot_S256x768_S768x768_S256x768_1_0_0_1_n_n_wf : DotDims.WF S256x768 S768x768 S256x768 [1] [0] [0] [1] [] []
  dot_S256x768_S768x2304_S256x2304_1_0_0_1_n_n_wf : DotDims.WF S256x768 S768x2304 S256x2304 [1] [0] [0] [1] [] []
  scatter_S100000_S2048x1_S2048_n_0_0_1_wf : ScatterDims.WF S100000 S2048x1 S2048 [] [0] [0] 1
  gather_S100000_S32768x1_S32768_n_0_n_n_0_1_1_wf : GatherDims.WF S100000 S32768x1 S32768 [] [0] [] [0] [] 1 ![1]
  gather_S2048x768_S32768x1_S32768x768_1_0_n_n_0_1_1768_wf : GatherDims.WF S2048x768 S32768x1 S32768x768 [1] [0] [] [0] [] 1 ![1, 768]
  gather_S1000x768_S32768x1_S32768x768_1_0_n_n_0_1_1768_wf : GatherDims.WF S1000x768 S32768x1 S32768x768 [1] [0] [] [0] [] 1 ![1, 768]
  scatter_S100000_S32768x1_S32768_n_0_0_1_wf : ScatterDims.WF S100000 S32768x1 S32768 [] [0] [0] 1
  gather_S100000_S2048x1_S2048_n_0_n_n_0_1_1_wf : GatherDims.WF S100000 S2048x1 S2048 [] [0] [] [0] [] 1 ![1]
  scatter_S100000x768_S2048x1_S2048x768_1_0_0_1_wf : ScatterDims.WF S100000x768 S2048x1 S2048x768 [1] [0] [0] 1
  scatter_S100000x768_S32768x1_S32768x768_1_0_0_1_wf : ScatterDims.WF S100000x768 S32768x1 S32768x768 [1] [0] [0] 1
  gather_S100000_S100000x1_S100000_n_0_n_n_0_1_1_wf : GatherDims.WF S100000 S100000x1 S100000 [] [0] [] [0] [] 1 ![1]
  gather_S100000x768_S100000x1_S100000x768_1_0_n_n_0_1_1768_wf : GatherDims.WF S100000x768 S100000x1 S100000x768 [1] [0] [] [0] [] 1 ![1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x2304.size a ≤ S768x2304.size a
  hwx0_4 : ∀ i : grid0.Coords, EltTy.bits .bf16 = 32 ∨ (Rect.block (s := S768x2304) S768x2304.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x2304.size a ≤ S768x2304.size a
  hwx0_5 : ∀ i : grid0.Coords, EltTy.bits .bf16 = 32 ∨ (Rect.block (s := S768x2304) S768x2304.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2304.size a ≤ S1x2304.size a
  hwx0_6 : ∀ i : grid0.Coords, EltTy.bits .f32 = 32 ∨ (Rect.block (s := S1x2304) S1x2304.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2304.size a ≤ S1x2304.size a
  hwx0_7 : ∀ i : grid0.Coords, EltTy.bits .f32 = 32 ∨ (Rect.block (s := S1x2304) S1x2304.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x768.size a ≤ S2048x768.size a
  hwx0_8 : ∀ i : grid0.Coords, EltTy.bits .f32 = 32 ∨ (Rect.block (s := S2048x768) S256x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S2048x768.size a
  hwx0_9 : ∀ i : grid0.Coords, EltTy.bits .f32 = 32 ∨ (Rect.block (s := S2048x768) S256x768.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S32768x768.size a
  hwx1_0 : ∀ i : grid1.Coords, EltTy.bits .f32 = 32 ∨ (Rect.block (s := S32768x768) S256x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S32768x768.size a
  hwx1_1 : ∀ i : grid1.Coords, EltTy.bits .f32 = 32 ∨ (Rect.block (s := S32768x768) S256x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x2304.size a ≤ S768x2304.size a
  hwx1_2 : ∀ i : grid1.Coords, EltTy.bits .bf16 = 32 ∨ (Rect.block (s := S768x2304) S768x2304.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x2304.size a ≤ S768x2304.size a
  hwx1_3 : ∀ i : grid1.Coords, EltTy.bits .bf16 = 32 ∨ (Rect.block (s := S768x2304) S768x2304.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2304.size a ≤ S1x2304.size a
  hwx1_4 : ∀ i : grid1.Coords, EltTy.bits .f32 = 32 ∨ (Rect.block (s := S1x2304) S1x2304.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2304.size a ≤ S1x2304.size a
  hwx1_5 : ∀ i : grid1.Coords, EltTy.bits .f32 = 32 ∨ (Rect.block (s := S1x2304) S1x2304.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x768.size a ≤ S768x768.size a
  hwx1_6 : ∀ i : grid1.Coords, EltTy.bits .bf16 = 32 ∨ (Rect.block (s := S768x768) S768x768.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x768.size a ≤ S32768x768.size a
  hwx1_8 : ∀ i : grid1.Coords, EltTy.bits .f32 = 32 ∨ (Rect.block (s := S32768x768) S256x768.size (cc1_transform_8 i) (hinb1_8 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def scatter_S100000_S2048x1_S2048_n_0_0_1 : ScatterDims S100000 S2048x1 S2048 where
  updateWindowDims := []
  insertedWindowDims := [0]
  scatterDimsToOperandDims := [0]
  indexVectorDim := 1
  wf := scatter_S100000_S2048x1_S2048_n_0_0_1_wf
def gather_S100000_S32768x1_S32768_n_0_n_n_0_1_1 : GatherDims S100000 S32768x1 S32768 where
  offsetDims := []
  collapsedSliceDims := [0]
  operandBatchingDims := []
  startIndicesBatchingDims := []
  startIndexMap := [0]
  indexVectorDim := 1
  sliceSizes := ![1]
  wf := gather_S100000_S32768x1_S32768_n_0_n_n_0_1_1_wf
def gather_S2048x768_S32768x1_S32768x768_1_0_n_n_0_1_1768 : GatherDims S2048x768 S32768x1 S32768x768 where
  offsetDims := [1]
  collapsedSliceDims := [0]
  operandBatchingDims := []
  startIndicesBatchingDims := []
  startIndexMap := [0]
  indexVectorDim := 1
  sliceSizes := ![1, 768]
  wf := gather_S2048x768_S32768x1_S32768x768_1_0_n_n_0_1_1768_wf
def gather_S1000x768_S32768x1_S32768x768_1_0_n_n_0_1_1768 : GatherDims S1000x768 S32768x1 S32768x768 where
  offsetDims := [1]
  collapsedSliceDims := [0]
  operandBatchingDims := []
  startIndicesBatchingDims := []
  startIndexMap := [0]
  indexVectorDim := 1
  sliceSizes := ![1, 768]
  wf := gather_S1000x768_S32768x1_S32768x768_1_0_n_n_0_1_1768_wf
def scatter_S100000_S32768x1_S32768_n_0_0_1 : ScatterDims S100000 S32768x1 S32768 where
  updateWindowDims := []
  insertedWindowDims := [0]
  scatterDimsToOperandDims := [0]
  indexVectorDim := 1
  wf := scatter_S100000_S32768x1_S32768_n_0_0_1_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf
def scatter_S100000x768_S2048x1_S2048x768_1_0_0_1 : ScatterDims S100000x768 S2048x1 S2048x768 where
  updateWindowDims := [1]
  insertedWindowDims := [0]
  scatterDimsToOperandDims := [0]
  indexVectorDim := 1
  wf := scatter_S100000x768_S2048x1_S2048x768_1_0_0_1_wf
def scatter_S100000x768_S32768x1_S32768x768_1_0_0_1 : ScatterDims S100000x768 S32768x1 S32768x768 where
  updateWindowDims := [1]
  insertedWindowDims := [0]
  scatterDimsToOperandDims := [0]
  indexVectorDim := 1
  wf := scatter_S100000x768_S32768x1_S32768x768_1_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x768_S100000x1_S100000x768_1_0_n_n_0_1_1768 : GatherDims S100000x768 S100000x1 S100000x768 where
  offsetDims := [1]
  collapsedSliceDims := [0]
  operandBatchingDims := []
  startIndicesBatchingDims := []
  startIndexMap := [0]
  indexVectorDim := 1
  sliceSizes := ![1, 768]
  wf := gather_S100000x768_S100000x1_S100000x768_1_0_n_n_0_1_1768_wf

abbrev win0_0 : Pipeline.Window sig grid0 :=
  Pipeline.Window.ofSpec (Memref.whole main_arg1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S768x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x2304.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x2304.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x2304.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S256x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S256x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S768x2304.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S768x2304.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x2304.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x2304.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S768x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S256x768.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1x768 : Shape := ⟨2, ![1, 768]⟩
abbrev S2048x768 : Shape := ⟨2, ![2048, 768]⟩
abbrev S2048 : Shape := ⟨1, ![2048]⟩
abbrev S32768 : Shape := ⟨1, ![32768]⟩
abbrev S100000 : Shape := ⟨1, ![100000]⟩
abbrev S1000x768 : Shape := ⟨2, ![1000, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S100000x768 : Shape := ⟨2, ![100000, 768]⟩
abbrev S768x2304 : Shape := ⟨2, ![768, 2304]⟩
abbrev S2048x2304 : Shape := ⟨2, ![2048, 2304]⟩
abbrev S1x2304 : Shape := ⟨2, ![1, 2304]⟩
abbrev S_ : Shape := ⟨0, ![]⟩
abbrev S2048x1 : Shape := ⟨2, ![2048, 1]⟩
abbrev S32768x1 : Shape := ⟨2, ![32768, 1]⟩
abbrev S32768x768 : Shape := ⟨2, ![32768, 768]⟩
abbrev S32768x2304 : Shape := ⟨2, ![32768, 2304]⟩
abbrev S100000x1 : Shape := ⟨2, ![100000, 1]⟩

abbrev nBuf : Space → Nat
  | .hbm => 269
  | .vmem => 0
  | .smem => 0
  | _ => 0

abbrev hbmTy0_0 (i : Nat) : BufTy := match i % 128 with
  | 0 => ⟨S1x768, .f32⟩
  | 1 => ⟨S2048x768, .f32⟩
  | 2 => ⟨S2048, .i32⟩
  | 3 => ⟨S32768, .i32⟩
  | 4 => ⟨S32768, .i32⟩
  | 5 => ⟨S32768, .i32⟩
  | 6 => ⟨S100000, .i32⟩
  | 7 => ⟨S100000, .i32⟩
  | 8 => ⟨S1000x768, .f32⟩
  | 9 => ⟨S768x768, .f32⟩
  | 10 => ⟨S768, .f32⟩
  | 11 => ⟨S768x768, .f32⟩
  | 12 => ⟨S768, .f32⟩
  | 13 => ⟨S2304x768, .f32⟩
  | 14 => ⟨S2304x768, .f32⟩
  | 15 => ⟨S2304, .f32⟩
  | 16 => ⟨S2304, .f32⟩
  | 17 => ⟨S100000x768, .f32⟩
  | 18 => ⟨S768x768, .f32⟩
  | 19 => ⟨S2048x768, .f32⟩
  | 20 => ⟨S1x768, .f32⟩
  | 21 => ⟨S2048x768, .f32⟩
  | 22 => ⟨S2048x768, .f32⟩
  | 23 => ⟨S2048x768, .f32⟩
  | 24 => ⟨S2048x768, .f32⟩
  | 25 => ⟨S768x2304, .f32⟩
  | 26 => ⟨S2048x2304, .f32⟩
  | 27 => ⟨S1x2304, .f32⟩
  | 28 => ⟨S2048x2304, .f32⟩
  | 29 => ⟨S2048x2304, .f32⟩
  | 30 => ⟨S768x2304, .f32⟩
  | 31 => ⟨S2048x2304, .f32⟩
  | 32 => ⟨S1x2304, .f32⟩
  | 33 => ⟨S2048x2304, .f32⟩
  | 34 => ⟨S2048x2304, .f32⟩
  | 35 => ⟨S2048x768, .f32⟩
  | 36 => ⟨S2048x768, .f32⟩
  | 37 => ⟨S2048x768, .f32⟩
  | 38 => ⟨S2048x768, .f32⟩
  | 39 => ⟨S2048x768, .f32⟩
  | 40 => ⟨S2048x768, .f32⟩
  | 41 => ⟨S2048x768, .f32⟩
  | 42 => ⟨S2048x768, .f32⟩
  | 43 => ⟨S2048x768, .f32⟩
  | 44 => ⟨S_, .f32⟩
  | 45 => ⟨S2048x768, .f32⟩
  | 46 => ⟨S2048x768, .f32⟩
  | 47 => ⟨S_, .f32⟩
  | 48 => ⟨S2048x768, .f32⟩
  | 49 => ⟨S2048x768, .f32⟩
  | 50 => ⟨S2048x768, .f32⟩
  | 51 => ⟨S2048x768, .f32⟩
  | 52 => ⟨S2048x768, .f32⟩
  | 53 => ⟨S_, .f32⟩
  | 54 => ⟨S2048x768, .f32⟩
  | 55 => ⟨S2048x768, .f32⟩
  | 56 => ⟨S_, .f32⟩
  | 57 => ⟨S2048x768, .f32⟩
  | 58 => ⟨S2048x768, .f32⟩
  | 59 => ⟨S2048x768, .f32⟩
  | 60 => ⟨S2048x768, .f32⟩
  | 61 => ⟨S2048x768, .f32⟩
  | 62 => ⟨S_, .f32⟩
  | 63 => ⟨S2048x768, .f32⟩
  | 64 => ⟨S2048x768, .f32⟩
  | 65 => ⟨S2048x768, .f32⟩
  | 66 => ⟨S2048x768, .f32⟩
  | 67 => ⟨S2048x768, .f32⟩
  | 68 => ⟨S_, .i32⟩
  | 69 => ⟨S100000, .i32⟩
  | 70 => ⟨S2048, .i32⟩
  | 71 => ⟨S_, .i32⟩
  | 72 => ⟨S2048, .i32⟩
  | 73 => ⟨S2048, .i1⟩
  | 74 => ⟨S_, .i32⟩
  | 75 => ⟨S2048, .i32⟩
  | 76 => ⟨S2048, .i32⟩
  | 77 => ⟨S2048, .i32⟩
  | 78 => ⟨S2048x1, .i32⟩
  | 79 => ⟨S100000, .i32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x768, .f32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S32768x768, .f32⟩
  | 107 => ⟨S768x2304, .f32⟩
  | 108 => ⟨S32768x2304, .f32⟩
  | 109 => ⟨S1x2304, .f32⟩
  | 110 => ⟨S32768x2304, .f32⟩
  | 111 => ⟨S32768x2304, .f32⟩
  | 112 => ⟨S768x2304, .f32⟩
  | 113 => ⟨S32768x2304, .f32⟩
  | 114 => ⟨S1x2304, .f32⟩
  | 115 => ⟨S32768x2304, .f32⟩
  | 116 => ⟨S32768x2304, .f32⟩
  | 117 => ⟨S32768x768, .f32⟩
  | 118 => ⟨S32768x768, .f32⟩
  | 119 => ⟨S32768x768, .f32⟩
  | 120 => ⟨S32768x768, .f32⟩
  | 121 => ⟨S32768x768, .f32⟩
  | 122 => ⟨S32768x768, .f32⟩
  | 123 => ⟨S32768x768, .f32⟩
  | 124 => ⟨S32768x768, .f32⟩
  | 125 => ⟨S32768x768, .f32⟩
  | 126 => ⟨S_, .f32⟩
  | 127 => ⟨S32768x768, .f32⟩
  | _ => ⟨S1x768, .f32⟩

abbrev hbmTy0_1 (i : Nat) : BufTy := match i % 128 with
  | 0 => ⟨S32768x768, .f32⟩
  | 1 => ⟨S_, .f32⟩
  | 2 => ⟨S32768x768, .f32⟩
  | 3 => ⟨S32768x768, .f32⟩
  | 4 => ⟨S32768x768, .f32⟩
  | 5 => ⟨S32768x768, .f32⟩
  | 6 => ⟨S32768x768, .f32⟩
  | 7 => ⟨S_, .f32⟩
  | 8 => ⟨S32768x768, .f32⟩
  | 9 => ⟨S32768x768, .f32⟩
  | 10 => ⟨S_, .f32⟩
  | 11 => ⟨S32768x768, .f32⟩
  | 12 => ⟨S32768x768, .f32⟩
  | 13 => ⟨S32768x768, .f32⟩
  | 14 => ⟨S32768x768, .f32⟩
  | 15 => ⟨S32768x768, .f32⟩
  | 16 => ⟨S_, .f32⟩
  | 17 => ⟨S32768x768, .f32⟩
  | 18 => ⟨S32768x768, .f32⟩
  | 19 => ⟨S32768x768, .f32⟩
  | 20 => ⟨S32768x768, .f32⟩
  | 21 => ⟨S32768x768, .f32⟩
  | 22 => ⟨S768x768, .f32⟩
  | 23 => ⟨S32768x768, .f32⟩
  | 24 => ⟨S1x768, .f32⟩
  | 25 => ⟨S32768x768, .f32⟩
  | 26 => ⟨S32768x768, .f32⟩
  | 27 => ⟨S32768x768, .f32⟩
  | 28 => ⟨S2048, .i32⟩
  | 29 => ⟨S_, .i32⟩
  | 30 => ⟨S2048, .i32⟩
  | 31 => ⟨S2048, .i32⟩
  | 32 => ⟨S_, .i32⟩
  | 33 => ⟨S32768, .i32⟩
  | 34 => ⟨S32768, .i32⟩
  | 35 => ⟨S_, .i32⟩
  | 36 => ⟨S32768, .i32⟩
  | 37 => ⟨S32768, .i32⟩
  | 38 => ⟨S32768, .i32⟩
  | 39 => ⟨S32768, .i32⟩
  | 40 => ⟨S_, .i32⟩
  | 41 => ⟨S100000, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S100000, .i32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S100000, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S2048x1, .i32⟩
  | 68 => ⟨S2048, .i32⟩
  | 69 => ⟨S2048, .i1⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768, .i32⟩
  | 79 => ⟨S32768, .i1⟩
  | 80 => ⟨S_, .f32⟩
  | 81 => ⟨S100000x768, .f32⟩
  | 82 => ⟨S_, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i1⟩
  | 89 => ⟨S_, .i32⟩
  | 90 => ⟨S2048, .i32⟩
  | 91 => ⟨S2048, .i32⟩
  | 92 => ⟨S2048, .i32⟩
  | 93 => ⟨S2048x1, .i32⟩
  | 94 => ⟨S100000x768, .f32⟩
  | 95 => ⟨S_, .i32⟩
  | 96 => ⟨S_, .i32⟩
  | 97 => ⟨S32768, .i32⟩
  | 98 => ⟨S32768, .i32⟩
  | 99 => ⟨S_, .i32⟩
  | 100 => ⟨S32768, .i32⟩
  | 101 => ⟨S32768, .i1⟩
  | 102 => ⟨S_, .i32⟩
  | 103 => ⟨S32768, .i32⟩
  | 104 => ⟨S32768, .i32⟩
  | 105 => ⟨S32768, .i32⟩
  | 106 => ⟨S32768x1, .i32⟩
  | 107 => ⟨S100000x768, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000, .i32⟩
  | 126 => ⟨S_, .i32⟩
  | 127 => ⟨S100000, .i32⟩
  | _ => ⟨S1x768, .f32⟩

abbrev hbmTy0_2 (i : Nat) : BufTy := match i % 128 with
  | 0 => ⟨S100000, .i1⟩
  | 1 => ⟨S100000x1, .i1⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x768, .f32⟩
  | 11 => ⟨S100000x768, .i1⟩
  | 12 => ⟨S100000x768, .f32⟩
  | _ => ⟨S1x768, .f32⟩

abbrev hbmTy (i : Nat) : BufTy := match i / 128 with
  | 0 => hbmTy0_0 i
  | 1 => hbmTy0_1 i
  | 2 => hbmTy0_2 i
  | _ => ⟨S1x768, .f32⟩

abbrev bufTy : (tb : Table) → Fin (tcTables nBuf tb) → BufTy
  | .hbm, ⟨i, _⟩ => hbmTy i
  | _, _ => ⟨S1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_8 : Ref sig .tc := ⟨.hbm, 89, rfl⟩
abbrev main_v61 : Ref sig .tc := ⟨.hbm, 90, rfl⟩
abbrev main_v62 : Ref sig .tc := ⟨.hbm, 91, rfl⟩
abbrev main_c_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_10 : Ref sig .tc := ⟨.hbm, 98, rfl⟩
abbrev main_v68 : Ref sig .tc := ⟨.hbm, 99, rfl⟩
abbrev main_v69 : Ref sig .tc := ⟨.hbm, 100, rfl⟩
abbrev main_c_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_cst_13 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_14 : Ref sig .tc := ⟨.hbm, 135, rfl⟩
abbrev main_v101 : Ref sig .tc := ⟨.hbm, 136, rfl⟩
abbrev main_v102 : Ref sig .tc := ⟨.hbm, 137, rfl⟩
abbrev main_cst_15 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_16 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_17 : Ref sig .tc := ⟨.hbm, 157, rfl⟩
abbrev main_v120 : Ref sig .tc := ⟨.hbm, 158, rfl⟩
abbrev main_v121 : Ref sig .tc := ⟨.hbm, 159, rfl⟩
abbrev main_c_18 : Ref sig .tc := ⟨.hbm, 160, rfl⟩
abbrev main_v122 : Ref sig .tc := ⟨.hbm, 161, rfl⟩
abbrev main_v123 : Ref sig .tc := ⟨.hbm, 162, rfl⟩
abbrev main_c_19 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_20 : Ref sig .tc := ⟨.hbm, 168, rfl⟩
abbrev main_v128 : Ref sig .tc := ⟨.hbm, 169, rfl⟩
abbrev main_c_21 : Ref sig .tc := ⟨.hbm, 170, rfl⟩
abbrev main_v129 : Ref sig .tc := ⟨.hbm, 171, rfl⟩
abbrev main_v130 : Ref sig .tc := ⟨.hbm, 172, rfl⟩
abbrev main_c_22 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_23 : Ref sig .tc := ⟨.hbm, 179, rfl⟩
abbrev main_v136 : Ref sig .tc := ⟨.hbm, 180, rfl⟩
abbrev main_v137 : Ref sig .tc := ⟨.hbm, 181, rfl⟩
abbrev main_c_24 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_25 : Ref sig .tc := ⟨.hbm, 188, rfl⟩
abbrev main_v143 : Ref sig .tc := ⟨.hbm, 189, rfl⟩
abbrev main_v144 : Ref sig .tc := ⟨.hbm, 190, rfl⟩
abbrev main_c_26 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_c_27 : Ref sig .tc := ⟨.hbm, 198, rfl⟩
abbrev main_v151 : Ref sig .tc := ⟨.hbm, 199, rfl⟩
abbrev main_v152 : Ref sig .tc := ⟨.hbm, 200, rfl⟩
abbrev main_c_28 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_29 : Ref sig .tc := ⟨.hbm, 208, rfl⟩
abbrev main_v159 : Ref sig .tc := ⟨.hbm, 209, rfl⟩
abbrev main_c_30 : Ref sig .tc := ⟨.hbm, 210, rfl⟩
abbrev main_call0_v0 : Ref sig .tc := ⟨.hbm, 211, rfl⟩
abbrev main_call0_v1 : Ref sig .tc := ⟨.hbm, 212, rfl⟩
abbrev main_v160 : Ref sig .tc := ⟨.hbm, 213, rfl⟩
abbrev main_c_31 : Ref sig .tc := ⟨.hbm, 214, rfl⟩
abbrev main_v161 : Ref sig .tc := ⟨.hbm, 215, rfl⟩
abbrev main_v162 : Ref sig .tc := ⟨.hbm, 216, rfl⟩
abbrev main_c_32 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_33 : Ref sig .tc := ⟨.hbm, 223, rfl⟩
abbrev main_call1_v0 : Ref sig .tc := ⟨.hbm, 224, rfl⟩
abbrev main_call1_v1 : Ref sig .tc := ⟨.hbm, 225, rfl⟩
abbrev main_v168 : Ref sig .tc := ⟨.hbm, 226, rfl⟩
abbrev main_c_34 : Ref sig .tc := ⟨.hbm, 227, rfl⟩
abbrev main_v169 : Ref sig .tc := ⟨.hbm, 228, rfl⟩
abbrev main_v170 : Ref sig .tc := ⟨.hbm, 229, rfl⟩
abbrev main_c_35 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_c_36 : Ref sig .tc := ⟨.hbm, 236, rfl⟩
abbrev main_v176 : Ref sig .tc := ⟨.hbm, 237, rfl⟩
abbrev main_v177 : Ref sig .tc := ⟨.hbm, 238, rfl⟩
abbrev main_c_37 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_c_38 : Ref sig .tc := ⟨.hbm, 245, rfl⟩
abbrev main_v183 : Ref sig .tc := ⟨.hbm, 246, rfl⟩
abbrev main_v184 : Ref sig .tc := ⟨.hbm, 247, rfl⟩
abbrev main_c_39 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_c_40 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_c_41 : Ref sig .tc := ⟨.hbm, 258, rfl⟩
abbrev main_v193 : Ref sig .tc := ⟨.hbm, 259, rfl⟩
abbrev main_v194 : Ref sig .tc := ⟨.hbm, 260, rfl⟩
abbrev main_c_42 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_call2_v0 : Ref sig .tc := ⟨.hbm, 267, rfl⟩
abbrev main_v200 : Ref sig .tc := ⟨.hbm, 268, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  transposes_S2304x768_S768x2304_1_0 : S2304x768.Transposes [1, 0] S768x2304
  bcast_S2304_S1x2304_1 : S2304.BroadcastsInDim S1x2304 (![1] : Fin 1 → Fin S1x2304.rank)
  bcast_S1x2304_S2048x2304_0_1 : S1x2304.BroadcastsInDim S2048x2304 (![0, 1] : Fin 2 → Fin S2048x2304.rank)
  slices_S2048x2304_S2048x768_0_0 : S2048x2304.Slices ![0, 0] S2048x768
  slices_S2048x2304_S2048x768_0_768 : S2048x2304.Slices ![0, 768] S2048x768
  slices_S2048x2304_S2048x768_0_1536 : S2048x2304.Slices ![0, 1536] S2048x768
  bcast_S_S2048x768 : S_.BroadcastsInDim S2048x768 (![] : Fin 0 → Fin S2048x768.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S1x2304_S32768x2304_0_1 : S1x2304.BroadcastsInDim S32768x2304 (![0, 1] : Fin 2 → Fin S32768x2304.rank)
  slices_S32768x2304_S32768x768_0_0 : S32768x2304.Slices ![0, 0] S32768x768
  slices_S32768x2304_S32768x768_0_768 : S32768x2304.Slices ![0, 768] S32768x768
  slices_S32768x2304_S32768x768_0_1536 : S32768x2304.Slices ![0, 1536] S32768x768
  bcast_S_S32768x768 : S_.BroadcastsInDim S32768x768 (![] : Fin 0 → Fin S32768x768.rank)
  bcast_S1x768_S32768x768_0_1 : S1x768.BroadcastsInDim S32768x768 (![0, 1] : Fin 2 → Fin S32768x768.rank)
  bcast_S_S100000x768 : S_.BroadcastsInDim S100000x768 (![] : Fin 0 → Fin S100000x768.rank)
  bcast_S100000_S100000x1_0 : S100000.BroadcastsInDim S100000x1 (![0] : Fin 1 → Fin S100000x1.rank)
  bcast_S100000x1_S100000x768_0_1 : S100000x1.BroadcastsInDim S100000x768 (![0, 1] : Fin 2 → Fin S100000x768.rank)
  dot_S2048x768_S768x768_S2048x768_1_0_0_1_n_n_wf : DotDims.WF S2048x768 S768x768 S2048x768 [1] [0] [0] [1] [] []
  dot_S2048x768_S768x2304_S2048x2304_1_0_0_1_n_n_wf : DotDims.WF S2048x768 S768x2304 S2048x2304 [1] [0] [0] [1] [] []
  scatter_S100000_S2048x1_S2048_n_0_0_1_wf : ScatterDims.WF S100000 S2048x1 S2048 [] [0] [0] 1
  gather_S100000_S32768x1_S32768_n_0_n_n_0_1_1_wf : GatherDims.WF S100000 S32768x1 S32768 [] [0] [] [0] [] 1 ![1]
  gather_S1000x768_S32768x1_S32768x768_1_0_n_n_0_1_1768_wf : GatherDims.WF S1000x768 S32768x1 S32768x768 [1] [0] [] [0] [] 1 ![1, 768]
  gather_S2048x768_S32768x1_S32768x768_1_0_n_n_0_1_1768_wf : GatherDims.WF S2048x768 S32768x1 S32768x768 [1] [0] [] [0] [] 1 ![1, 768]
  dot_S32768x768_S768x2304_S32768x2304_1_0_0_1_n_n_wf : DotDims.WF S32768x768 S768x2304 S32768x2304 [1] [0] [0] [1] [] []
  dot_S32768x768_S768x768_S32768x768_1_0_0_1_n_n_wf : DotDims.WF S32768x768 S768x768 S32768x768 [1] [0] [0] [1] [] []
  scatter_S100000_S32768x1_S32768_n_0_0_1_wf : ScatterDims.WF S100000 S32768x1 S32768 [] [0] [0] 1
  gather_S100000_S2048x1_S2048_n_0_n_n_0_1_1_wf : GatherDims.WF S100000 S2048x1 S2048 [] [0] [] [0] [] 1 ![1]
  scatter_S100000x768_S2048x1_S2048x768_1_0_0_1_wf : ScatterDims.WF S100000x768 S2048x1 S2048x768 [1] [0] [0] 1
  scatter_S100000x768_S32768x1_S32768x768_1_0_0_1_wf : ScatterDims.WF S100000x768 S32768x1 S32768x768 [1] [0] [0] 1
  gather_S100000_S100000x1_S100000_n_0_n_n_0_1_1_wf : GatherDims.WF S100000 S100000x1 S100000 [] [0] [] [0] [] 1 ![1]
  gather_S100000x768_S100000x1_S100000x768_1_0_n_n_0_1_1768_wf : GatherDims.WF S100000x768 S100000x1 S100000x768 [1] [0] [] [0] [] 1 ![1, 768]

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x768_S768x2304_S2048x2304_1_0_0_1_n_n : DotDims S2048x768 S768x2304 S2048x2304 where
  lhsContracting := [1]
  rhsContracting := [0]
  lhsNonContracting := [0]
  rhsNonContracting := [1]
  lhsBatch := []
  rhsBatch := []
  wf := dot_S2048x768_S768x2304_S2048x2304_1_0_0_1_n_n_wf
def scatter_S100000_S2048x1_S2048_n_0_0_1 : ScatterDims S100000 S2048x1 S2048 where
  updateWindowDims := []
  insertedWindowDims := [0]
  scatterDimsToOperandDims := [0]
  indexVectorDim := 1
  wf := scatter_S100000_S2048x1_S2048_n_0_0_1_wf
def gather_S100000_S32768x1_S32768_n_0_n_n_0_1_1 : GatherDims S100000 S32768x1 S32768 where
  offsetDims := []
  collapsedSliceDims := [0]
  operandBatchingDims := []
  startIndicesBatchingDims := []
  startIndexMap := [0]
  indexVectorDim := 1
  sliceSizes := ![1]
  wf := gather_S100000_S32768x1_S32768_n_0_n_n_0_1_1_wf
def gather_S1000x768_S32768x1_S32768x768_1_0_n_n_0_1_1768 : GatherDims S1000x768 S32768x1 S32768x768 where
  offsetDims := [1]
  collapsedSliceDims := [0]
  operandBatchingDims := []
  startIndicesBatchingDims := []
  startIndexMap := [0]
  indexVectorDim := 1
  sliceSizes := ![1, 768]
  wf := gather_S1000x768_S32768x1_S32768x768_1_0_n_n_0_1_1768_wf
def gather_S2048x768_S32768x1_S32768x768_1_0_n_n_0_1_1768 : GatherDims S2048x768 S32768x1 S32768x768 where
  offsetDims := [1]
  collapsedSliceDims := [0]
  operandBatchingDims := []
  startIndicesBatchingDims := []
  startIndexMap := [0]
  indexVectorDim := 1
  sliceSizes := ![1, 768]
  wf := gather_S2048x768_S32768x1_S32768x768_1_0_n_n_0_1_1768_wf
def dot_S32768x768_S768x2304_S32768x2304_1_0_0_1_n_n : DotDims S32768x768 S768x2304 S32768x2304 where
  lhsContracting := [1]
  rhsContracting := [0]
  lhsNonContracting := [0]
  rhsNonContracting := [1]
  lhsBatch := []
  rhsBatch := []
  wf := dot_S32768x768_S768x2304_S32768x2304_1_0_0_1_n_n_wf
def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def scatter_S100000_S32768x1_S32768_n_0_0_1 : ScatterDims S100000 S32768x1 S32768 where
  updateWindowDims := []
  insertedWindowDims := [0]
  scatterDimsToOperandDims := [0]
  indexVectorDim := 1
  wf := scatter_S100000_S32768x1_S32768_n_0_0_1_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf
def scatter_S100000x768_S2048x1_S2048x768_1_0_0_1 : ScatterDims S100000x768 S2048x1 S2048x768 where
  updateWindowDims := [1]
  insertedWindowDims := [0]
  scatterDimsToOperandDims := [0]
  indexVectorDim := 1
  wf := scatter_S100000x768_S2048x1_S2048x768_1_0_0_1_wf
def scatter_S100000x768_S32768x1_S32768x768_1_0_0_1 : ScatterDims S100000x768 S32768x1 S32768x768 where
  updateWindowDims := [1]
  insertedWindowDims := [0]
  scatterDimsToOperandDims := [0]
  indexVectorDim := 1
  wf := scatter_S100000x768_S32768x1_S32768x768_1_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x768_S100000x1_S100000x768_1_0_n_n_0_1_1768 : GatherDims S100000x768 S100000x1 S100000x768 where
  offsetDims := [1]
  collapsedSliceDims := [0]
  operandBatchingDims := []
  startIndicesBatchingDims := []
  startIndexMap := [0]
  indexVectorDim := 1
  sliceSizes := ![1, 768]
  wf := gather_S100000x768_S100000x1_S100000x768_1_0_n_n_0_1_1768_wf

class Facts : Prop extends Facts₀ where

variable [Facts]
-- ==== Proof.Spec.lean ====
/-
  The mathematics both programs compute, on the extended reals, one row at a time.

  A linear layer sends a row `x` (length K) to `x · w + b`: entry `n` is `∑ k, x k * w k n + b n`.
  The recurrent cell takes an input row `x` and a state row `h` (both of length 768), forms the two
  gate rows `gi = x · wi + bi` and `gh = h · wh + bh` (length 3·768: reset, update and candidate
  thirds, at column offsets 0, 768 and 1536), and returns
      (1 - z) * n + z * h,   r = σ(gi₀ + gh₀),  z = σ(gi₁ + gh₁),  n = tanh(gi₂ + r * gh₂),
  with σ the logistic function.  Nothing here is rounded, and nothing needs a finite operand: the
  two programs add the same products in the same orientation, so they are compared term by term.

  Over whole arrays (any number of rows R), with the weights given as functions `k ↦ n ↦ w k n`:
    SUBg  row i = tanh (mask_i · w + b)
    R0g   row i = cell (enc, SUBg_i)
    OBJg  row i = tanh (cell (x_i, h_i) · wo + bo)
  A weight matrix stored [out, in] enters through `wT`, one stored [in, out] through `mat`.
-/
import Idealize.ShloMosaic.PureOps.Ideal
import Idealize.ShloMosaic.PureOps.IdealRules
import Idealize.ShloMosaic.Lib.ValueIdx

noncomputable section

namespace Cert.Spec

open Idealize.ShloMosaic Idealize.ShloMosaic.ValueIdx

/-- Entry `n` of the row `x · w + b`. -/
def lin {K N : Nat} (x : Fin K → EReal) (w : Fin K → Fin N → EReal) (b : Fin N → EReal) (n : Fin N) : EReal :=
  (∑ k : Fin K, x k * w k n) + b n

/-- Column `j` of the reset third of a gate row. -/
def col0 (j : Fin 768) : Fin 2304 := ⟨j.val, by have := j.isLt; omega⟩
/-- Column `j` of the update third. -/
def col1 (j : Fin 768) : Fin 2304 := ⟨768 + j.val, by have := j.isLt; omega⟩
/-- Column `j` of the candidate third. -/
def col2 (j : Fin 768) : Fin 2304 := ⟨1536 + j.val, by have := j.isLt; omega⟩

/-- Entry `j` of the recurrent cell's new state from input row `x` and state row `h`. -/
def gru (x h : Fin 768 → EReal) (wi wh : Fin 768 → Fin 2304 → EReal) (bi bh : Fin 2304 → EReal) (j : Fin 768) : EReal :=
  (1 - Ideal.logistic (lin x wi bi (col1 j) + lin h wh bh (col1 j)))
      * Ideal.tanh (lin x wi bi (col2 j) + Ideal.logistic (lin x wi bi (col0 j) + lin h wh bh (col0 j)) * lin h wh bh (col2 j))
    + Ideal.logistic (lin x wi bi (col1 j) + lin h wh bh (col1 j)) * h j

/-- A matrix of extended reals with `r` rows and `c` columns. -/
abbrev Mat (r c : Nat) := (⟨2, ![r, c]⟩ : Shape).Idx → EReal
/-- A vector of extended reals of length `n`. -/
abbrev Vec1 (n : Nat) := (⟨1, ![n]⟩ : Shape).Idx → EReal

/-- Row `i` of a matrix. -/
def row {r c : Nat} (a : Mat r c) (i : Fin r) : Fin c → EReal := fun k => a (ix2 i k)
/-- A weight matrix stored [out, in], used transposed: `k ↦ n ↦ w n k`. -/
def wT {o i : Nat} (w : Mat o i) : Fin i → Fin o → EReal := fun k n => w (ix2 n k)
/-- A vector as a function of its one coordinate. -/
def vec {n : Nat} (b : Vec1 n) : Fin n → EReal := fun j => b (ix1 j)

/-- A matrix already stored [in, out], as `k ↦ n ↦ w k n`. -/
def mat {i o : Nat} (w : Mat i o) : Fin i → Fin o → EReal := fun k n => w (ix2 k n)

/-- The per-seed embedding: row `i` is `tanh (mask_i · w + b)`. -/
def SUBg {R : Nat} (mask : Mat R 768) (w : Fin 768 → Fin 768 → EReal) (b : Fin 768 → EReal) : Mat R 768 :=
  fun i => Ideal.tanh (lin (row mask ⟨(i 0).val, idx2_lt0 i⟩) w b ⟨(i 1).val, idx2_lt1 i⟩)

/-- The first recurrent step: row `i` is the cell of the one encoder row and row `i` of `SUBg`. -/
def R0g {R : Nat} (enc : Fin 768 → EReal) (mask : Mat R 768) (w : Fin 768 → Fin 768 → EReal) (b : Fin 768 → EReal)
    (wi wh : Fin 768 → Fin 2304 → EReal) (bi bh : Fin 2304 → EReal) : Mat R 768 :=
  fun i => gru enc (row (SUBg mask w b) ⟨(i 0).val, idx2_lt0 i⟩) wi wh bi bh ⟨(i 1).val, idx2_lt1 i⟩

/-- The per-edge embedding: row `i` is `tanh (cell (x_i, h_i) · wo + bo)`. -/
def OBJg {R : Nat} (x h : Mat R 768) (wi wh : Fin 768 → Fin 2304 → EReal) (bi bh : Fin 2304 → EReal)
    (wo : Fin 768 → Fin 768 → EReal) (bo : Fin 768 → EReal) : Mat R 768 :=
  fun i => Ideal.tanh (lin (gru (row x ⟨(i 0).val, idx2_lt0 i⟩) (row h ⟨(i 0).val, idx2_lt0 i⟩) wi wh bi bh) wo bo ⟨(i 1).val, idx2_lt1 i⟩)

theorem SUBg_ix2 {R : Nat} (mask : Mat R 768) (w : Fin 768 → Fin 768 → EReal) (b : Fin 768 → EReal) (p : Fin R) (q : Fin 768) :
    SUBg mask w b (ix2 p q) = Ideal.tanh (lin (row mask p) w b q) := rfl

theorem R0g_ix2 {R : Nat} (enc : Fin 768 → EReal) (mask : Mat R 768) (w : Fin 768 → Fin 768 → EReal) (b : Fin 768 → EReal)
    (wi wh : Fin 768 → Fin 2304 → EReal) (bi bh : Fin 2304 → EReal) (p : Fin R) (q : Fin 768) :
    R0g enc mask w b wi wh bi bh (ix2 p q)
      = gru enc (fun k => Ideal.tanh (lin (row mask p) w b k)) wi wh bi bh q := rfl

theorem OBJg_ix2 {R : Nat} (x h : Mat R 768) (wi wh : Fin 768 → Fin 2304 → EReal) (bi bh : Fin 2304 → EReal)
    (wo : Fin 768 → Fin 768 → EReal) (bo : Fin 768 → EReal) (p : Fin R) (q : Fin 768) :
    OBJg x h wi wh bi bh wo bo (ix2 p q) = Ideal.tanh (lin (gru (row x p) (row h p) wi wh bi bh) wo bo q) := rfl

/-- The word `0x3F800000` is the number one. -/
theorem one_f32 : Ideal.ofBits .f32 0x3F800000#32 = 1 := IdealRules.sign_bit.ideal_onePat .f32

/-- The logistic function spelled out with division, exponential and negation is the logistic function. -/
theorem logistic_expand (x : EReal) : Ideal.div 1 (1 + Ideal.exp (-x)) = Ideal.logistic x := rfl

end Cert.Spec

end
-- ==== Proof.KPay0.lean ====
/-
  What one grid point of the first kernel leaves in its two output blocks, entry by entry.

  The kernel works on a block of 256 rows and treats every row alike.  Row `p` of the first output is
  the embedding `tanh (x_p · w + b)` of row `p` of the mask block; row `p` of the second is the
  recurrent cell of the one encoder row and that embedding row.  A change of float format is the
  identity on the extended reals, a product into a zero accumulator is the plain sum over the
  contracted axis, and a slice of a gate row at column offset 0, 768 or 1536 is its reset, update or
  candidate third.
-/
import proofs.«419166_j82411832476066_1_alg».proof.Proof.Gen.KernelIdeal.Frame
import proofs.«419166_j82411832476066_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The two products, read at an entry

  Each contracts axis 1 of its left operand with axis 0 of its right operand and has no batch axis, so the
  operands of term `k` of entry `(p, n)` sit at `(p, k)` and `(k, n)`. -/

theorem lhs_emb_0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem lhs_emb_1 (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
theorem rhs_emb_0 (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
theorem rhs_emb_1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The 256×768 by 768×768 product into a zero accumulator, at entry `(p, n)`: the sum over `k` of `a (p, k) * b (k, n)`. -/
theorem matmul_emb_ix2 (a : FVec Ideal S256x768 .bf16) (b : FVec Ideal S768x768 .bf16) (p : Fin 256) (n : Fin 768) :
    matmul dot_S256x768_S768x768_S256x768_1_0_0_1_n_n none a b (constant (F := Ideal) S256x768 .f32 0x00000000#32) (ix2 p n)
      = ∑ k : Fin 768, a (ix2 p k) * b (ix2 k n) := by
  simp only [matmul]
  rw [Ideal.matmul_constant_zero_apply, ← Equiv.sum_comp (ValueIdx.contrEquiv1 dot_S256x768_S768x768_S256x768_1_0_0_1_n_n 768 rfl rfl).symm]
  refine Finset.sum_congr rfl fun k _ => ?_
  have hk := ValueIdx.contrEquiv1_symm_val dot_S256x768_S768x768_S256x768_1_0_0_1_n_n 768 rfl rfl k
  have el : dot_S256x768_S768x768_S256x768_1_0_0_1_n_n.lhsIdx (ix2 p n) ((ValueIdx.contrEquiv1 dot_S256x768_S768x768_S256x768_1_0_0_1_n_n 768 rfl rfl).symm k) = ix2 p k := funext fun a => Fin.ext (by
    match a with
    | ⟨0, _⟩ => exact lhs_emb_0 _ _
    | ⟨1, _⟩ => exact (lhs_emb_1 _ _).trans hk)
  have er : dot_S256x768_S768x768_S256x768_1_0_0_1_n_n.rhsIdx (ix2 p n) ((ValueIdx.contrEquiv1 dot_S256x768_S768x768_S256x768_1_0_0_1_n_n 768 rfl rfl).symm k) = ix2 k n := funext fun a => Fin.ext (by
    match a with
    | ⟨0, _⟩ => exact (rhs_emb_0 _ _).trans hk
    | ⟨1, _⟩ => exact rhs_emb_1 _ _)
  rw [el, er]

theorem lhs_gate_0 (i : S256x2304.Idx) (q : dot_S256x768_S768x2304_S256x2304_1_0_0_1_n_n.contr.Idx) :
    (dot_S256x768_S768x2304_S256x2304_1_0_0_1_n_n.lhsIdx i q 0).val = (i 0).val := by
  unfold DotDims.lhsIdx
  rw [dif_neg (show ¬(0 : Fin S256x768.rank) ∈ dot_S256x768_S768x2304_S256x2304_1_0_0_1_n_n.lhsBatch by decide), dif_pos (show (0 : Fin S256x768.rank) ∈ dot_S256x768_S768x2304_S256x2304_1_0_0_1_n_n.lhsNonContracting by decide)]
  rfl
theorem lhs_gate_1 (i : S256x2304.Idx) (q : dot_S256x768_S768x2304_S256x2304_1_0_0_1_n_n.contr.Idx) :
    (dot_S256x768_S768x2304_S256x2304_1_0_0_1_n_n.lhsIdx i q 1).val = (q ⟨0, by decide⟩).val :=
  dot_S256x768_S768x2304_S256x2304_1_0_0_1_n_n.lhsIdx_val_of_single rfl i q
theorem rhs_gate_0 (i : S256x2304.Idx) (q : dot_S256x768_S768x2304_S256x2304_1_0_0_1_n_n.contr.Idx) :
    (dot_S256x768_S768x2304_S256x2304_1_0_0_1_n_n.rhsIdx i q 0).val = (q ⟨0, by decide⟩).val :=
  dot_S256x768_S768x2304_S256x2304_1_0_0_1_n_n.rhsIdx_val_of_single rfl i q
theorem rhs_gate_1 (i : S256x2304.Idx) (q : dot_S256x768_S768x2304_S256x2304_1_0_0_1_n_n.contr.Idx) :
    (dot_S256x768_S768x2304_S256x2304_1_0_0_1_n_n.rhsIdx i q 1).val = (i 1).val := by
  unfold DotDims.rhsIdx
  rw [dif_neg (show ¬(1 : Fin S768x2304.rank) ∈ dot_S256x768_S768x2304_S256x2304_1_0_0_1_n_n.rhsBatch by decide), dif_pos (show (1 : Fin S768x2304.rank) ∈ dot_S256x768_S768x2304_S256x2304_1_0_0_1_n_n.rhsNonContracting by decide)]
  rfl

/-- The 256×768 by 768×2304 product into a zero accumulator, at entry `(p, n)`: the sum over `k` of `a (p, k) * b (k, n)`. -/
theorem matmul_gate_ix2 (a : FVec Ideal S256x768 .bf16) (b : FVec Ideal S768x2304 .bf16) (p : Fin 256) (n : Fin 2304) :
    matmul dot_S256x768_S768x2304_S256x2304_1_0_0_1_n_n none a b (constant (F := Ideal) S256x2304 .f32 0x00000000#32) (ix2 p n)
      = ∑ k : Fin 768, a (ix2 p k) * b (ix2 k n) := by
  simp only [matmul]
  rw [Ideal.matmul_constant_zero_apply, ← Equiv.sum_comp (ValueIdx.contrEquiv1 dot_S256x768_S768x2304_S256x2304_1_0_0_1_n_n 768 rfl rfl).symm]
  refine Finset.sum_congr rfl fun k _ => ?_
  have hk := ValueIdx.contrEquiv1_symm_val dot_S256x768_S768x2304_S256x2304_1_0_0_1_n_n 768 rfl rfl k
  have el : dot_S256x768_S768x2304_S256x2304_1_0_0_1_n_n.lhsIdx (ix2 p n) ((ValueIdx.contrEquiv1 dot_S256x768_S768x2304_S256x2304_1_0_0_1_n_n 768 rfl rfl).symm k) = ix2 p k := funext fun a => Fin.ext (by
    match a with
    | ⟨0, _⟩ => exact lhs_gate_0 _ _
    | ⟨1, _⟩ => exact (lhs_gate_1 _ _).trans hk)
  have er : dot_S256x768_S768x2304_S256x2304_1_0_0_1_n_n.rhsIdx (ix2 p n) ((ValueIdx.contrEquiv1 dot_S256x768_S768x2304_S256x2304_1_0_0_1_n_n 768 rfl rfl).symm k) = ix2 k n := funext fun a => Fin.ext (by
    match a with
    | ⟨0, _⟩ => exact (rhs_gate_0 _ _).trans hk
    | ⟨1, _⟩ => exact rhs_gate_1 _ _)
  rw [el, er]

/-- The zero offsets of a whole-block access, as a constant function. -/
theorem zero_offsets : (![0, 0] : Fin 2 → Nat) = fun _ => 0 := by
  funext a
  match a with
  | ⟨0, _⟩ => rfl
  | ⟨1, _⟩ => rfl

/-! ## The embedding: `tanh (x · w + b)` -/

/-- Entry `(p, q)` of the embedding of a block of rows: `tanh` of row `p` times the weights plus the bias, at `q`. -/
theorem pay2_ix2 (v0 : Vec Ideal S256x768 .f32) (v2 : Vec Ideal S768x768 .bf16) (v5 : Vec Ideal S1x768 .f32) (p : Fin 256) (q : Fin 768) :
    k0_pay2 (F := Ideal) v0 v2 v5 (ix2 p q)
      = Ideal.tanh (lin (fun k => v0 (ix2 p k)) (fun k n => v2 (ix2 k n)) (fun n => v5 (ix2 (0 : Fin 1) n)) q) := by
  unfold k0_pay2 lin
  show Ideal.tanh (matmul dot_S256x768_S768x768_S256x768_1_0_0_1_n_n none (truncf .bf16 v0 _) (shapeCast S768x768 v2 _) (constant (F := Ideal) S256x768 .f32 0x00000000#32) (ix2 p q)
      + broadcastTo S256x768 (shapeCast S1x768 v5 _) _ (ix2 p q)) = _
  rw [matmul_emb_ix2, shapeCast_self, shapeCast_self, broadcastTo_1b_ab_apply]
  rfl

/-- Region 0, first output block: entry `(p, q)` is `tanh (x0_p · x2 + x3)` at `q`. -/
theorem out0_8_ix2 (x0 : Vec Ideal S256x768 .f32) (x1 : Vec Ideal S1x768 .f32) (x2 : Vec Ideal S768x768 .bf16) (x3 : Vec Ideal S1x768 .f32)
    (x4 : Vec Ideal S768x2304 .bf16) (x5 : Vec Ideal S768x2304 .bf16) (x6 : Vec Ideal S1x2304 .f32) (x7 : Vec Ideal S1x2304 .f32)
    (p : Fin 256) (q : Fin 768) :
    out0_8 (F := Ideal) x0 x1 x2 x3 x4 x5 x6 x7 (ix2 p q)
      = Ideal.tanh (lin (fun k => x0 (ix2 p k)) (fun k n => x2 (ix2 k n)) (fun n => x3 (ix2 (0 : Fin 1) n)) q) := by
  unfold out0_8
  rw [View.canon_unit_zero zero_offsets]
  simp only [View.ld_unit_zero (S := S256x768) zero_offsets, View.ld_unit_zero (S := S768x768) zero_offsets, View.ld_unit_zero (S := S1x768) zero_offsets]
  exact pay2_ix2 x0 x2 x3 p q

/-! ## The two gate rows: `x · wi + bi` for the one encoder row, `h · wh + bh` for the embedding's row -/

/-- Entry `(p, n)` of the input gates: the one encoder row (the same for every `p`) times the weights plus the bias, at `n`. -/
theorem pay3_ix2 (v11 : Vec Ideal S1x768 .f32) (v16 : Vec Ideal S768x2304 .bf16) (v19 : Vec Ideal S1x2304 .f32) (p : Fin 256) (n : Fin 2304) :
    k0_pay3 (F := Ideal) v11 v16 v19 (ix2 p n)
      = lin (fun k => v11 (ix2 (0 : Fin 1) k)) (fun k n => v16 (ix2 k n)) (fun n => v19 (ix2 (0 : Fin 1) n)) n := by
  unfold k0_pay3 lin
  show matmul dot_S256x768_S768x2304_S256x2304_1_0_0_1_n_n none (truncf .bf16 (broadcastTo S256x768 (shapeCast S1x768 v11 _) _) _) (shapeCast S768x2304 v16 _) (constant (F := Ideal) S256x2304 .f32 0x00000000#32) (ix2 p n)
      + broadcastTo S256x2304 (shapeCast S1x2304 v19 _) _ (ix2 p n) = _
  rw [matmul_gate_ix2, shapeCast_self, shapeCast_self, shapeCast_self, broadcastTo_1b_ab_apply]
  refine congrArg (· + v19 (ix2 (0 : Fin 1) n)) (Finset.sum_congr rfl fun k _ => ?_)
  refine congrArg (· * v16 (ix2 k n)) ?_
  exact broadcastTo_1b_ab_apply v11 Facts₀.broadcasts_S1x768_S256x768 p k

/-- Entry `(p, n)` of the state gates: row `p` of the embedding times the weights plus the bias, at `n`. -/
theorem pay4_ix2 (v0 : Vec Ideal S256x768 .f32) (v2 : Vec Ideal S768x768 .bf16) (v5 : Vec Ideal S1x768 .f32) (v23 : Vec Ideal S768x2304 .bf16) (v26 : Vec Ideal S1x2304 .f32)
    (p : Fin 256) (n : Fin 2304) :
    k0_pay4 (F := Ideal) v0 v2 v5 v23 v26 (ix2 p n)
      = lin (fun k => Ideal.tanh (lin (fun k' => v0 (ix2 p k')) (fun k' n => v2 (ix2 k' n)) (fun n => v5 (ix2 (0 : Fin 1) n)) k))
          (fun k n => v23 (ix2 k n)) (fun n => v26 (ix2 (0 : Fin 1) n)) n := by
  unfold k0_pay4
  generalize hy : k0_pay2 (F := Ideal) v0 v2 v5 = y
  unfold lin
  show matmul dot_S256x768_S768x2304_S256x2304_1_0_0_1_n_n none (truncf .bf16 y _) (shapeCast S768x2304 v23 _) (constant (F := Ideal) S256x2304 .f32 0x00000000#32) (ix2 p n)
      + broadcastTo S256x2304 (shapeCast S1x2304 v26 _) _ (ix2 p n) = _
  rw [matmul_gate_ix2, shapeCast_self, shapeCast_self, broadcastTo_1b_ab_apply]
  refine congrArg (· + v26 (ix2 (0 : Fin 1) n)) (Finset.sum_congr rfl fun k _ => ?_)
  refine congrArg (· * v23 (ix2 k n)) ?_
  show y (ix2 p k) = _
  rw [← hy]
  exact pay2_ix2 v0 v2 v5 p k

/-! ## The thirds of a gate row: the slices at column offsets 0, 768 and 1536 -/

/-- The update third of the input gates. -/
theorem pay5_ix2 (v11 : Vec Ideal S1x768 .f32) (v16 : Vec Ideal S768x2304 .bf16) (v19 : Vec Ideal S1x2304 .f32) (p : Fin 256) (q : Fin 768) :
    k0_pay5 (F := Ideal) v11 v16 v19 (ix2 p q) = k0_pay3 (F := Ideal) v11 v16 v19 (ix2 p (col1 q)) := by
  unfold k0_pay5
  exact slice2_axis1_apply 768 _ _ p q (col1 q) rfl

/-- The candidate third of the input gates. -/
theorem pay6_ix2 (v11 : Vec Ideal S1x768 .f32) (v16 : Vec Ideal S768x2304 .bf16) (v19 : Vec Ideal S1x2304 .f32) (p : Fin 256) (q : Fin 768) :
    k0_pay6 (F := Ideal) v11 v16 v19 (ix2 p q) = k0_pay3 (F := Ideal) v11 v16 v19 (ix2 p (col2 q)) := by
  unfold k0_pay6
  exact slice2_axis1_apply 1536 _ _ p q (col2 q) rfl

/-- The update third of the state gates. -/
theorem pay7_ix2 (v0 : Vec Ideal S256x768 .f32) (v2 : Vec Ideal S768x768 .bf16) (v5 : Vec Ideal S1x768 .f32) (v23 : Vec Ideal S768x2304 .bf16) (v26 : Vec Ideal S1x2304 .f32)
    (p : Fin 256) (q : Fin 768) :
    k0_pay7 (F := Ideal) v0 v2 v5 v23 v26 (ix2 p q) = k0_pay4 (F := Ideal) v0 v2 v5 v23 v26 (ix2 p (col1 q)) := by
  unfold k0_pay7
  exact slice2_axis1_apply 768 _ _ p q (col1 q) rfl

/-- The candidate third of the state gates. -/
theorem pay8_ix2 (v0 : Vec Ideal S256x768 .f32) (v2 : Vec Ideal S768x768 .bf16) (v5 : Vec Ideal S1x768 .f32) (v23 : Vec Ideal S768x2304 .bf16) (v26 : Vec Ideal S1x2304 .f32)
    (p : Fin 256) (q : Fin 768) :
    k0_pay8 (F := Ideal) v0 v2 v5 v23 v26 (ix2 p q) = k0_pay4 (F := Ideal) v0 v2 v5 v23 v26 (ix2 p (col2 q)) := by
  unfold k0_pay8
  exact slice2_axis1_apply 1536 _ _ p q (col2 q) rfl

/-- The sum of the two reset thirds. -/
theorem pay9_ix2 (v0 : Vec Ideal S256x768 .f32) (v2 : Vec Ideal S768x768 .bf16) (v5 : Vec Ideal S1x768 .f32) (v11 : Vec Ideal S1x768 .f32) (v16 : Vec Ideal S768x2304 .bf16)
    (v19 : Vec Ideal S1x2304 .f32) (v23 : Vec Ideal S768x2304 .bf16) (v26 : Vec Ideal S1x2304 .f32) (p : Fin 256) (q : Fin 768) :
    k0_pay9 (F := Ideal) v0 v2 v5 v11 v16 v19 v23 v26 (ix2 p q)
      = k0_pay3 (F := Ideal) v11 v16 v19 (ix2 p (col0 q)) + k0_pay4 (F := Ideal) v0 v2 v5 v23 v26 (ix2 p (col0 q)) := by
  unfold k0_pay9
  generalize k0_pay3 (F := Ideal) v11 v16 v19 = gi
  generalize k0_pay4 (F := Ideal) v0 v2 v5 v23 v26 = gh
  show extractStridedSlice S256x768 ![0, 0] gi _ (ix2 p q) + extractStridedSlice S256x768 ![0, 0] gh _ (ix2 p q) = _
  rw [slice2_axis1_apply 0 gi _ p q (col0 q) (Nat.zero_add _).symm, slice2_axis1_apply 0 gh _ p q (col0 q) (Nat.zero_add _).symm]

/-! ## The cell's arithmetic, entry by entry -/

/-- The cell's arithmetic on its six operand blocks is pointwise: with `z = σ (gi₁ + gh₁)`, the entry is
    `(1 - z) * tanh (gi₂ + σ (gi₀ + gh₀) * gh₂) + z * h`; the word `0x3F800000` is the number one. -/
theorem pay1_apply (v9 v31 v32 v34 v35 v36 : FVec Ideal S256x768 .f32) (i : S256x768.Idx) :
    k0_pay1 (F := Ideal) v9 v31 v32 v34 v35 v36 i
      = (1 - Ideal.logistic (v31 i + v34 i)) * Ideal.tanh (v32 i + Ideal.logistic (v36 i) * v35 i)
          + Ideal.logistic (v31 i + v34 i) * v9 i := by
  unfold k0_pay1
  show (Ideal.ofBits .f32 0x3F800000#32 - Ideal.logistic (v31 i + v34 i)) * Ideal.tanh (v32 i + Ideal.logistic (v36 i) * v35 i)
      + Ideal.logistic (v31 i + v34 i) * v9 i = _
  rw [one_f32]

/-- Region 0, second output block: entry `(p, q)` is the cell of the encoder row `x1` and the embedding's row `p`. -/
theorem out0_9_ix2 (x0 : Vec Ideal S256x768 .f32) (x1 : Vec Ideal S1x768 .f32) (x2 : Vec Ideal S768x768 .bf16) (x3 : Vec Ideal S1x768 .f32)
    (x4 : Vec Ideal S768x2304 .bf16) (x5 : Vec Ideal S768x2304 .bf16) (x6 : Vec Ideal S1x2304 .f32) (x7 : Vec Ideal S1x2304 .f32)
    (p : Fin 256) (q : Fin 768) :
    out0_9 (F := Ideal) x0 x1 x2 x3 x4 x5 x6 x7 (ix2 p q)
      = gru (fun k => x1 (ix2 (0 : Fin 1) k))
          (fun k => Ideal.tanh (lin (fun k' => x0 (ix2 p k')) (fun k' n => x2 (ix2 k' n)) (fun n => x3 (ix2 (0 : Fin 1) n)) k))
          (fun k n => x4 (ix2 k n)) (fun k n => x5 (ix2 k n)) (fun n => x6 (ix2 (0 : Fin 1) n)) (fun n => x7 (ix2 (0 : Fin 1) n)) q := by
  unfold out0_9
  rw [View.canon_unit_zero zero_offsets]
  simp only [View.ld_unit_zero (S := S256x768) zero_offsets, View.ld_unit_zero (S := S768x768) zero_offsets, View.ld_unit_zero (S := S1x768) zero_offsets,
    View.ld_unit_zero (S := S768x2304) zero_offsets, View.ld_unit_zero (S := S1x2304) zero_offsets]
  rw [pay1_apply, pay5_ix2, pay6_ix2, pay7_ix2, pay8_ix2, pay9_ix2, pay2_ix2]
  simp only [pay3_ix2, pay4_ix2]
  rfl

end Cert.KernelIdeal.Pay

end
-- ==== Proof.KPay1.lean ====
/-
  What one grid point of the second kernel leaves in its output block, entry by entry.

  The kernel works on a block of 256 rows and treats every row alike: row `p` of the output is
  `tanh (cell (x_p, h_p) · wo + bo)`, the cell taken of row `p` of the two gathered blocks.  A change of
  float format is the identity on the extended reals, a product into a zero accumulator is the plain
  sum over the contracted axis, and a slice of a gate row at column offset 0, 768 or 1536 is its reset,
  update or candidate third.
-/
import proofs.«419166_j82411832476066_1_alg».proof.Proof.Gen.KernelIdeal.Frame
import proofs.«419166_j82411832476066_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The two products at an index

A product into the zero accumulator, read at row `p` and column `n`, is the sum over the contracted axis of
row `p` of the left operand against column `n` of the right one. -/

theorem k1_lhs_gate_0 (i : S256x2304.Idx) (q : dot_S256x768_S768x2304_S256x2304_1_0_0_1_n_n.contr.Idx) :
    (dot_S256x768_S768x2304_S256x2304_1_0_0_1_n_n.lhsIdx i q 0).val = (i 0).val := by
  unfold DotDims.lhsIdx
  rw [dif_neg (show ¬(0 : Fin S256x768.rank) ∈ dot_S256x768_S768x2304_S256x2304_1_0_0_1_n_n.lhsBatch by decide), dif_pos (show (0 : Fin S256x768.rank) ∈ dot_S256x768_S768x2304_S256x2304_1_0_0_1_n_n.lhsNonContracting by decide)]
  rfl
theorem k1_lhs_gate_1 (i : S256x2304.Idx) (q : dot_S256x768_S768x2304_S256x2304_1_0_0_1_n_n.contr.Idx) :
    (dot_S256x768_S768x2304_S256x2304_1_0_0_1_n_n.lhsIdx i q 1).val = (q ⟨0, by decide⟩).val :=
  dot_S256x768_S768x2304_S256x2304_1_0_0_1_n_n.lhsIdx_val_of_single rfl i q
theorem k1_rhs_gate_0 (i : S256x2304.Idx) (q : dot_S256x768_S768x2304_S256x2304_1_0_0_1_n_n.contr.Idx) :
    (dot_S256x768_S768x2304_S256x2304_1_0_0_1_n_n.rhsIdx i q 0).val = (q ⟨0, by decide⟩).val :=
  dot_S256x768_S768x2304_S256x2304_1_0_0_1_n_n.rhsIdx_val_of_single rfl i q
theorem k1_rhs_gate_1 (i : S256x2304.Idx) (q : dot_S256x768_S768x2304_S256x2304_1_0_0_1_n_n.contr.Idx) :
    (dot_S256x768_S768x2304_S256x2304_1_0_0_1_n_n.rhsIdx i q 1).val = (i 1).val := by
  unfold DotDims.rhsIdx
  rw [dif_neg (show ¬(1 : Fin S768x2304.rank) ∈ dot_S256x768_S768x2304_S256x2304_1_0_0_1_n_n.rhsBatch by decide), dif_pos (show (1 : Fin S768x2304.rank) ∈ dot_S256x768_S768x2304_S256x2304_1_0_0_1_n_n.rhsNonContracting by decide)]
  rfl

/-- The gate product at `(p, n)`. -/
theorem k1_matmul_gate_ix2 (a : FVec Ideal S256x768 .bf16) (w : FVec Ideal S768x2304 .bf16) (p : Fin 256) (n : Fin 2304) :
    matmul dot_S256x768_S768x2304_S256x2304_1_0_0_1_n_n none a w (constant (F := Ideal) S256x2304 .f32 0x00000000#32) (ix2 p n)
      = ∑ k : Fin 768, a (ix2 p k) * w (ix2 k n) := by
  simp only [matmul]
  rw [Ideal.matmul_constant_zero_apply, ← Equiv.sum_comp (ValueIdx.contrEquiv1 dot_S256x768_S768x2304_S256x2304_1_0_0_1_n_n 768 rfl rfl).symm]
  refine Finset.sum_congr rfl fun k _ => ?_
  have hk := ValueIdx.contrEquiv1_symm_val dot_S256x768_S768x2304_S256x2304_1_0_0_1_n_n 768 rfl rfl k
  have el : dot_S256x768_S768x2304_S256x2304_1_0_0_1_n_n.lhsIdx (ix2 p n) ((ValueIdx.contrEquiv1 dot_S256x768_S768x2304_S256x2304_1_0_0_1_n_n 768 rfl rfl).symm k) = ix2 p k := funext fun a => Fin.ext (by
    match a with
    | ⟨0, _⟩ => exact k1_lhs_gate_0 _ _
    | ⟨1, _⟩ => exact (k1_lhs_gate_1 _ _).trans hk)
  have er : dot_S256x768_S768x2304_S256x2304_1_0_0_1_n_n.rhsIdx (ix2 p n) ((ValueIdx.contrEquiv1 dot_S256x768_S768x2304_S256x2304_1_0_0_1_n_n 768 rfl rfl).symm k) = ix2 k n := funext fun a => Fin.ext (by
    match a with
    | ⟨0, _⟩ => exact (k1_rhs_gate_0 _ _).trans hk
    | ⟨1, _⟩ => exact k1_rhs_gate_1 _ _)
  rw [el, er]

theorem k1_lhs_out_0 (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem k1_lhs_out_1 (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
theorem k1_rhs_out_0 (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
theorem k1_rhs_out_1 (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The output product at `(p, n)`. -/
theorem k1_matmul_out_ix2 (a : FVec Ideal S256x768 .bf16) (w : FVec Ideal S768x768 .bf16) (p : Fin 256) (n : Fin 768) :
    matmul dot_S256x768_S768x768_S256x768_1_0_0_1_n_n none a w (constant (F := Ideal) S256x768 .f32 0x00000000#32) (ix2 p n)
      = ∑ k : Fin 768, a (ix2 p k) * w (ix2 k n) := by
  simp only [matmul]
  rw [Ideal.matmul_constant_zero_apply, ← Equiv.sum_comp (ValueIdx.contrEquiv1 dot_S256x768_S768x768_S256x768_1_0_0_1_n_n 768 rfl rfl).symm]
  refine Finset.sum_congr rfl fun k _ => ?_
  have hk := ValueIdx.contrEquiv1_symm_val dot_S256x768_S768x768_S256x768_1_0_0_1_n_n 768 rfl rfl k
  have el : dot_S256x768_S768x768_S256x768_1_0_0_1_n_n.lhsIdx (ix2 p n) ((ValueIdx.contrEquiv1 dot_S256x768_S768x768_S256x768_1_0_0_1_n_n 768 rfl rfl).symm k) = ix2 p k := funext fun a => Fin.ext (by
    match a with
    | ⟨0, _⟩ => exact k1_lhs_out_0 _ _
    | ⟨1, _⟩ => exact (k1_lhs_out_1 _ _).trans hk)
  have er : dot_S256x768_S768x768_S256x768_1_0_0_1_n_n.rhsIdx (ix2 p n) ((ValueIdx.contrEquiv1 dot_S256x768_S768x768_S256x768_1_0_0_1_n_n 768 rfl rfl).symm k) = ix2 k n := funext fun a => Fin.ext (by
    match a with
    | ⟨0, _⟩ => exact (k1_rhs_out_0 _ _).trans hk
    | ⟨1, _⟩ => exact k1_rhs_out_1 _ _)
  rw [el, er]

/-! ## The pointwise operations, the slices and the cell at an index -/

/-- A hyperbolic tangent at an index is the hyperbolic tangent of the element. -/
theorem k1_tanh_apply {s : Shape} {φ : FTy} (a : FVec Ideal s φ) (i : s.Idx) : tanh a i = Ideal.tanh (a i) := rfl
/-- A logistic at an index is the logistic of the element. -/
theorem k1_logistic_apply {s : Shape} {φ : FTy} (a : FVec Ideal s φ) (i : s.Idx) : logistic a i = Ideal.logistic (a i) := rfl

/-- The slice of a gate array at column offset 0 reads the reset third. -/
theorem k1_slice_col0 (X : FVec Ideal S256x2304 .f32) (h : S256x2304.Slices ![0, 0] S256x768) (p : Fin 256) (q : Fin 768) :
    extractStridedSlice S256x768 ![0, 0] X h (ix2 p q) = X (ix2 p (col0 q)) :=
  slice2_axis1_apply 0 X h p q (col0 q) (Nat.zero_add _).symm
/-- The slice at column offset 768 reads the update third. -/
theorem k1_slice_col1 (X : FVec Ideal S256x2304 .f32) (h : S256x2304.Slices ![0, 768] S256x768) (p : Fin 256) (q : Fin 768) :
    extractStridedSlice S256x768 ![0, 768] X h (ix2 p q) = X (ix2 p (col1 q)) :=
  slice2_axis1_apply 768 X h p q (col1 q) rfl
/-- The slice at column offset 1536 reads the candidate third. -/
theorem k1_slice_col2 (X : FVec Ideal S256x2304 .f32) (h : S256x2304.Slices ![0, 1536] S256x768) (p : Fin 256) (q : Fin 768) :
    extractStridedSlice S256x768 ![0, 1536] X h (ix2 p q) = X (ix2 p (col2 q)) :=
  slice2_axis1_apply 1536 X h p q (col2 q) rfl

/-- The cell's new state at `(p, q)`: the recurrent cell of row `p` of the input block and row `p` of the state block. -/
theorem k1_pay2_ix2 (v0 v3 : Vec Ideal S256x768 .f32) (v6 : Vec Ideal S768x2304 .bf16) (v9 : Vec Ideal S1x2304 .f32)
    (v13 : Vec Ideal S768x2304 .bf16) (v16 : Vec Ideal S1x2304 .f32) (p : Fin 256) (q : Fin 768) :
    k1_pay2 (F := Ideal) v0 v3 v6 v9 v13 v16 (ix2 p q)
      = gru (fun k => v0 (ix2 p k)) (fun k => v3 (ix2 p k)) (fun k n => v6 (ix2 k n)) (fun k n => v13 (ix2 k n))
          (fun n => v9 (ix2 (0 : Fin 1) n)) (fun n => v16 (ix2 (0 : Fin 1) n)) q := by
  unfold k1_pay2
  simp only [shapeCast_self, truncf_apply, addf_apply, mulf_apply, subf_apply, k1_tanh_apply, k1_logistic_apply, broadcast_apply,
    k1_slice_col0, k1_slice_col1, k1_slice_col2, k1_matmul_gate_ix2, broadcastTo_1b_ab_apply, Ideal.ofBits_def, one_f32]
  rfl

/-- The stored weights pass through a cast to their own shape unchanged. -/
theorem k1_pay3_eq (v39 : Vec Ideal S768x768 .bf16) : k1_pay3 (F := Ideal) v39 = v39 := by
  unfold k1_pay3
  exact shapeCast_self _ _

/-- The stored value at `(p, q)`: the hyperbolic tangent of row `p` of the new state times the output weights plus the bias. -/
theorem k1_pay1_ix2 (v38 : FVec Ideal S256x768 .bf16) (v40 : FVec Ideal S768x768 .bf16) (v42 : Vec Ideal S1x768 .f32)
    (p : Fin 256) (q : Fin 768) :
    k1_pay1 (F := Ideal) v38 v40 (constant (F := Ideal) S256x768 .f32 0x00000000#32) v42 (ix2 p q)
      = Ideal.tanh (lin (fun k => v38 (ix2 p k)) (fun k n => v40 (ix2 k n)) (fun n => v42 (ix2 (0 : Fin 1) n)) q) := by
  unfold k1_pay1
  simp only [shapeCast_self, k1_tanh_apply, addf_apply, k1_matmul_out_ix2, broadcastTo_1b_ab_apply]
  rfl

/-- Region 1's output block: entry `(p, q)` is `tanh (cell (x0_p, x1_p) · x6 + x7)` at `q`. -/
theorem out1_8_ix2 (x0 : Vec Ideal S256x768 .f32) (x1 : Vec Ideal S256x768 .f32) (x2 : Vec Ideal S768x2304 .bf16) (x3 : Vec Ideal S768x2304 .bf16)
    (x4 : Vec Ideal S1x2304 .f32) (x5 : Vec Ideal S1x2304 .f32) (x6 : Vec Ideal S768x768 .bf16) (x7 : Vec Ideal S1x768 .f32)
    (p : Fin 256) (q : Fin 768) :
    out1_8 (F := Ideal) x0 x1 x2 x3 x4 x5 x6 x7 (ix2 p q)
      = Ideal.tanh (lin (gru (fun k => x0 (ix2 p k)) (fun k => x1 (ix2 p k)) (fun k n => x2 (ix2 k n)) (fun k n => x3 (ix2 k n))
            (fun n => x4 (ix2 (0 : Fin 1) n)) (fun n => x5 (ix2 (0 : Fin 1) n)))
          (fun k n => x6 (ix2 k n)) (fun n => x7 (ix2 (0 : Fin 1) n)) q) := by
  have hz : (![0, 0] : Fin 2 → Nat) = fun _ => 0 := by
    funext a
    match a with
    | ⟨0, _⟩ => rfl
    | ⟨1, _⟩ => rfl
  unfold out1_8
  rw [View.canon_unit_zero hz]
  simp only [View.ld_unit_zero (S := S256x768) hz, View.ld_unit_zero (S := S768x2304) hz, View.ld_unit_zero (S := S1x2304) hz,
    View.ld_unit_zero (S := S768x768) hz, View.ld_unit_zero (S := S1x768) hz]
  rw [k1_pay1_ix2]
  simp only [k1_pay2_ix2, k1_pay3_eq]

end Cert.KernelIdeal.Pay

end
-- ==== Proof.KArr.lean ====
/-
  From blocks to whole arrays: what each kernel leaves in its output arrays.

  Each region's grid is one axis of row blocks: point `t` reads rows `256·t … 256·t + 255` of the
  row-tiled inputs and the whole of every weight and bias, and writes rows `256·t … 256·t + 255` of
  its outputs.  The blocks tile the output (8 × 256 = 2048 rows in region 0, 128 × 256 = 32768 in
  region 1), and the body treats every row alike, so each output array ends as one function of the
  arrays the region found on entry, row by row.
-/
import proofs.«419166_j82411832476066_1_alg».proof.Proof.KPay0
import proofs.«419166_j82411832476066_1_alg».proof.Proof.KPay1

set_option maxRecDepth 16384

noncomputable section

namespace Cert.KernelIdeal.Arr

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b))

/-! ## Region 0: the grid's eight points and the blocks they read -/

/-- Region 0's index maps over its eight grid points: the row-tiled windows (the mask array and the two
    outputs) sit at block (t, 0), every weight and bias at block (0, 0). -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row block t of the mask array: entry (p, k) of the block is entry (256 t + p, k) of the array. -/
theorem mask_rows (c : Dev nD) (t : Fin cfg0.N) (p : Fin 256) (k : Fin 768) (r : Fin 2048) (hr : r.val = 256 * t.val + p.val) :
    (iblk0 (F := Ideal) V c 0 t : Vec Ideal S256x768 .f32) (ix2 p k) = (V c main_arg1 : S2048x768.Idx → EReal) (ix2 r k) := by
  obtain ⟨e0, e1, -⟩ := index0 t
  unfold iblk0
  rw [View.read_apply]
  show V c main_arg1 _ = V c main_arg1 _
  congr 1
  funext a; apply Fin.ext
  match a with
  | ⟨0, _⟩ => show win0_0.index t (0 : Fin 2) * 256 + 1 * p.val = r.val; omega
  | ⟨1, _⟩ => show win0_0.index t (1 : Fin 2) * 768 + 1 * k.val = k.val; omega

/-- The encoder row is staged whole at every point. -/
theorem enc_whole (c : Dev nD) (t : Fin cfg0.N) (k : Fin 768) :
    (iblk0 (F := Ideal) V c 1 t : Vec Ideal S1x768 .f32) (ix2 (0 : Fin 1) k) = (V c main_arg0 : S1x768.Idx → EReal) (ix2 (0 : Fin 1) k) := by
  obtain ⟨-, -, e0, e1, -⟩ := index0 t
  unfold iblk0
  rw [View.read_apply]
  show V c main_arg0 _ = V c main_arg0 _
  congr 1
  funext a; apply Fin.ext
  match a with
  | ⟨0, _⟩ => show win0_1.index t (0 : Fin 2) * 1 + 1 * (0 : Fin 1).val = (0 : Fin 1).val; omega
  | ⟨1, _⟩ => show win0_1.index t (1 : Fin 2) * 768 + 1 * k.val = k.val; omega

/-- The embedding's weight matrix is staged whole at every point. -/
theorem wsub_whole (c : Dev nD) (t : Fin cfg0.N) (k : Fin 768) (n : Fin 768) :
    (iblk0 (F := Ideal) V c 2 t : Vec Ideal S768x768 .bf16) (ix2 k n) = (V c main_v1 : S768x768.Idx → EReal) (ix2 k n) := by
  obtain ⟨-, -, -, -, e0, e1, -⟩ := index0 t
  unfold iblk0
  rw [View.read_apply]
  show V c main_v1 _ = V c main_v1 _
  congr 1
  funext a; apply Fin.ext
  match a with
  | ⟨0, _⟩ => show win0_2.index t (0 : Fin 2) * 768 + 1 * k.val = k.val; omega
  | ⟨1, _⟩ => show win0_2.index t (1 : Fin 2) * 768 + 1 * n.val = n.val; omega

/-- The embedding's bias row is staged whole at every point. -/
theorem bsub_whole (c : Dev nD) (t : Fin cfg0.N) (n : Fin 768) :
    (iblk0 (F := Ideal) V c 3 t : Vec Ideal S1x768 .f32) (ix2 (0 : Fin 1) n) = (V c main_v8 : S1x768.Idx → EReal) (ix2 (0 : Fin 1) n) := by
  obtain ⟨-, -, -, -, -, -, e0, e1, -⟩ := index0 t
  unfold iblk0
  rw [View.read_apply]
  show V c main_v8 _ = V c main_v8 _
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 768 + 1 * n.val = n.val; omega

/-- The cell's input-side gate weights are staged whole at every point. -/
theorem wi_whole0 (c : Dev nD) (t : Fin cfg0.N) (k : Fin 768) (n : Fin 2304) :
    (iblk0 (F := Ideal) V c 4 t : Vec Ideal S768x2304 .bf16) (ix2 k n) = (V c main_v5 : S768x2304.Idx → EReal) (ix2 k n) := by
  obtain ⟨-, -, -, -, -, -, -, -, e0, e1, -⟩ := index0 t
  unfold iblk0
  rw [View.read_apply]
  show V c main_v5 _ = V c main_v5 _
  congr 1
  funext a; apply Fin.ext
  match a with
  | ⟨0, _⟩ => show win0_4.index t (0 : Fin 2) * 768 + 1 * k.val = k.val; omega
  | ⟨1, _⟩ => show win0_4.index t (1 : Fin 2) * 2304 + 1 * n.val = n.val; omega

/-- The cell's state-side gate weights are staged whole at every point. -/
theorem wh_whole0 (c : Dev nD) (t : Fin cfg0.N) (k : Fin 768) (n : Fin 2304) :
    (iblk0 (F := Ideal) V c 5 t : Vec Ideal S768x2304 .bf16) (ix2 k n) = (V c main_v7 : S768x2304.Idx → EReal) (ix2 k n) := by
  obtain ⟨-, -, -, -, -, -, -, -, -, -, e0, e1, -⟩ := index0 t
  unfold iblk0
  rw [View.read_apply]
  show V c main_v7 _ = V c main_v7 _
  congr 1
  funext a; apply Fin.ext
  match a with
  | ⟨0, _⟩ => show win0_5.index t (0 : Fin 2) * 768 + 1 * k.val = k.val; omega
  | ⟨1, _⟩ => show win0_5.index t (1 : Fin 2) * 2304 + 1 * n.val = n.val; omega

/-- The cell's input-side gate bias is staged whole at every point. -/
theorem bi_whole0 (c : Dev nD) (t : Fin cfg0.N) (n : Fin 2304) :
    (iblk0 (F := Ideal) V c 6 t : Vec Ideal S1x2304 .f32) (ix2 (0 : Fin 1) n) = (V c main_v10 : S1x2304.Idx → EReal) (ix2 (0 : Fin 1) n) := by
  obtain ⟨-, -, -, -, -, -, -, -, -, -, -, -, e0, e1, -⟩ := index0 t
  unfold iblk0
  rw [View.read_apply]
  show V c main_v10 _ = V c main_v10 _
  congr 1
  funext a; apply Fin.ext
  match a with
  | ⟨0, _⟩ => show win0_6.index t (0 : Fin 2) * 1 + 1 * (0 : Fin 1).val = (0 : Fin 1).val; omega
  | ⟨1, _⟩ => show win0_6.index t (1 : Fin 2) * 2304 + 1 * n.val = n.val; omega

/-- The cell's state-side gate bias is staged whole at every point. -/
theorem bh_whole0 (c : Dev nD) (t : Fin cfg0.N) (n : Fin 2304) :
    (iblk0 (F := Ideal) V c 7 t : Vec Ideal S1x2304 .f32) (ix2 (0 : Fin 1) n) = (V c main_v11 : S1x2304.Idx → EReal) (ix2 (0 : Fin 1) n) := by
  obtain ⟨-, -, -, -, -, -, -, -, -, -, -, -, -, -, e0, e1, -⟩ := index0 t
  unfold iblk0
  rw [View.read_apply]
  show V c main_v11 _ = V c main_v11 _
  congr 1
  funext a; apply Fin.ext
  match a with
  | ⟨0, _⟩ => show win0_7.index t (0 : Fin 2) * 1 + 1 * (0 : Fin 1).val = (0 : Fin 1).val; omega
  | ⟨1, _⟩ => show win0_7.index t (1 : Fin 2) * 2304 + 1 * n.val = n.val; omega

/-! ## Region 0, first output -/

/-- Row block t of any array of the first output's shape, read through the first output's window. -/
theorem sub_rows (G : S2048x768.Idx → EReal) (t : Fin cfg0.N) (p : Fin 256) (q : Fin 768) (r : Fin 2048) (hr : r.val = 256 * t.val + p.val) :
    ((cfg0.win 8).blk t).view.read (Elt Ideal) G (ix2 p q) = G (ix2 r q) := by
  obtain ⟨-, -, -, -, -, -, -, -, -, -, -, -, -, -, -, -, e0, e1, -⟩ := index0 t
  rw [View.read_apply]
  show G _ = G _
  congr 1
  funext a; apply Fin.ext
  match a with
  | ⟨0, _⟩ => show win0_8.index t (0 : Fin 2) * 256 + 1 * p.val = r.val; omega
  | ⟨1, _⟩ => show win0_8.index t (1 : Fin 2) * 768 + 1 * q.val = q.val; omega

/-- What point t writes back to the first output is row block t of the per-seed embedding. -/
theorem sub_written (c : Dev nD) (t : Fin cfg0.N) :
    (dat0 (F := Ideal) V c).flushed 8 t = ((cfg0.win 8).blk t).view.read (Elt Ideal)
      (SUBg (R := 2048) (V c main_arg1) (mat (i := 768) (o := 768) (V c main_v1)) (row (r := 1) (c := 768) (V c main_v8) 0)) := by
  show (cfg0.win 8).cut (grid0.coords t) ((dat0 V c).after 8 t) = _
  rw [after0_8]
  funext j
  obtain ⟨p, q, rfl⟩ : ∃ (p : Fin 256) (q : Fin 768), j = ix2 p q := ⟨j 0, j 1, eq_ix2 j⟩
  show out0_8 _ _ _ _ _ _ _ _ (ix2 p q) = _
  rw [Pay.out0_8_ix2]
  have hN : cfg0.N = 8 := N_0
  obtain ⟨r, hr⟩ : ∃ r : Fin 2048, r.val = 256 * t.val + p.val :=
    ⟨⟨256 * t.val + p.val, by have := t.isLt; have := p.isLt; omega⟩, rfl⟩
  rw [sub_rows _ t p q r hr, SUBg_ix2]
  have h0 : (fun k => (iblk0 (F := Ideal) V c 0 t : Vec Ideal S256x768 .f32) (ix2 p k)) = row (r := 2048) (c := 768) (V c main_arg1) r :=
    funext fun k => mask_rows V c t p k r hr
  have h2 : (fun k n => (iblk0 (F := Ideal) V c 2 t : Vec Ideal S768x768 .bf16) (ix2 k n)) = mat (i := 768) (o := 768) (V c main_v1) :=
    funext fun k => funext fun n => wsub_whole V c t k n
  have h3 : (fun n => (iblk0 (F := Ideal) V c 3 t : Vec Ideal S1x768 .f32) (ix2 (0 : Fin 1) n)) = row (r := 1) (c := 768) (V c main_v8) 0 :=
    funext fun n => bsub_whole V c t n
  rw [h0, h2, h3]

/-- An index of the first output is in point t's block iff each coordinate is in the block's range on its axis. -/
theorem mem_sub (t : Fin cfg0.N) (i : S2048x768.Idx) :
    i ∈ ((cfg0.win 8).blk t).view.set ↔ ∀ a : Fin 2, win0_8.index t a * S256x768.size a ≤ (i a).val ∧ (i a).val < win0_8.index t a * S256x768.size a + S256x768.size a := by
  show i ∈ ((View.whole main_v12_0).slice (win0_8.rect t)).set ↔ _
  rw [View.set_slice_whole, Rect.mem_set_unit]
  exact Iff.rfl

/-- The eight row blocks tile the first output: row r is in the block of point r / 256, and every point writes back. -/
theorem sub_tiled (i : S2048x768.Idx) : ∃ t : Fin cfg0.N, (cfg0.win 8).flush t = true ∧ i ∈ ((cfg0.win 8).blk t).view.set := by
  have hN : cfg0.N = 8 := N_0
  have hi0 : (i 0).val < 2048 := (i 0).isLt
  have hi1 : (i 1).val < 768 := (i 1).isLt
  obtain ⟨t, ht⟩ : ∃ t : Fin cfg0.N, t.val = (i 0).val / 256 := ⟨⟨(i 0).val / 256, by omega⟩, rfl⟩
  obtain ⟨-, -, -, -, -, -, -, -, -, -, -, -, -, -, -, -, e0, e1, -⟩ := index0 t
  refine ⟨t, flush0_8 t, ?_⟩
  rw [mem_sub]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 768 ≤ (i 1).val ∧ (i 1).val < win0_8.index t (1 : Fin 2) * 768 + 768; omega

/-- Region 0's first output array: the per-seed embedding of the mask array found on entry. -/
theorem arr0_8 (c : Dev nD) :
    (dat0 (F := Ideal) V c).arrAt 8 cfg0.N
      = SUBg (R := 2048) (V c main_arg1) (mat (i := 768) (o := 768) (V c main_v1)) (row (r := 1) (c := 768) (V c main_v8) 0) := by
  exact (dat0 (F := Ideal) V c).arrAt_eq_of_cover 8 _ (fun t _ => sub_written V c t) sub_tiled

/-! ## Region 0, second output -/

/-- Row block t of any array of the second output's shape, read through the second output's window. -/
theorem r0_rows (G : S2048x768.Idx → EReal) (t : Fin cfg0.N) (p : Fin 256) (q : Fin 768) (r : Fin 2048) (hr : r.val = 256 * t.val + p.val) :
    ((cfg0.win 9).blk t).view.read (Elt Ideal) G (ix2 p q) = G (ix2 r q) := by
  obtain ⟨-, -, -, -, -, -, -, -, -, -, -, -, -, -, -, -, -, -, e0, e1⟩ := index0 t
  rw [View.read_apply]
  show G _ = G _
  congr 1
  funext a; apply Fin.ext
  match a with
  | ⟨0, _⟩ => show win0_9.index t (0 : Fin 2) * 256 + 1 * p.val = r.val; omega
  | ⟨1, _⟩ => show win0_9.index t (1 : Fin 2) * 768 + 1 * q.val = q.val; omega

/-- What point t writes back to the second output is row block t of the first recurrent step. -/
theorem r0_written (c : Dev nD) (t : Fin cfg0.N) :
    (dat0 (F := Ideal) V c).flushed 9 t = ((cfg0.win 9).blk t).view.read (Elt Ideal)
      (R0g (R := 2048) (row (r := 1) (c := 768) (V c main_arg0) 0) (V c main_arg1) (mat (i := 768) (o := 768) (V c main_v1)) (row (r := 1) (c := 768) (V c main_v8) 0)
          (mat (i := 768) (o := 2304) (V c main_v5)) (mat (i := 768) (o := 2304) (V c main_v7))
          (row (r := 1) (c := 2304) (V c main_v10) 0) (row (r := 1) (c := 2304) (V c main_v11) 0)) := by
  show (cfg0.win 9).cut (grid0.coords t) ((dat0 V c).after 9 t) = _
  rw [after0_9]
  funext j
  obtain ⟨p, q, rfl⟩ : ∃ (p : Fin 256) (q : Fin 768), j = ix2 p q := ⟨j 0, j 1, eq_ix2 j⟩
  show out0_9 _ _ _ _ _ _ _ _ (ix2 p q) = _
  rw [Pay.out0_9_ix2]
  have hN : cfg0.N = 8 := N_0
  obtain ⟨r, hr⟩ : ∃ r : Fin 2048, r.val = 256 * t.val + p.val :=
    ⟨⟨256 * t.val + p.val, by have := t.isLt; have := p.isLt; omega⟩, rfl⟩
  rw [r0_rows _ t p q r hr, R0g_ix2]
  have h0 : (fun k => (iblk0 (F := Ideal) V c 0 t : Vec Ideal S256x768 .f32) (ix2 p k)) = row (r := 2048) (c := 768) (V c main_arg1) r :=
    funext fun k => mask_rows V c t p k r hr
  have h1 : (fun k => (iblk0 (F := Ideal) V c 1 t : Vec Ideal S1x768 .f32) (ix2 (0 : Fin 1) k)) = row (r := 1) (c := 768) (V c main_arg0) 0 :=
    funext fun k => enc_whole V c t k
  have h2 : (fun k n => (iblk0 (F := Ideal) V c 2 t : Vec Ideal S768x768 .bf16) (ix2 k n)) = mat (i := 768) (o := 768) (V c main_v1) :=
    funext fun k => funext fun n => wsub_whole V c t k n
  have h3 : (fun n => (iblk0 (F := Ideal) V c 3 t : Vec Ideal S1x768 .f32) (ix2 (0 : Fin 1) n)) = row (r := 1) (c := 768) (V c main_v8) 0 :=
    funext fun n => bsub_whole V c t n
  have h4 : (fun k n => (iblk0 (F := Ideal) V c 4 t : Vec Ideal S768x2304 .bf16) (ix2 k n)) = mat (i := 768) (o := 2304) (V c main_v5) :=
    funext fun k => funext fun n => wi_whole0 V c t k n
  have h5 : (fun k n => (iblk0 (F := Ideal) V c 5 t : Vec Ideal S768x2304 .bf16) (ix2 k n)) = mat (i := 768) (o := 2304) (V c main_v7) :=
    funext fun k => funext fun n => wh_whole0 V c t k n
  have h6 : (fun n => (iblk0 (F := Ideal) V c 6 t : Vec Ideal S1x2304 .f32) (ix2 (0 : Fin 1) n)) = row (r := 1) (c := 2304) (V c main_v10) 0 :=
    funext fun n => bi_whole0 V c t n
  have h7 : (fun n => (iblk0 (F := Ideal) V c 7 t : Vec Ideal S1x2304 .f32) (ix2 (0 : Fin 1) n)) = row (r := 1) (c := 2304) (V c main_v11) 0 :=
    funext fun n => bh_whole0 V c t n
  rw [h0, h1, h2, h3, h4, h5, h6, h7]

/-- An index of the second output is in point t's block iff each coordinate is in the block's range on its axis. -/
theorem mem_r0 (t : Fin cfg0.N) (i : S2048x768.Idx) :
    i ∈ ((cfg0.win 9).blk t).view.set ↔ ∀ a : Fin 2, win0_9.index t a * S256x768.size a ≤ (i a).val ∧ (i a).val < win0_9.index t a * S256x768.size a + S256x768.size a := by
  show i ∈ ((View.whole main_v12_1).slice (win0_9.rect t)).set ↔ _
  rw [View.set_slice_whole, Rect.mem_set_unit]
  exact Iff.rfl

/-- The eight row blocks tile the second output: row r is in the block of point r / 256, and every point writes back. -/
theorem r0_tiled (i : S2048x768.Idx) : ∃ t : Fin cfg0.N, (cfg0.win 9).flush t = true ∧ i ∈ ((cfg0.win 9).blk t).view.set := by
  have hN : cfg0.N = 8 := N_0
  have hi0 : (i 0).val < 2048 := (i 0).isLt
  have hi1 : (i 1).val < 768 := (i 1).isLt
  obtain ⟨t, ht⟩ : ∃ t : Fin cfg0.N, t.val = (i 0).val / 256 := ⟨⟨(i 0).val / 256, by omega⟩, rfl⟩
  obtain ⟨-, -, -, -, -, -, -, -, -, -, -, -, -, -, -, -, -, -, e0, e1⟩ := index0 t
  refine ⟨t, flush0_9 t, ?_⟩
  rw [mem_r0]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 768 ≤ (i 1).val ∧ (i 1).val < win0_9.index t (1 : Fin 2) * 768 + 768; omega

/-- Region 0's second output array: the first recurrent step. -/
theorem arr0_9 (c : Dev nD) :
    (dat0 (F := Ideal) V c).arrAt 9 cfg0.N
      = R0g (R := 2048) (row (r := 1) (c := 768) (V c main_arg0) 0) (V c main_arg1) (mat (i := 768) (o := 768) (V c main_v1)) (row (r := 1) (c := 768) (V c main_v8) 0)
          (mat (i := 768) (o := 2304) (V c main_v5)) (mat (i := 768) (o := 2304) (V c main_v7))
          (row (r := 1) (c := 2304) (V c main_v10) 0) (row (r := 1) (c := 2304) (V c main_v11) 0) := by
  exact (dat0 (F := Ideal) V c).arrAt_eq_of_cover 9 _ (fun t _ => r0_written V c t) r0_tiled

/-! ## Region 1: the grid's 128 points and the blocks they read -/

/-- Region 1's index maps over its 128 grid points: the row-tiled windows (the two gathered arrays and the
    output) sit at block (t, 0), every weight and bias at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row block t of the gathered input rows: entry (p, k) of the block is entry (256 t + p, k) of the array. -/
theorem x_rows (c : Dev nD) (t : Fin cfg1.N) (p : Fin 256) (k : Fin 768) (r : Fin 32768) (hr : r.val = 256 * t.val + p.val) :
    (iblk1 (F := Ideal) V c 0 t : Vec Ideal S256x768 .f32) (ix2 p k) = (V c main_v29 : S32768x768.Idx → EReal) (ix2 r k) := by
  obtain ⟨e0, e1, -⟩ := index1 t
  unfold iblk1
  rw [View.read_apply]
  show V c main_v29 _ = V c main_v29 _
  congr 1
  funext a; apply Fin.ext
  match a with
  | ⟨0, _⟩ => show win1_0.index t (0 : Fin 2) * 256 + 1 * p.val = r.val; omega
  | ⟨1, _⟩ => show win1_0.index t (1 : Fin 2) * 768 + 1 * k.val = k.val; omega

/-- Row block t of the gathered state rows: entry (p, k) of the block is entry (256 t + p, k) of the array. -/
theorem h_rows (c : Dev nD) (t : Fin cfg1.N) (p : Fin 256) (k : Fin 768) (r : Fin 32768) (hr : r.val = 256 * t.val + p.val) :
    (iblk1 (F := Ideal) V c 1 t : Vec Ideal S256x768 .f32) (ix2 p k) = (V c main_v30 : S32768x768.Idx → EReal) (ix2 r k) := by
  obtain ⟨-, -, e0, e1, -⟩ := index1 t
  unfold iblk1
  rw [View.read_apply]
  show V c main_v30 _ = V c main_v30 _
  congr 1
  funext a; apply Fin.ext
  match a with
  | ⟨0, _⟩ => show win1_1.index t (0 : Fin 2) * 256 + 1 * p.val = r.val; omega
  | ⟨1, _⟩ => show win1_1.index t (1 : Fin 2) * 768 + 1 * k.val = k.val; omega

/-- The cell's input-side gate weights are staged whole at every point. -/
theorem wi_whole1 (c : Dev nD) (t : Fin cfg1.N) (k : Fin 768) (n : Fin 2304) :
    (iblk1 (F := Ideal) V c 2 t : Vec Ideal S768x2304 .bf16) (ix2 k n) = (V c main_v5 : S768x2304.Idx → EReal) (ix2 k n) := by
  obtain ⟨-, -, -, -, e0, e1, -⟩ := index1 t
  unfold iblk1
  rw [View.read_apply]
  show V c main_v5 _ = V c main_v5 _
  congr 1
  funext a; apply Fin.ext
  match a with
  | ⟨0, _⟩ => show win1_2.index t (0 : Fin 2) * 768 + 1 * k.val = k.val; omega
  | ⟨1, _⟩ => show win1_2.index t (1 : Fin 2) * 2304 + 1 * n.val = n.val; omega

/-- The cell's state-side gate weights are staged whole at every point. -/
theorem wh_whole1 (c : Dev nD) (t : Fin cfg1.N) (k : Fin 768) (n : Fin 2304) :
    (iblk1 (F := Ideal) V c 3 t : Vec Ideal S768x2304 .bf16) (ix2 k n) = (V c main_v7 : S768x2304.Idx → EReal) (ix2 k n) := by
  obtain ⟨-, -, -, -, -, -, e0, e1, -⟩ := index1 t
  unfold iblk1
  rw [View.read_apply]
  show V c main_v7 _ = V c main_v7 _
  congr 1
  funext a; apply Fin.ext
  match a with
  | ⟨0, _⟩ => show win1_3.index t (0 : Fin 2) * 768 + 1 * k.val = k.val; omega
  | ⟨1, _⟩ => show win1_3.index t (1 : Fin 2) * 2304 + 1 * n.val = n.val; omega

/-- The cell's input-side gate bias is staged whole at every point. -/
theorem bi_whole1 (c : Dev nD) (t : Fin cfg1.N) (n : Fin 2304) :
    (iblk1 (F := Ideal) V c 4 t : Vec Ideal S1x2304 .f32) (ix2 (0 : Fin 1) n) = (V c main_v10 : S1x2304.Idx → EReal) (ix2 (0 : Fin 1) n) := by
  obtain ⟨-, -, -, -, -, -, -, -, e0, e1, -⟩ := index1 t
  unfold iblk1
  rw [View.read_apply]
  show V c main_v10 _ = V c main_v10 _
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 2304 + 1 * n.val = n.val; omega

/-- The cell's state-side gate bias is staged whole at every point. -/
theorem bh_whole1 (c : Dev nD) (t : Fin cfg1.N) (n : Fin 2304) :
    (iblk1 (F := Ideal) V c 5 t : Vec Ideal S1x2304 .f32) (ix2 (0 : Fin 1) n) = (V c main_v11 : S1x2304.Idx → EReal) (ix2 (0 : Fin 1) n) := by
  obtain ⟨-, -, -, -, -, -, -, -, -, -, e0, e1, -⟩ := index1 t
  unfold iblk1
  rw [View.read_apply]
  show V c main_v11 _ = V c main_v11 _
  congr 1
  funext a; apply Fin.ext
  match a with
  | ⟨0, _⟩ => show win1_5.index t (0 : Fin 2) * 1 + 1 * (0 : Fin 1).val = (0 : Fin 1).val; omega
  | ⟨1, _⟩ => show win1_5.index t (1 : Fin 2) * 2304 + 1 * n.val = n.val; omega

/-- The output layer's weight matrix is staged whole at every point. -/
theorem wo_whole (c : Dev nD) (t : Fin cfg1.N) (k : Fin 768) (n : Fin 768) :
    (iblk1 (F := Ideal) V c 6 t : Vec Ideal S768x768 .bf16) (ix2 k n) = (V c main_v3 : S768x768.Idx → EReal) (ix2 k n) := by
  obtain ⟨-, -, -, -, -, -, -, -, -, -, -, -, e0, e1, -⟩ := index1 t
  unfold iblk1
  rw [View.read_apply]
  show V c main_v3 _ = V c main_v3 _
  congr 1
  funext a; apply Fin.ext
  match a with
  | ⟨0, _⟩ => show win1_6.index t (0 : Fin 2) * 768 + 1 * k.val = k.val; omega
  | ⟨1, _⟩ => show win1_6.index t (1 : Fin 2) * 768 + 1 * n.val = n.val; omega

/-- The output layer's bias row is staged whole at every point. -/
theorem bo_whole (c : Dev nD) (t : Fin cfg1.N) (n : Fin 768) :
    (iblk1 (F := Ideal) V c 7 t : Vec Ideal S1x768 .f32) (ix2 (0 : Fin 1) n) = (V c main_v9 : S1x768.Idx → EReal) (ix2 (0 : Fin 1) n) := by
  obtain ⟨-, -, -, -, -, -, -, -, -, -, -, -, -, -, e0, e1, -⟩ := index1 t
  unfold iblk1
  rw [View.read_apply]
  show V c main_v9 _ = V c main_v9 _
  congr 1
  funext a; apply Fin.ext
  match a with
  | ⟨0, _⟩ => show win1_7.index t (0 : Fin 2) * 1 + 1 * (0 : Fin 1).val = (0 : Fin 1).val; omega
  | ⟨1, _⟩ => show win1_7.index t (1 : Fin 2) * 768 + 1 * n.val = n.val; omega

/-! ## Region 1, the output -/

/-- Row block t of any array of the output's shape, read through the output's window. -/
theorem obj_rows (G : S32768x768.Idx → EReal) (t : Fin cfg1.N) (p : Fin 256) (q : Fin 768) (r : Fin 32768) (hr : r.val = 256 * t.val + p.val) :
    ((cfg1.win 8).blk t).view.read (Elt Ideal) G (ix2 p q) = G (ix2 r q) := by
  obtain ⟨-, -, -, -, -, -, -, -, -, -, -, -, -, -, -, -, e0, e1⟩ := index1 t
  rw [View.read_apply]
  show G _ = G _
  congr 1
  funext a; apply Fin.ext
  match a with
  | ⟨0, _⟩ => show win1_8.index t (0 : Fin 2) * 256 + 1 * p.val = r.val; omega
  | ⟨1, _⟩ => show win1_8.index t (1 : Fin 2) * 768 + 1 * q.val = q.val; omega

/-- What point t writes back to the output is row block t of the per-edge embedding. -/
theorem obj_written (c : Dev nD) (t : Fin cfg1.N) :
    (dat1 (F := Ideal) V c).flushed 8 t = ((cfg1.win 8).blk t).view.read (Elt Ideal)
      (OBJg (R := 32768) (V c main_v29) (V c main_v30) (mat (i := 768) (o := 2304) (V c main_v5)) (mat (i := 768) (o := 2304) (V c main_v7))
          (row (r := 1) (c := 2304) (V c main_v10) 0) (row (r := 1) (c := 2304) (V c main_v11) 0)
          (mat (i := 768) (o := 768) (V c main_v3)) (row (r := 1) (c := 768) (V c main_v9) 0)) := by
  show (cfg1.win 8).cut (grid1.coords t) ((dat1 V c).after 8 t) = _
  rw [after1_8]
  funext j
  obtain ⟨p, q, rfl⟩ : ∃ (p : Fin 256) (q : Fin 768), j = ix2 p q := ⟨j 0, j 1, eq_ix2 j⟩
  show out1_8 _ _ _ _ _ _ _ _ (ix2 p q) = _
  rw [Pay.out1_8_ix2]
  have hN : cfg1.N = 128 := N_1
  obtain ⟨r, hr⟩ : ∃ r : Fin 32768, r.val = 256 * t.val + p.val :=
    ⟨⟨256 * t.val + p.val, by have := t.isLt; have := p.isLt; omega⟩, rfl⟩
  rw [obj_rows _ t p q r hr, OBJg_ix2]
  have h0 : (fun k => (iblk1 (F := Ideal) V c 0 t : Vec Ideal S256x768 .f32) (ix2 p k)) = row (r := 32768) (c := 768) (V c main_v29) r :=
    funext fun k => x_rows V c t p k r hr
  have h1 : (fun k => (iblk1 (F := Ideal) V c 1 t : Vec Ideal S256x768 .f32) (ix2 p k)) = row (r := 32768) (c := 768) (V c main_v30) r :=
    funext fun k => h_rows V c t p k r hr
  have h2 : (fun k n => (iblk1 (F := Ideal) V c 2 t : Vec Ideal S768x2304 .bf16) (ix2 k n)) = mat (i := 768) (o := 2304) (V c main_v5) :=
    funext fun k => funext fun n => wi_whole1 V c t k n
  have h3 : (fun k n => (iblk1 (F := Ideal) V c 3 t : Vec Ideal S768x2304 .bf16) (ix2 k n)) = mat (i := 768) (o := 2304) (V c main_v7) :=
    funext fun k => funext fun n => wh_whole1 V c t k n
  have h4 : (fun n => (iblk1 (F := Ideal) V c 4 t : Vec Ideal S1x2304 .f32) (ix2 (0 : Fin 1) n)) = row (r := 1) (c := 2304) (V c main_v10) 0 :=
    funext fun n => bi_whole1 V c t n
  have h5 : (fun n => (iblk1 (F := Ideal) V c 5 t : Vec Ideal S1x2304 .f32) (ix2 (0 : Fin 1) n)) = row (r := 1) (c := 2304) (V c main_v11) 0 :=
    funext fun n => bh_whole1 V c t n
  have h6 : (fun k n => (iblk1 (F := Ideal) V c 6 t : Vec Ideal S768x768 .bf16) (ix2 k n)) = mat (i := 768) (o := 768) (V c main_v3) :=
    funext fun k => funext fun n => wo_whole V c t k n
  have h7 : (fun n => (iblk1 (F := Ideal) V c 7 t : Vec Ideal S1x768 .f32) (ix2 (0 : Fin 1) n)) = row (r := 1) (c := 768) (V c main_v9) 0 :=
    funext fun n => bo_whole V c t n
  rw [h0, h1, h2, h3, h4, h5, h6, h7]

/-- An index of the output is in point t's block iff each coordinate is in the block's range on its axis. -/
theorem mem_obj (t : Fin cfg1.N) (i : S32768x768.Idx) :
    i ∈ ((cfg1.win 8).blk t).view.set ↔ ∀ a : Fin 2, win1_8.index t a * S256x768.size a ≤ (i a).val ∧ (i a).val < win1_8.index t a * S256x768.size a + S256x768.size a := by
  show i ∈ ((View.whole main_v31).slice (win1_8.rect t)).set ↔ _
  rw [View.set_slice_whole, Rect.mem_set_unit]
  exact Iff.rfl

/-- The 128 row blocks tile the output: row r is in the block of point r / 256, and every point writes back. -/
theorem obj_tiled (i : S32768x768.Idx) : ∃ t : Fin cfg1.N, (cfg1.win 8).flush t = true ∧ i ∈ ((cfg1.win 8).blk t).view.set := by
  have hN : cfg1.N = 128 := N_1
  have hi0 : (i 0).val < 32768 := (i 0).isLt
  have hi1 : (i 1).val < 768 := (i 1).isLt
  obtain ⟨t, ht⟩ : ∃ t : Fin cfg1.N, t.val = (i 0).val / 256 := ⟨⟨(i 0).val / 256, by omega⟩, rfl⟩
  obtain ⟨-, -, -, -, -, -, -, -, -, -, -, -, -, -, -, -, e0, e1⟩ := index1 t
  refine ⟨t, flush1_8 t, ?_⟩
  rw [mem_obj]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 768 ≤ (i 1).val ∧ (i 1).val < win1_8.index t (1 : Fin 2) * 768 + 768; omega

/-- Region 1's output array: the per-edge embedding of the two gathered arrays found on entry. -/
theorem arr1_8 (c : Dev nD) :
    (dat1 (F := Ideal) V c).arrAt 8 cfg1.N
      = OBJg (R := 32768) (V c main_v29) (V c main_v30) (mat (i := 768) (o := 2304) (V c main_v5)) (mat (i := 768) (o := 2304) (V c main_v7))
          (row (r := 1) (c := 2304) (V c main_v10) 0) (row (r := 1) (c := 2304) (V c main_v11) 0)
          (mat (i := 768) (o := 768) (V c main_v3)) (row (r := 1) (c := 768) (V c main_v9) 0) := by
  exact (dat1 (F := Ideal) V c).arrAt_eq_of_cover 8 _ (fun t _ => obj_written V c t) obj_tiled

end Cert.KernelIdeal.Arr

end
-- ==== Proof.KGlue0.lean ====
/-
  Region 0 in terms of the arguments.

  Before the first kernel runs, the host has transposed each weight matrix (stored [out, in]) and
  changed its format, and given each bias a leading axis of length one.  On the extended reals a
  change of format is the identity, so the transposed weight read at (k, n) is the argument at (n, k),
  and the reshaped bias at (0, n) is the argument at n.  The mask and the encoder row reach the kernel
  untouched.  With that, the two arrays the first kernel leaves are the per-seed embedding and the
  first recurrent step of the ARGUMENTS.
-/
import proofs.«419166_j82411832476066_1_alg».proof.Proof.KArr
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem Cert.Spec

variable (m : (ℓ : Loc nD τ sig) → Buf (Elt Ideal) ℓ) (ρ : Dev nD → PrngReg)

/-! ## A transposed weight and a reshaped bias, entry by entry -/

/-- A square weight, transposed and changed in format, read at (k, n) is the weight at (n, k). -/
theorem mat_truncf_transpose_sq (w : S768x768.Idx → EReal) :
    mat (i := 768) (o := 768) (truncf .bf16 (transpose S768x768 [1, 0] w transposes_S768x768_S768x768_1_0) bitsLt_bf16_f32 : FVec Ideal S768x768 .bf16)
      = wT (o := 768) (i := 768) w := by
  funext k n
  show (truncf .bf16 (transpose S768x768 [1, 0] w transposes_S768x768_S768x768_1_0) bitsLt_bf16_f32 : FVec Ideal S768x768 .bf16) (ix2 k n) = w (ix2 n k)
  rw [ValueIdx.truncf_apply]
  exact transpose_apply [1, 0] w transposes_S768x768_S768x768_1_0 (ix2 k n) (ix2 n k) (fun b => match b with
    | ⟨0, _⟩ => rfl
    | ⟨1, _⟩ => rfl)

/-- A gate weight [2304, 768], transposed and changed in format, read at (k, n) is the weight at (n, k). -/
theorem mat_truncf_transpose_gate (w : S2304x768.Idx → EReal) :
    mat (i := 768) (o := 2304) (truncf .bf16 (transpose S768x2304 [1, 0] w transposes_S2304x768_S768x2304_1_0) bitsLt_bf16_f32 : FVec Ideal S768x2304 .bf16)
      = wT (o := 2304) (i := 768) w := by
  funext k n
  show (truncf .bf16 (transpose S768x2304 [1, 0] w transposes_S2304x768_S768x2304_1_0) bitsLt_bf16_f32 : FVec Ideal S768x2304 .bf16) (ix2 k n) = w (ix2 n k)
  rw [ValueIdx.truncf_apply]
  exact transpose_apply [1, 0] w transposes_S2304x768_S768x2304_1_0 (ix2 k n) (ix2 n k) (fun b => match b with
    | ⟨0, _⟩ => rfl
    | ⟨1, _⟩ => rfl)

/-- A bias of length 768 given a leading unit axis: its one row is the bias. -/
theorem row_reshape_768 (b : S768.Idx → EReal) :
    row (r := 1) (c := 768) (shapeCast S1x768 b shapeCasts_S768_S1x768) 0 = vec (n := 768) b := by
  funext n
  show shapeCast S1x768 b shapeCasts_S768_S1x768 (ix2 (0 : Fin 1) n) = b (ix1 n)
  rw [shapeCast_addUnit_apply (![768] : Fin 1 → Nat) b shapeCasts_S768_S1x768 (ix2 (0 : Fin 1) n)]
  exact congrArg b (funext fun a => match a with | ⟨0, _⟩ => rfl)

/-- A bias of length 2304 given a leading unit axis: its one row is the bias. -/
theorem row_reshape_2304 (b : S2304.Idx → EReal) :
    row (r := 1) (c := 2304) (shapeCast S1x2304 b shapeCasts_S2304_S1x2304) 0 = vec (n := 2304) b := by
  funext n
  show shapeCast S1x2304 b shapeCasts_S2304_S1x2304 (ix2 (0 : Fin 1) n) = b (ix1 n)
  rw [shapeCast_addUnit_apply (![2304] : Fin 1 → Nat) b shapeCasts_S2304_S1x2304 (ix2 (0 : Fin 1) n)]
  exact congrArg b (funext fun a => match a with | ⟨0, _⟩ => rfl)

/-! ## What region 0 finds on entry -/

theorem V1_mask (c : Dev nD) : V1 m ρ c main_arg1 = m ((c : Thread nD τ).loc main_arg1) := by
  show StableHlo.after hostOps0 (W0 m ρ c) (Proc.devRef .tc main_arg1) = _
  after_results
  all_goals rfl

theorem V1_enc (c : Dev nD) : V1 m ρ c main_arg0 = m ((c : Thread nD τ).loc main_arg0) := by
  show StableHlo.after hostOps0 (W0 m ρ c) (Proc.devRef .tc main_arg0) = _
  after_results
  all_goals rfl

theorem V1_wsubT (c : Dev nD) :
    (V1 m ρ c main_v1 : FVec Ideal S768x768 .bf16)
      = truncf (F := Ideal) .bf16 (transpose S768x768 [1, 0] (m ((c : Thread nD τ).loc main_arg9)) transposes_S768x768_S768x768_1_0) bitsLt_bf16_f32 := by
  show StableHlo.after hostOps0 (W0 m ρ c) (Proc.devRef .tc main_v1) = _
  after_results
  all_goals rfl

theorem V1_wobjT (c : Dev nD) :
    (V1 m ρ c main_v3 : FVec Ideal S768x768 .bf16)
      = truncf (F := Ideal) .bf16 (transpose S768x768 [1, 0] (m ((c : Thread nD τ).loc main_arg11)) transposes_S768x768_S768x768_1_0) bitsLt_bf16_f32 := by
  show StableHlo.after hostOps0 (W0 m ρ c) (Proc.devRef .tc main_v3) = _
  after_results
  all_goals rfl

theorem V1_wihT (c : Dev nD) :
    (V1 m ρ c main_v5 : FVec Ideal S768x2304 .bf16)
      = truncf (F := Ideal) .bf16 (transpose S768x2304 [1, 0] (m ((c : Thread nD τ).loc main_arg13)) transposes_S2304x768_S768x2304_1_0) bitsLt_bf16_f32 := by
  show StableHlo.after hostOps0 (W0 m ρ c) (Proc.devRef .tc main_v5) = _
  after_results
  all_goals rfl

theorem V1_whhT (c : Dev nD) :
    (V1 m ρ c main_v7 : FVec Ideal S768x2304 .bf16)
      = truncf (F := Ideal) .bf16 (transpose S768x2304 [1, 0] (m ((c : Thread nD τ).loc main_arg14)) transposes_S2304x768_S768x2304_1_0) bitsLt_bf16_f32 := by
  show StableHlo.after hostOps0 (W0 m ρ c) (Proc.devRef .tc main_v7) = _
  after_results
  all_goals rfl

theorem V1_bsub (c : Dev nD) : V1 m ρ c main_v8 = shapeCast S1x768 (m ((c : Thread nD τ).loc main_arg10)) shapeCasts_S768_S1x768 := by
  show StableHlo.after hostOps0 (W0 m ρ c) (Proc.devRef .tc main_v8) = _
  after_results
  all_goals rfl

theorem V1_bobj (c : Dev nD) : V1 m ρ c main_v9 = shapeCast S1x768 (m ((c : Thread nD τ).loc main_arg12)) shapeCasts_S768_S1x768 := by
  show StableHlo.after hostOps0 (W0 m ρ c) (Proc.devRef .tc main_v9) = _
  after_results
  all_goals rfl

theorem V1_bih (c : Dev nD) : V1 m ρ c main_v10 = shapeCast S1x2304 (m ((c : Thread nD τ).loc main_arg15)) shapeCasts_S2304_S1x2304 := by
  show StableHlo.after hostOps0 (W0 m ρ c) (Proc.devRef .tc main_v10) = _
  after_results
  all_goals rfl

theorem V1_bhh (c : Dev nD) : V1 m ρ c main_v11 = shapeCast S1x2304 (m ((c : Thread nD τ).loc main_arg16)) shapeCasts_S2304_S1x2304 := by
  show StableHlo.after hostOps0 (W0 m ρ c) (Proc.devRef .tc main_v11) = _
  after_results
  all_goals rfl

/-! ## The two arrays region 0 leaves -/

/-- The first kernel's first output array is the per-seed embedding of the arguments. -/
theorem K_sub (c : Dev nD) :
    (dat0 (F := Ideal) (V1 m ρ) c).arrAt 8 cfg0.N
      = SUBg (R := 2048) (m ((c : Thread nD τ).loc main_arg1)) (wT (o := 768) (i := 768) (m ((c : Thread nD τ).loc main_arg9)))
          (vec (n := 768) (m ((c : Thread nD τ).loc main_arg10))) := by
  rw [Cert.KernelIdeal.Arr.arr0_8 (V1 m ρ) c, V1_mask, V1_wsubT, V1_bsub, mat_truncf_transpose_sq, row_reshape_768]

/-- The first kernel's second output array is the first recurrent step of the arguments. -/
theorem K_r0 (c : Dev nD) :
    (dat0 (F := Ideal) (V1 m ρ) c).arrAt 9 cfg0.N
      = R0g (R := 2048) (row (r := 1) (c := 768) (m ((c : Thread nD τ).loc main_arg0)) 0) (m ((c : Thread nD τ).loc main_arg1))
          (wT (o := 768) (i := 768) (m ((c : Thread nD τ).loc main_arg9))) (vec (n := 768) (m ((c : Thread nD τ).loc main_arg10)))
          (wT (o := 2304) (i := 768) (m ((c : Thread nD τ).loc main_arg13))) (wT (o := 2304) (i := 768) (m ((c : Thread nD τ).loc main_arg14)))
          (vec (n := 2304) (m ((c : Thread nD τ).loc main_arg15))) (vec (n := 2304) (m ((c : Thread nD τ).loc main_arg16))) := by
  rw [Cert.KernelIdeal.Arr.arr0_9 (V1 m ρ) c, V1_mask, V1_enc, V1_wsubT, V1_bsub, V1_wihT, V1_whhT, V1_bih, V1_bhh,
    mat_truncf_transpose_sq, row_reshape_768, mat_truncf_transpose_gate, mat_truncf_transpose_gate, row_reshape_2304, row_reshape_2304]

end Cert.KernelIdeal.Glue

end
-- ==== Proof.IndexRange.lean ====
/-
  The two index ranges the precondition states, and what they give the take.

  The precondition ends with two conjuncts: every entry of the edge heads lies in [-2048, 2048) and
  every entry of the edge types in [-1000, 1000), as signed 32-bit words.  An index below zero is
  wrapped by adding the table's length, so the wrapped index lies in [0, 2047] (resp. [0, 999]):
  it is a row of the table.  A take fills a row with a junk value where its in-range test fails; under
  these ranges the test holds at every edge, so nothing is filled.
-/
import proofs.«419166_j82411832476066_1_alg».proof.Pre_finite_inputs
import Idealize.ShloMosaic.Lib.ReduceAll
import Idealize.ShloMosaic.Lib.StableHlo.Predicate
import Idealize.ShloMosaic.Lib.ValueIdx

noncomputable section

namespace Cert.IndexRange

open Idealize.ShloMosaic Cert.Pre_finite_inputs

variable {F : FTy → Type} [FloatOps F] [Cert.Pre_finite_inputs.Facts]

/-- A signed word in [-n, n), with n added when it is negative, reads signed in [0, n - 1]: below zero the
    sum i + n lies in [0, n) and does not wrap; from zero up the word is kept. -/
theorem wrap_toInt (i N : BitVec 32) (n : Int) (hN : N.toInt = n) (hn : n < 2 ^ 31)
    (h1 : -n ≤ i.toInt) (h2 : i.toInt < n) :
    0 ≤ (Scalar.select (IntOp.cmpi .slt i 0#32) (IntOp.addi i N) i).toInt
      ∧ (Scalar.select (IntOp.cmpi .slt i 0#32) (IntOp.addi i N) i).toInt ≤ n - 1 := by
  have h0 : (0#32 : BitVec 32).toInt = 0 := by decide
  by_cases hneg : i.toInt < 0
  · have hc : IntOp.cmpi .slt i 0#32 = 1#1 := IntOp.cmpi_slt.2 (by rw [h0]; exact hneg)
    have hs : Scalar.select (IntOp.cmpi .slt i 0#32) (IntOp.addi i N) i = i + N := by
      rw [hc]; exact if_pos rfl
    rw [hs, BitVec.toInt_add, hN]
    have hb : (i.toInt + n).bmod (2 ^ 32) = i.toInt + n := by
      apply Int.bmod_eq_of_le <;> omega
    rw [hb]; omega
  · have hc : ¬ IntOp.cmpi .slt i 0#32 = 1#1 := fun hc => hneg (by have := IntOp.cmpi_slt.1 hc; rwa [h0] at this)
    have hs : Scalar.select (IntOp.cmpi .slt i 0#32) (IntOp.addi i N) i = i := if_neg hc
    rw [hs]; omega

/-- A left fold by `and` over ones, from one, is one. -/
theorem fold_andi_ones {ι : Type} (f : ι → BitVec 1) (hf : ∀ n, f n = 1#1) :
    ∀ (l : List ι) (init : BitVec 1), init = 1#1 → l.foldl (fun r n => IntOp.andi r (f n)) init = 1#1
  | [], init, h => h
  | a :: l, init, h => fold_andi_ones f hf l _ (IntOp.andi_eq_one.2 ⟨h, hf a⟩)

/-- Two elementwise signed tests of a vector against two broadcast scalars, joined by `and`, read at one element:
    a broadcast scalar reads the scalar, so the joined test being one says both compares of that element are one. -/
theorem test_at (p q : CmpIPredicate) (a : IVec S32768 32) (lo hi : BitVec 32) (e : S32768.Idx)
    (h : andi (cmpi p a (broadcastInDim S32768 ![] Facts.bcast_S_S32768 (constantI S_ 32 lo)))
      (cmpi q a (broadcastInDim S32768 ![] Facts.bcast_S_S32768 (constantI S_ 32 hi))) e = 1#1) :
    IntOp.cmpi p (a e) lo = 1#1 ∧ IntOp.cmpi q (a e) hi = 1#1 := by
  have e1 : broadcastInDim S32768 ![] Facts.bcast_S_S32768 (constantI S_ 32 lo) e = lo :=
    StableHlo.Predicate.bcast_scalar Facts.bcast_S_S32768 Facts.h_S_ (constantI S_ 32 lo) e
  have e2 : broadcastInDim S32768 ![] Facts.bcast_S_S32768 (constantI S_ 32 hi) e = hi :=
    StableHlo.Predicate.bcast_scalar Facts.bcast_S_S32768 Facts.h_S_ (constantI S_ 32 hi) e
  have h' : IntOp.andi (IntOp.cmpi p (a e) (broadcastInDim S32768 ![] Facts.bcast_S_S32768 (constantI S_ 32 lo) e))
      (IntOp.cmpi q (a e) (broadcastInDim S32768 ![] Facts.bcast_S_S32768 (constantI S_ 32 hi) e)) = 1#1 := h
  rw [e1, e2] at h'
  exact IntOp.andi_eq_one.1 h'

/-- The last two conjuncts of the printed precondition. It is a conjunction of `all`s, nested to the left; the last
    conjunct is the `all` of the edge types' range test and the one before it the `all` of the edge heads' range test.
    An `all` that is one is one at every element (the result has rank 0, hence one index). -/
theorem pre_tail {a0 : FVec F S1x768 .f32} {a1 : FVec F S2048x768 .f32} {a2 : IVec S2048 32} {a3 a4 a5 : IVec S32768 32}
    {a6 a7 : IVec S100000 32} {a8 : FVec F S1000x768 .f32} {a9 : FVec F S768x768 .f32} {a10 : FVec F S768 .f32}
    {a11 : FVec F S768x768 .f32} {a12 : FVec F S768 .f32} {a13 a14 : FVec F S2304x768 .f32} {a15 a16 : FVec F S2304 .f32}
    {a17 : FVec F S100000x768 .f32}
    (h : Cert.Pre_finite_inputs.fn (F := F) a0 a1 a2 a3 a4 a5 a6 a7 a8 a9 a10 a11 a12 a13 a14 a15 a16 a17 = fun _ => 1#1)
    (e : S32768.Idx) :
    (IntOp.cmpi .sge (a3 e) 4294965248#32 = 1#1 ∧ IntOp.cmpi .slt (a3 e) 2048#32 = 1#1)
      ∧ (IntOp.cmpi .sge (a5 e) 4294966296#32 = 1#1 ∧ IntOp.cmpi .slt (a5 e) 1000#32 = 1#1) := by
  haveI : Subsingleton S_.Idx := ⟨fun a b => funext fun d => d.elim0⟩
  have h0 := congrFun h ValueIdx.ix0
  dsimp only [Cert.Pre_finite_inputs.fn, fn_part1, fn_part2, fn_part3, fn_part4] at h0
  change IntOp.andi _ _ = 1#1 at h0
  obtain ⟨h65, h71⟩ := IntOp.andi_eq_one.1 h0
  change IntOp.andi _ _ = 1#1 at h65
  obtain ⟨-, h64⟩ := IntOp.andi_eq_one.1 h65
  exact ⟨test_at _ _ a3 _ _ e (Host.reduce_andi_all _ _ _ _ _ h64 e),
    test_at _ _ a5 _ _ e (Host.reduce_andi_all _ _ _ _ _ h71 e)⟩

/-- Where the printed precondition is all ones, every edge head is a signed word in [-2048, 2048). -/
theorem heads_range {a0 : FVec F S1x768 .f32} {a1 : FVec F S2048x768 .f32} {a2 : IVec S2048 32} {a3 a4 a5 : IVec S32768 32}
    {a6 a7 : IVec S100000 32} {a8 : FVec F S1000x768 .f32} {a9 : FVec F S768x768 .f32} {a10 : FVec F S768 .f32}
    {a11 : FVec F S768x768 .f32} {a12 : FVec F S768 .f32} {a13 a14 : FVec F S2304x768 .f32} {a15 a16 : FVec F S2304 .f32}
    {a17 : FVec F S100000x768 .f32}
    (h : Cert.Pre_finite_inputs.fn (F := F) a0 a1 a2 a3 a4 a5 a6 a7 a8 a9 a10 a11 a12 a13 a14 a15 a16 a17 = fun _ => 1#1)
    (e : S32768.Idx) :
    IntOp.cmpi .sge (a3 e) 4294965248#32 = 1#1 ∧ IntOp.cmpi .slt (a3 e) 2048#32 = 1#1 := by
  exact (pre_tail h e).1

/-- Where the printed precondition is all ones, every edge type is a signed word in [-1000, 1000). -/
theorem types_range {a0 : FVec F S1x768 .f32} {a1 : FVec F S2048x768 .f32} {a2 : IVec S2048 32} {a3 a4 a5 : IVec S32768 32}
    {a6 a7 : IVec S100000 32} {a8 : FVec F S1000x768 .f32} {a9 : FVec F S768x768 .f32} {a10 : FVec F S768 .f32}
    {a11 : FVec F S768x768 .f32} {a12 : FVec F S768 .f32} {a13 a14 : FVec F S2304x768 .f32} {a15 a16 : FVec F S2304 .f32}
    {a17 : FVec F S100000x768 .f32}
    (h : Cert.Pre_finite_inputs.fn (F := F) a0 a1 a2 a3 a4 a5 a6 a7 a8 a9 a10 a11 a12 a13 a14 a15 a16 a17 = fun _ => 1#1)
    (e : S32768.Idx) :
    IntOp.cmpi .sge (a5 e) 4294966296#32 = 1#1 ∧ IntOp.cmpi .slt (a5 e) 1000#32 = 1#1 := by
  exact (pre_tail h e).2

/-- A signed word in [-2048, 2048), with 2048 added when it is negative, lies in [0, 2047]. -/
theorem wrap_inb_2048 (i : BitVec 32) (h1 : IntOp.cmpi .sge i 4294965248#32 = 1#1) (h2 : IntOp.cmpi .slt i 2048#32 = 1#1) :
    IntOp.cmpi .sge (Scalar.select (IntOp.cmpi .slt i 0#32) (IntOp.addi i 2048#32) i) 0#32 = 1#1
      ∧ IntOp.cmpi .sle (Scalar.select (IntOp.cmpi .slt i 0#32) (IntOp.addi i 2048#32) i) 2047#32 = 1#1 := by
  have e1 : (4294965248#32 : BitVec 32).toInt = -2048 := by decide
  have e2 : (2048#32 : BitVec 32).toInt = 2048 := by decide
  have e3 : (2047#32 : BitVec 32).toInt = 2047 := by decide
  have e0 : (0#32 : BitVec 32).toInt = 0 := by decide
  rw [IntOp.cmpi_sge, e1] at h1
  rw [IntOp.cmpi_slt, e2] at h2
  obtain ⟨ha, hb⟩ := wrap_toInt i 2048#32 2048 e2 (by norm_num) h1 h2
  rw [IntOp.cmpi_sge, IntOp.cmpi_sle, e0, e3]
  exact ⟨ha, hb⟩

/-- A signed word in [-1000, 1000), with 1000 added when it is negative, lies in [0, 999]. -/
theorem wrap_inb_1000 (i : BitVec 32) (h1 : IntOp.cmpi .sge i 4294966296#32 = 1#1) (h2 : IntOp.cmpi .slt i 1000#32 = 1#1) :
    IntOp.cmpi .sge (Scalar.select (IntOp.cmpi .slt i 0#32) (IntOp.addi i 1000#32) i) 0#32 = 1#1
      ∧ IntOp.cmpi .sle (Scalar.select (IntOp.cmpi .slt i 0#32) (IntOp.addi i 1000#32) i) 999#32 = 1#1 := by
  have e1 : (4294966296#32 : BitVec 32).toInt = -1000 := by decide
  have e2 : (1000#32 : BitVec 32).toInt = 1000 := by decide
  have e3 : (999#32 : BitVec 32).toInt = 999 := by decide
  have e0 : (0#32 : BitVec 32).toInt = 0 := by decide
  rw [IntOp.cmpi_sge, e1] at h1
  rw [IntOp.cmpi_slt, e2] at h2
  obtain ⟨ha, hb⟩ := wrap_toInt i 1000#32 1000 e2 (by norm_num) h1 h2
  rw [IntOp.cmpi_sge, IntOp.cmpi_sle, e0, e3]
  exact ⟨ha, hb⟩

/-- A reduce by `and`, from one, of a mask that is one everywhere is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact fold_andi_ones x hx _ _ (hinit _)

end Cert.IndexRange

end
-- ==== Proof.KGlue1.lean ====
/-
  Region 1 in terms of the arguments.

  Between the two kernels the host gathers, for every edge, the row of the first recurrent step that
  the edge's head names and the row of the relation table that its type names.  An index below zero is
  wrapped by adding the table's length; a take then replaces a row by a junk value where the wrapped
  index is outside the table.  Under the precondition's two index ranges the wrapped index is a row of
  the table at every edge, the test holds everywhere, and each take is the plain gather.  The weights
  and biases the second kernel reads are the ones the first kernel read: nothing in between writes
  them.  With that, the array the second kernel leaves is the per-edge embedding of the two gathers.
-/
import proofs.«419166_j82411832476066_1_alg».proof.Proof.KGlue0
import proofs.«419166_j82411832476066_1_alg».proof.Proof.IndexRange

set_option maxRecDepth 65536

noncomputable section

namespace Cert.KernelIdeal.Glue

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem Cert.Spec

variable [Cert.Pre_finite_inputs.Facts]
variable (m : (ℓ : Loc nD τ sig) → Buf (Elt Ideal) ℓ) (ρ : Dev nD → PrngReg)

/-- An index vector with 2048 added where it is negative, as a column: the start indices of the gather of `r0`. -/
abbrev wrap2048 (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 2048#32))) a)

/-- An index vector with 1000 added where it is negative, as a column: the start indices of the gather of the relation table. -/
abbrev wrap1000 (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 1000#32))) a)

/-! ## Buffers nothing writes between the launch and region 1 -/

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results
    all_goals rfl)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    all_goals rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results
    all_goals rfl)

/-- A weight or bias window is, at region 1's entry, what it was at region 0's: no host operation between the regions
    writes it, and region 0 either only reads it (an input window's array is left as found) or does not hold it at all. -/
theorem V5_wihT (c : Dev nD) : V5 m ρ c main_v5 = V1 m ρ c main_v5 := by
  show StableHlo.after hostOps1_2 (StableHlo.after hostOps1_1 (StableHlo.after hostOps1 (W2 m ρ c))) (Proc.devRef .tc main_v5) = _
  after_results_simp
  exact (W2_arr m ρ c 4).trans (((dat0 (F := Ideal) (V1 m ρ) c).arrAt_in 4 rfl _).trans (A_eq0 (V1 m ρ) c 4))
theorem V5_whhT (c : Dev nD) : V5 m ρ c main_v7 = V1 m ρ c main_v7 := by
  show StableHlo.after hostOps1_2 (StableHlo.after hostOps1_1 (StableHlo.after hostOps1 (W2 m ρ c))) (Proc.devRef .tc main_v7) = _
  after_results_simp
  exact (W2_arr m ρ c 5).trans (((dat0 (F := Ideal) (V1 m ρ) c).arrAt_in 5 rfl _).trans (A_eq0 (V1 m ρ) c 5))
theorem V5_bih (c : Dev nD) : V5 m ρ c main_v10 = V1 m ρ c main_v10 := by
  show StableHlo.after hostOps1_2 (StableHlo.after hostOps1_1 (StableHlo.after hostOps1 (W2 m ρ c))) (Proc.devRef .tc main_v10) = _
  after_results_simp
  exact (W2_arr m ρ c 6).trans (((dat0 (F := Ideal) (V1 m ρ) c).arrAt_in 6 rfl _).trans (A_eq0 (V1 m ρ) c 6))
theorem V5_bhh (c : Dev nD) : V5 m ρ c main_v11 = V1 m ρ c main_v11 := by
  show StableHlo.after hostOps1_2 (StableHlo.after hostOps1_1 (StableHlo.after hostOps1 (W2 m ρ c))) (Proc.devRef .tc main_v11) = _
  after_results_simp
  exact (W2_arr m ρ c 7).trans (((dat0 (F := Ideal) (V1 m ρ) c).arrAt_in 7 rfl _).trans (A_eq0 (V1 m ρ) c 7))
theorem V5_wobjT (c : Dev nD) : V5 m ρ c main_v3 = V1 m ρ c main_v3 := by
  show StableHlo.after hostOps1_2 (StableHlo.after hostOps1_1 (StableHlo.after hostOps1 (W2 m ρ c))) (Proc.devRef .tc main_v3) = _
  after_results_simp
  exact W2_of_ne m ρ c main_v3 (by decide)
theorem V5_bobj (c : Dev nD) : V5 m ρ c main_v9 = V1 m ρ c main_v9 := by
  show StableHlo.after hostOps1_2 (StableHlo.after hostOps1_1 (StableHlo.after hostOps1 (W2 m ρ c))) (Proc.devRef .tc main_v9) = _
  after_results_simp
  exact W2_of_ne m ρ c main_v9 (by decide)

/-! ## The two takes are the plain gathers -/

/-- Where every edge head is in [-2048, 2048), the gathered array the second kernel reads is the gather of the first
    kernel's second output at the wrapped heads. -/
theorem V5_r0g (c : Dev nD)
    (hr : ∀ e : S32768.Idx, IntOp.cmpi .sge (m ((c : Thread nD τ).loc main_arg3) e) 4294965248#32 = 1#1
      ∧ IntOp.cmpi .slt (m ((c : Thread nD τ).loc main_arg3) e) 2048#32 = 1#1) :
    V5 m ρ c main_v29
      = Host.gather gather_S2048x768_S32768x1_S32768x768_1_0_n_n_0_1_1768 ((dat0 (F := Ideal) (V1 m ρ) c).arrAt 9 cfg0.N)
          (wrap2048 (m ((c : Thread nD τ).loc main_arg3))) := by
  have h9 : W2 m ρ c (Proc.devRef .tc main_v12_1) = (dat0 (F := Ideal) (V1 m ρ) c).arrAt 9 cfg0.N := W2_arr m ρ c 9
  show StableHlo.after hostOps1_2 (StableHlo.after hostOps1_1 (StableHlo.after hostOps1 (W2 m ρ c))) (Proc.devRef .tc main_v29) = _
  after_results_simp
  simp only [TRef.ofBuf, TRef.toBuf, cast_eq]
  rw [h9, W2_arg3 m ρ c]
  funext j
  show (if _ = (1#1 : BitVec 1) then _ else _) = _
  rw [if_pos]
  refine Cert.IndexRange.reduce_andi_ones _ _ _ _ (fun i => ?_) (fun _ => rfl) _
  exact IntOp.andi_eq_one.2 (Cert.IndexRange.wrap_inb_2048 _ (hr _).1 (hr _).2)

/-- Where every edge type is in [-1000, 1000), the second gathered array is the gather of the relation table at the
    wrapped types. -/
theorem V5_relg (c : Dev nD)
    (hr : ∀ e : S32768.Idx, IntOp.cmpi .sge (m ((c : Thread nD τ).loc main_arg5) e) 4294966296#32 = 1#1
      ∧ IntOp.cmpi .slt (m ((c : Thread nD τ).loc main_arg5) e) 1000#32 = 1#1) :
    V5 m ρ c main_v30
      = Host.gather gather_S1000x768_S32768x1_S32768x768_1_0_n_n_0_1_1768 (m ((c : Thread nD τ).loc main_arg8))
          (wrap1000 (m ((c : Thread nD τ).loc main_arg5))) := by
  show StableHlo.after hostOps1_2 (StableHlo.after hostOps1_1 (StableHlo.after hostOps1 (W2 m ρ c))) (Proc.devRef .tc main_v30) = _
  after_results_simp
  simp only [TRef.ofBuf, TRef.toBuf, cast_eq]
  rw [W2_arg8 m ρ c, W2_arg5 m ρ c]
  funext j
  show (if _ = (1#1 : BitVec 1) then _ else _) = _
  rw [if_pos]
  refine Cert.IndexRange.reduce_andi_ones _ _ _ _ (fun i => ?_) (fun _ => rfl) _
  exact IntOp.andi_eq_one.2 (Cert.IndexRange.wrap_inb_1000 _ (hr _).1 (hr _).2)

/-! ## The array region 1 leaves -/

set_option maxHeartbeats 8000000 in
/-- Under the two index ranges, the second kernel's output array is the per-edge embedding of the gather of the first
    recurrent step at the wrapped heads and the gather of the relation table at the wrapped types. -/
theorem K_obj (c : Dev nD)
    (hr3 : ∀ e : S32768.Idx, IntOp.cmpi .sge (m ((c : Thread nD τ).loc main_arg3) e) 4294965248#32 = 1#1
      ∧ IntOp.cmpi .slt (m ((c : Thread nD τ).loc main_arg3) e) 2048#32 = 1#1)
    (hr5 : ∀ e : S32768.Idx, IntOp.cmpi .sge (m ((c : Thread nD τ).loc main_arg5) e) 4294966296#32 = 1#1
      ∧ IntOp.cmpi .slt (m ((c : Thread nD τ).loc main_arg5) e) 1000#32 = 1#1) :
    (dat1 (F := Ideal) (V5 m ρ) c).arrAt 8 cfg1.N
      = OBJg (R := 32768)
          (Host.gather gather_S2048x768_S32768x1_S32768x768_1_0_n_n_0_1_1768
            (R0g (R := 2048) (row (r := 1) (c := 768) (m ((c : Thread nD τ).loc main_arg0)) 0) (m ((c : Thread nD τ).loc main_arg1))
              (wT (o := 768) (i := 768) (m ((c : Thread nD τ).loc main_arg9))) (vec (n := 768) (m ((c : Thread nD τ).loc main_arg10)))
              (wT (o := 2304) (i := 768) (m ((c : Thread nD τ).loc main_arg13))) (wT (o := 2304) (i := 768) (m ((c : Thread nD τ).loc main_arg14)))
              (vec (n := 2304) (m ((c : Thread nD τ).loc main_arg15))) (vec (n := 2304) (m ((c : Thread nD τ).loc main_arg16))))
            (wrap2048 (m ((c : Thread nD τ).loc main_arg3))))
          (Host.gather gather_S1000x768_S32768x1_S32768x768_1_0_n_n_0_1_1768 (m ((c : Thread nD τ).loc main_arg8))
            (wrap1000 (m ((c : Thread nD τ).loc main_arg5))))
          (wT (o := 2304) (i := 768) (m ((c : Thread nD τ).loc main_arg13))) (wT (o := 2304) (i := 768) (m ((c : Thread nD τ).loc main_arg14)))
          (vec (n := 2304) (m ((c : Thread nD τ).loc main_arg15))) (vec (n := 2304) (m ((c : Thread nD τ).loc main_arg16)))
          (wT (o := 768) (i := 768) (m ((c : Thread nD τ).loc main_arg11))) (vec (n := 768) (m ((c : Thread nD τ).loc main_arg12))) := by
  rw [Cert.KernelIdeal.Arr.arr1_8 (V5 m ρ) c, V5_r0g m ρ c hr3, V5_relg m ρ c hr5, V5_wihT, V5_whhT, V5_bih, V5_bhh, V5_wobjT, V5_bobj,
    V1_wihT, V1_whhT, V1_bih, V1_bhh, V1_wobjT, V1_bobj, K_r0,
    mat_truncf_transpose_gate, mat_truncf_transpose_gate, row_reshape_2304, row_reshape_2304, mat_truncf_transpose_sq, row_reshape_768]

end Cert.KernelIdeal.Glue

end
-- ==== Proof.RefSub.lean ====
/-
  The reference's three float stages, as the row functions of the specification.

  The reference forms each linear layer as a product with the transposed weight matrix, contracting
  the operand's second axis with the transposed matrix's first, and adds the bias broadcast along the
  rows; its logistic function is spelled out as `1 / (1 + exp (-x))`; the three thirds of a gate row are
  column slices at 0, 768 and 1536.  Entry by entry these are the specification's `lin` and `gru`.
-/
import proofs.«419166_j82411832476066_1_alg».proof.Proof.RefRead
import proofs.«419166_j82411832476066_1_alg».proof.Proof.Spec

noncomputable section

namespace Cert.ReferenceIdeal.RefVal

open Cert.ReferenceIdeal Cert.ReferenceIdeal.Gen Cert.ReferenceIdeal.ReadP Idealize.ShloMosaic Idealize.ShloMosaic.ValueIdx Cert.Spec

/-! ### Where each operand is read

  At the entry `(p, q)` of a product, term `k` reads the left operand at `(p, k)` and the transposed
  weight at `(k, q)`, which is the stored weight at `(q, k)`; the bias broadcast along the rows is read
  at `q`. -/

theorem lidx_v1 (p : Fin 2048) (q k : Fin 768) : lidx_main_v1 (ix2 p q) k = ix2 p k :=
  funext fun a => Fin.ext (by match a with | ⟨0, _⟩ => rfl | ⟨1, _⟩ => rfl)
theorem ridx_v1 (p : Fin 2048) (q k : Fin 768) : idx_main_v0 (ridx_main_v1 (ix2 p q) k) = ix2 q k :=
  funext fun a => Fin.ext (by match a with | ⟨0, _⟩ => rfl | ⟨1, _⟩ => rfl)
theorem bidx_v3 (p : Fin 2048) (q : Fin 768) : idx_main_v2 (idx_main_v3 (ix2 p q)) = ix1 q :=
  funext fun a => Fin.ext (by match a with | ⟨0, _⟩ => rfl)

theorem lidx_v8 (p : Fin 2048) (n : Fin 2304) (k : Fin 768) :
    idx_main_v6 (lidx_main_v8 (ix2 p n) k) = ix2 (0 : Fin 1) k :=
  funext fun a => Fin.ext (by match a with | ⟨0, _⟩ => rfl | ⟨1, _⟩ => rfl)
theorem ridx_v8 (p : Fin 2048) (n : Fin 2304) (k : Fin 768) : idx_main_v7 (ridx_main_v8 (ix2 p n) k) = ix2 n k :=
  funext fun a => Fin.ext (by match a with | ⟨0, _⟩ => rfl | ⟨1, _⟩ => rfl)
theorem bidx_v10 (p : Fin 2048) (n : Fin 2304) : idx_main_v9 (idx_main_v10 (ix2 p n)) = ix1 n :=
  funext fun a => Fin.ext (by match a with | ⟨0, _⟩ => rfl)

theorem lidx_v13 (p : Fin 2048) (n : Fin 2304) (k : Fin 768) : lidx_main_v13 (ix2 p n) k = ix2 p k :=
  funext fun a => Fin.ext (by match a with | ⟨0, _⟩ => rfl | ⟨1, _⟩ => rfl)
theorem ridx_v13 (p : Fin 2048) (n : Fin 2304) (k : Fin 768) : idx_main_v12 (ridx_main_v13 (ix2 p n) k) = ix2 n k :=
  funext fun a => Fin.ext (by match a with | ⟨0, _⟩ => rfl | ⟨1, _⟩ => rfl)
theorem bidx_v15 (p : Fin 2048) (n : Fin 2304) : idx_main_v14 (idx_main_v15 (ix2 p n)) = ix1 n :=
  funext fun a => Fin.ext (by match a with | ⟨0, _⟩ => rfl)

/-! The three column slices of a gate row read it at the column offsets 0, 768 and 1536. -/

theorem sidx_v17 (p : Fin 2048) (q : Fin 768) : idx_main_v17 (ix2 p q) = ix2 p (col0 q) :=
  funext fun a => Fin.ext (by match a with | ⟨0, _⟩ => rfl | ⟨1, _⟩ => rfl)
theorem sidx_v18 (p : Fin 2048) (q : Fin 768) : idx_main_v18 (ix2 p q) = ix2 p (col1 q) :=
  funext fun a => Fin.ext (by match a with | ⟨0, _⟩ => rfl | ⟨1, _⟩ => rfl)
theorem sidx_v19 (p : Fin 2048) (q : Fin 768) : idx_main_v19 (ix2 p q) = ix2 p (col2 q) :=
  funext fun a => Fin.ext (by match a with | ⟨0, _⟩ => rfl | ⟨1, _⟩ => rfl)
theorem sidx_v20 (p : Fin 2048) (q : Fin 768) : idx_main_v20 (ix2 p q) = ix2 p (col0 q) :=
  funext fun a => Fin.ext (by match a with | ⟨0, _⟩ => rfl | ⟨1, _⟩ => rfl)
theorem sidx_v21 (p : Fin 2048) (q : Fin 768) : idx_main_v21 (ix2 p q) = ix2 p (col1 q) :=
  funext fun a => Fin.ext (by match a with | ⟨0, _⟩ => rfl | ⟨1, _⟩ => rfl)
theorem sidx_v22 (p : Fin 2048) (q : Fin 768) : idx_main_v22 (ix2 p q) = ix2 p (col2 q) :=
  funext fun a => Fin.ext (by match a with | ⟨0, _⟩ => rfl | ⟨1, _⟩ => rfl)

/-! ### The linear layers, entry by entry -/

/-- Entry `(p, q)` of the embedding: `tanh` of row `p` of the mask times the transposed weight plus the bias. -/
theorem sub_entry (x1 : (⟨S2048x768, .f32⟩ : BufTy).Contents (Elt Ideal)) (x9 : (⟨S768x768, .f32⟩ : BufTy).Contents (Elt Ideal)) (x10 : (⟨S768, .f32⟩ : BufTy).Contents (Elt Ideal))
    (p : Fin 2048) (q : Fin 768) :
    val_main_v5 (F := Ideal) x1 x9 x10 (ix2 p q)
      = Ideal.tanh (lin (row (r := 2048) (c := 768) x1 p) (wT (o := 768) (i := 768) x9) (vec (n := 768) x10) q) := by
  rw [val_main_v5_apply, val_main_v4_apply, val_main_v1_apply, val_main_v3_apply, val_main_v2_apply]
  simp only [val_main_v0_apply, lidx_v1, ridx_v1, bidx_v3, lin, row, wT, vec, Ideal.hostUnary_tanh_def, Ideal.addf_def]

/-- Entry `(p, n)` of the input gate row: the one encoder row times the transposed input weight plus its bias. -/
theorem gi_entry (x0 : (⟨S1x768, .f32⟩ : BufTy).Contents (Elt Ideal)) (x13 : (⟨S2304x768, .f32⟩ : BufTy).Contents (Elt Ideal)) (x15 : (⟨S2304, .f32⟩ : BufTy).Contents (Elt Ideal))
    (p : Fin 2048) (n : Fin 2304) :
    val_main_v11 (F := Ideal) x0 x13 x15 (ix2 p n)
      = lin (row (r := 1) (c := 768) x0 0) (wT (o := 2304) (i := 768) x13) (vec (n := 2304) x15) n := by
  rw [val_main_v11_apply, val_main_v8_apply, val_main_v10_apply, val_main_v9_apply]
  simp only [val_main_v6_apply, val_main_v7_apply, lidx_v8, ridx_v8, bidx_v10, lin, row, wT, vec, Ideal.addf_def]

/-- Entry `(p, n)` of the state gate row: row `p` of the embedding times the transposed state weight plus its bias. -/
theorem gh_entry (x1 : (⟨S2048x768, .f32⟩ : BufTy).Contents (Elt Ideal)) (x9 : (⟨S768x768, .f32⟩ : BufTy).Contents (Elt Ideal)) (x10 : (⟨S768, .f32⟩ : BufTy).Contents (Elt Ideal))
    (x14 : (⟨S2304x768, .f32⟩ : BufTy).Contents (Elt Ideal)) (x16 : (⟨S2304, .f32⟩ : BufTy).Contents (Elt Ideal)) (p : Fin 2048) (n : Fin 2304) :
    val_main_v16 (F := Ideal) x1 x9 x10 x14 x16 (ix2 p n)
      = lin (fun k => Ideal.tanh (lin (row (r := 2048) (c := 768) x1 p) (wT (o := 768) (i := 768) x9) (vec (n := 768) x10) k))
          (wT (o := 2304) (i := 768) x14) (vec (n := 2304) x16) n := by
  rw [val_main_v16_apply, val_main_v13_apply, val_main_v15_apply, val_main_v14_apply]
  simp only [val_main_v12_apply, lidx_v13, ridx_v13, bidx_v15, sub_entry, lin, row, wT, vec, Ideal.addf_def]

/-! ### The constant one, broadcast -/

theorem one_v26 (i : S2048x768.Idx) : val_main_v26 (F := Ideal) i = (1 : EReal) := by
  rw [val_main_v26_apply, val_main_cst_apply, Ideal.ofBits_def, one_f32]
theorem one_v28 (i : S2048x768.Idx) : val_main_v28 (F := Ideal) i = (1 : EReal) := by
  rw [val_main_v28_apply, val_main_cst_0_apply, Ideal.ofBits_def, one_f32]
theorem one_v33 (i : S2048x768.Idx) : val_main_v33 (F := Ideal) i = (1 : EReal) := by
  rw [val_main_v33_apply, val_main_cst_1_apply, Ideal.ofBits_def, one_f32]
theorem one_v35 (i : S2048x768.Idx) : val_main_v35 (F := Ideal) i = (1 : EReal) := by
  rw [val_main_v35_apply, val_main_cst_2_apply, Ideal.ofBits_def, one_f32]
theorem one_v40 (i : S2048x768.Idx) : val_main_v40 (F := Ideal) i = (1 : EReal) := by
  rw [val_main_v40_apply, val_main_cst_3_apply, Ideal.ofBits_def, one_f32]

/-! ### The recurrent cell, entry by entry -/

/-- Entry `(p, q)` of the first recurrent step: the cell of the encoder row and row `p` of the embedding. -/
theorem r0_entry (x0 : (⟨S1x768, .f32⟩ : BufTy).Contents (Elt Ideal)) (x1 : (⟨S2048x768, .f32⟩ : BufTy).Contents (Elt Ideal)) (x9 : (⟨S768x768, .f32⟩ : BufTy).Contents (Elt Ideal)) (x10 : (⟨S768, .f32⟩ : BufTy).Contents (Elt Ideal))
    (x13 x14 : (⟨S2304x768, .f32⟩ : BufTy).Contents (Elt Ideal)) (x15 x16 : (⟨S2304, .f32⟩ : BufTy).Contents (Elt Ideal)) (p : Fin 2048) (q : Fin 768) :
    val_main_v44 (F := Ideal) x0 x1 x9 x10 x13 x14 x15 x16 (ix2 p q)
      = gru (row (r := 1) (c := 768) x0 0)
          (fun k => Ideal.tanh (lin (row (r := 2048) (c := 768) x1 p) (wT (o := 768) (i := 768) x9) (vec (n := 768) x10) k))
          (wT (o := 2304) (i := 768) x13) (wT (o := 2304) (i := 768) x14) (vec (n := 2304) x15) (vec (n := 2304) x16) q := by
  simp only [val_main_v44_apply, val_main_v43_apply, val_main_v42_apply, val_main_v41_apply, val_main_v39_apply,
    val_main_v38_apply, val_main_v37_apply, val_main_v36_apply, val_main_v34_apply, val_main_v32_apply,
    val_main_v31_apply, val_main_v30_apply, val_main_v29_apply, val_main_v27_apply, val_main_v25_apply,
    val_main_v24_apply, val_main_v23_apply, val_main_v22_apply, val_main_v21_apply, val_main_v20_apply,
    val_main_v19_apply, val_main_v18_apply, val_main_v17_apply,
    sidx_v17, sidx_v18, sidx_v19, sidx_v20, sidx_v21, sidx_v22,
    gi_entry, gh_entry, sub_entry, one_v26, one_v28, one_v33, one_v35, one_v40,
    Ideal.addf_def, Ideal.subf_def, Ideal.mulf_def, Ideal.hostDivf_def, Ideal.hostNegf_def, Ideal.negf_def,
    Ideal.hostUnary_exp_def, Ideal.hostUnary_tanh_def, logistic_expand, gru]

/-- The reference's embedding stage is `SUBg` of the mask, the transposed weight and the bias. -/
theorem ref_sub (x1 : (⟨S2048x768, .f32⟩ : BufTy).Contents (Elt Ideal)) (x9 : (⟨S768x768, .f32⟩ : BufTy).Contents (Elt Ideal))
    (x10 : (⟨S768, .f32⟩ : BufTy).Contents (Elt Ideal)) :
    val_main_v5 (F := Ideal) x1 x9 x10 = SUBg (R := 2048) x1 (wT (o := 768) (i := 768) x9) (vec (n := 768) x10) := by
  funext i
  obtain ⟨p, q, rfl⟩ : ∃ (p : Fin 2048) (q : Fin 768), i = ix2 p q := ⟨i 0, i 1, eq_ix2 i⟩
  rw [SUBg_ix2]
  exact sub_entry x1 x9 x10 p q

/-- The reference's first recurrent step is `R0g`. -/
theorem ref_r0 (x0 : (⟨S1x768, .f32⟩ : BufTy).Contents (Elt Ideal)) (x1 : (⟨S2048x768, .f32⟩ : BufTy).Contents (Elt Ideal))
    (x9 : (⟨S768x768, .f32⟩ : BufTy).Contents (Elt Ideal)) (x10 : (⟨S768, .f32⟩ : BufTy).Contents (Elt Ideal))
    (x13 x14 : (⟨S2304x768, .f32⟩ : BufTy).Contents (Elt Ideal)) (x15 x16 : (⟨S2304, .f32⟩ : BufTy).Contents (Elt Ideal)) :
    val_main_v44 (F := Ideal) x0 x1 x9 x10 x13 x14 x15 x16
      = R0g (R := 2048) (row (r := 1) (c := 768) x0 0) x1 (wT (o := 768) (i := 768) x9) (vec (n := 768) x10)
          (wT (o := 2304) (i := 768) x13) (wT (o := 2304) (i := 768) x14) (vec (n := 2304) x15) (vec (n := 2304) x16) := by
  funext i
  obtain ⟨p, q, rfl⟩ : ∃ (p : Fin 2048) (q : Fin 768), i = ix2 p q := ⟨i 0, i 1, eq_ix2 i⟩
  rw [R0g_ix2]
  exact r0_entry x0 x1 x9 x10 x13 x14 x15 x16 p q

end Cert.ReferenceIdeal.RefVal

end
-- ==== Proof.RefObj.lean ====
/-
  The reference's per-edge stage, as the row functions of the specification.

  The reference forms each linear layer as a product with the transposed weight matrix, contracting
  the operand's second axis with the transposed matrix's first, and adds the bias broadcast along the
  rows; its logistic function is spelled out as `1 / (1 + exp (-x))`; the three thirds of a gate row are
  column slices at 0, 768 and 1536.  Entry by entry these are the specification's `lin` and `gru`.
-/
import proofs.«419166_j82411832476066_1_alg».proof.Proof.RefRead
import proofs.«419166_j82411832476066_1_alg».proof.Proof.Spec

noncomputable section

namespace Cert.ReferenceIdeal.RefVal

open Cert.ReferenceIdeal Cert.ReferenceIdeal.Gen Cert.ReferenceIdeal.ReadP Idealize.ShloMosaic Idealize.ShloMosaic.ValueIdx Cert.Spec

section ObjLayers

variable (x0 : (⟨S1x768, .f32⟩ : BufTy).Contents (Elt Ideal)) (x1 : (⟨S2048x768, .f32⟩ : BufTy).Contents (Elt Ideal))
  (x3 x5 : (⟨S32768, .i32⟩ : BufTy).Contents (Elt Ideal)) (x8 : (⟨S1000x768, .f32⟩ : BufTy).Contents (Elt Ideal))
  (x9 : (⟨S768x768, .f32⟩ : BufTy).Contents (Elt Ideal)) (x10 : (⟨S768, .f32⟩ : BufTy).Contents (Elt Ideal))
  (x11 : (⟨S768x768, .f32⟩ : BufTy).Contents (Elt Ideal)) (x12 : (⟨S768, .f32⟩ : BufTy).Contents (Elt Ideal))
  (x13 x14 : (⟨S2304x768, .f32⟩ : BufTy).Contents (Elt Ideal)) (x15 x16 : (⟨S2304, .f32⟩ : BufTy).Contents (Elt Ideal))

/-- The gate row of the input: entry `(p, n)` of `x · W_ihᵀ + b_ih` is `lin` of row `p` of the gathered input array. -/
theorem obj_gi (p : Fin 32768) (n : Fin 2304) :
    val_main_v79 (F := Ideal) x0 x1 x3 x9 x10 x13 x14 x15 x16 (ix2 p n)
      = lin (row (val_main_v74 (F := Ideal) x0 x1 x3 x9 x10 x13 x14 x15 x16) p) (wT (o := 2304) (i := 768) x13) (vec (n := 2304) x15) n := by
  rw [val_main_v79_apply, val_main_v76_apply, val_main_v78_apply, val_main_v77_apply]
  generalize val_main_v74 (F := Ideal) x0 x1 x3 x9 x10 x13 x14 x15 x16 = xg
  have e1 : ∀ k : Fin 768, lidx_main_v76 (ix2 p n) k = ix2 p k := fun k => funext fun a => Fin.ext (by match a with | ⟨0, _⟩ => rfl | ⟨1, _⟩ => rfl)
  have e2 : ∀ k : Fin 768, idx_main_v75 (ridx_main_v76 (ix2 p n) k) = ix2 n k := fun k => funext fun a => Fin.ext (by match a with | ⟨0, _⟩ => rfl | ⟨1, _⟩ => rfl)
  have e3 : idx_main_v77 (idx_main_v78 (ix2 p n)) = ix1 n := funext fun a => Fin.ext (by match a with | ⟨0, _⟩ => rfl)
  simp only [val_main_v75_apply, e1, e2, e3, Ideal.addf_def]
  rfl

/-- The gate row of the state: entry `(p, n)` of `h · W_hhᵀ + b_hh` is `lin` of row `p` of the gathered state array. -/
theorem obj_gh (p : Fin 32768) (n : Fin 2304) :
    val_main_v84 (F := Ideal) x5 x8 x14 x16 (ix2 p n)
      = lin (row (val_main_v67 (F := Ideal) x5 x8) p) (wT (o := 2304) (i := 768) x14) (vec (n := 2304) x16) n := by
  rw [val_main_v84_apply, val_main_v81_apply, val_main_v83_apply, val_main_v82_apply]
  generalize val_main_v67 (F := Ideal) x5 x8 = hg
  have e1 : ∀ k : Fin 768, lidx_main_v81 (ix2 p n) k = ix2 p k := fun k => funext fun a => Fin.ext (by match a with | ⟨0, _⟩ => rfl | ⟨1, _⟩ => rfl)
  have e2 : ∀ k : Fin 768, idx_main_v80 (ridx_main_v81 (ix2 p n) k) = ix2 n k := fun k => funext fun a => Fin.ext (by match a with | ⟨0, _⟩ => rfl | ⟨1, _⟩ => rfl)
  have e3 : idx_main_v82 (idx_main_v83 (ix2 p n)) = ix1 n := funext fun a => Fin.ext (by match a with | ⟨0, _⟩ => rfl)
  simp only [val_main_v80_apply, e1, e2, e3, Ideal.addf_def]
  rfl

/-- The recurrent cell: entry `(p, q)` of the new state is `gru` of rows `p` of the two gathered arrays.
    The reset, update and candidate thirds are the column slices at 0, 768 and 1536 of the two gate rows;
    `1 / (1 + exp (-x))` is the logistic function; every constant is the word of the number one. -/
theorem obj_cell (p : Fin 32768) (q : Fin 768) :
    val_main_v112 (F := Ideal) x0 x1 x3 x5 x8 x9 x10 x13 x14 x15 x16 (ix2 p q)
      = gru (row (val_main_v74 (F := Ideal) x0 x1 x3 x9 x10 x13 x14 x15 x16) p) (row (val_main_v67 (F := Ideal) x5 x8) p)
          (wT (o := 2304) (i := 768) x13) (wT (o := 2304) (i := 768) x14) (vec (n := 2304) x15) (vec (n := 2304) x16) q := by
  have s85 : idx_main_v85 (ix2 p q) = ix2 p (col0 q) := funext fun a => Fin.ext (by match a with | ⟨0, _⟩ => rfl | ⟨1, _⟩ => rfl)
  have s86 : idx_main_v86 (ix2 p q) = ix2 p (col1 q) := funext fun a => Fin.ext (by match a with | ⟨0, _⟩ => rfl | ⟨1, _⟩ => rfl)
  have s87 : idx_main_v87 (ix2 p q) = ix2 p (col2 q) := funext fun a => Fin.ext (by match a with | ⟨0, _⟩ => rfl | ⟨1, _⟩ => rfl)
  have s88 : idx_main_v88 (ix2 p q) = ix2 p (col0 q) := funext fun a => Fin.ext (by match a with | ⟨0, _⟩ => rfl | ⟨1, _⟩ => rfl)
  have s89 : idx_main_v89 (ix2 p q) = ix2 p (col1 q) := funext fun a => Fin.ext (by match a with | ⟨0, _⟩ => rfl | ⟨1, _⟩ => rfl)
  have s90 : idx_main_v90 (ix2 p q) = ix2 p (col2 q) := funext fun a => Fin.ext (by match a with | ⟨0, _⟩ => rfl | ⟨1, _⟩ => rfl)
  simp only [val_main_v112_apply, val_main_v111_apply, val_main_v110_apply, val_main_v109_apply, val_main_v108_apply,
    val_main_cst_16_apply, val_main_v107_apply, val_main_v106_apply, val_main_v105_apply, val_main_v104_apply,
    val_main_v103_apply, val_main_cst_15_apply, val_main_v102_apply, val_main_v101_apply, val_main_cst_14_apply,
    val_main_v100_apply, val_main_v99_apply, val_main_v98_apply, val_main_v97_apply, val_main_v96_apply,
    val_main_cst_13_apply, val_main_v95_apply, val_main_v94_apply, val_main_cst_12_apply, val_main_v93_apply,
    val_main_v92_apply, val_main_v91_apply, val_main_v90_apply, val_main_v89_apply, val_main_v88_apply,
    val_main_v87_apply, val_main_v86_apply, val_main_v85_apply, s85, s86, s87, s88, s89, s90, obj_gi, obj_gh]
  generalize val_main_v74 (F := Ideal) x0 x1 x3 x9 x10 x13 x14 x15 x16 = xg
  generalize val_main_v67 (F := Ideal) x5 x8 = hg
  simp only [Ideal.addf_def, Ideal.subf_def, Ideal.mulf_def, Ideal.hostDivf_def, Ideal.hostNegf_def, Ideal.negf_def,
    Ideal.hostUnary_exp_def, Ideal.hostUnary_tanh_def, Ideal.ofBits_def, Cert.Spec.one_f32, Cert.Spec.logistic_expand]
  rfl

end ObjLayers

/-- The reference's per-edge embedding is `OBJg` of its two gathered arrays. -/
theorem ref_obj (x0 : (⟨S1x768, .f32⟩ : BufTy).Contents (Elt Ideal)) (x1 : (⟨S2048x768, .f32⟩ : BufTy).Contents (Elt Ideal))
    (x3 x5 : (⟨S32768, .i32⟩ : BufTy).Contents (Elt Ideal)) (x8 : (⟨S1000x768, .f32⟩ : BufTy).Contents (Elt Ideal))
    (x9 : (⟨S768x768, .f32⟩ : BufTy).Contents (Elt Ideal)) (x10 : (⟨S768, .f32⟩ : BufTy).Contents (Elt Ideal))
    (x11 : (⟨S768x768, .f32⟩ : BufTy).Contents (Elt Ideal)) (x12 : (⟨S768, .f32⟩ : BufTy).Contents (Elt Ideal))
    (x13 x14 : (⟨S2304x768, .f32⟩ : BufTy).Contents (Elt Ideal)) (x15 x16 : (⟨S2304, .f32⟩ : BufTy).Contents (Elt Ideal)) :
    val_main_v118 (F := Ideal) x0 x1 x3 x5 x8 x9 x10 x11 x12 x13 x14 x15 x16
      = OBJg (R := 32768) (val_main_v74 (F := Ideal) x0 x1 x3 x9 x10 x13 x14 x15 x16) (val_main_v67 (F := Ideal) x5 x8)
          (wT (o := 2304) (i := 768) x13) (wT (o := 2304) (i := 768) x14) (vec (n := 2304) x15) (vec (n := 2304) x16)
          (wT (o := 768) (i := 768) x11) (vec (n := 768) x12) := by
  funext i
  obtain ⟨p, q, rfl⟩ : ∃ (p : Fin 32768) (q : Fin 768), i = ix2 p q := ⟨i 0, i 1, eq_ix2 i⟩
  rw [OBJg_ix2, val_main_v118_apply, val_main_v117_apply, val_main_v114_apply, val_main_v116_apply, val_main_v115_apply]
  have e1 : ∀ k : Fin 768, lidx_main_v114 (ix2 p q) k = ix2 p k := fun k => funext fun a => Fin.ext (by match a with | ⟨0, _⟩ => rfl | ⟨1, _⟩ => rfl)
  have e2 : ∀ k : Fin 768, idx_main_v113 (ridx_main_v114 (ix2 p q) k) = ix2 q k := fun k => funext fun a => Fin.ext (by match a with | ⟨0, _⟩ => rfl | ⟨1, _⟩ => rfl)
  have e3 : idx_main_v115 (idx_main_v116 (ix2 p q)) = ix1 q := funext fun a => Fin.ext (by match a with | ⟨0, _⟩ => rfl)
  simp only [val_main_v113_apply, e1, e2, e3, obj_cell, Ideal.addf_def, Ideal.hostUnary_tanh_def]
  rfl

end Cert.ReferenceIdeal.RefVal

end
-- ==== Proof.Bridge.lean ====
/-
  The two programs' results are one array.

  After the second kernel both programs do the same bookkeeping: a time stamp per write, the latest
  write per node by a scatter of maxima, the winning rows scattered into a table of zeros, a gather by
  the re-indexed node ids, and a final choice between the table and the default rows.  That chain reads
  the per-seed embedding, the per-edge embedding, the seed position of every edge's head and five
  arguments, and nothing else.  So once those three arrays are the reference's own stages — which is
  what the two kernels' value lemmas and the index ranges give — the kernel program's result is the
  reference's, the shared chain carried along unopened.
-/
import proofs.«419166_j82411832476066_1_alg».proof.Defs
import proofs.«419166_j82411832476066_1_alg».proof.Proof.KGlue1
import proofs.«419166_j82411832476066_1_alg».proof.Proof.RefSub
import proofs.«419166_j82411832476066_1_alg».proof.Proof.RefObj

set_option maxRecDepth 65536

noncomputable section

namespace Cert.Bridge

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem Cert.Spec

/-! ## The shared chain, at any float family, one stretch at a time -/

section Tail

variable {F : FTy → Type} [FloatOps F] [Cert.ReferenceIdeal.Facts]
variable (m : (ℓ : Loc nD τ sig) → Buf (Elt F) ℓ) (ρ : Dev nD → PrngReg)

/-! ### The time stamps, the latest write per node, the two win masks -/

set_option maxHeartbeats 4000000 in
/-- The latest write time per node, after the first stretch of the closing chain, is the reference's stage. -/
theorem tail_best (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W7 m ρ c (Proc.devRef .tc main_v55) = Cert.ReferenceIdeal.ReadP.val_main_v142 (F := F) x2 x3 x4 := by
  show StableHlo.after hostOps2 (W6 m ρ c) (Proc.devRef .tc main_v55) = _
  generalize W6 m ρ c = X at hesp h2 h4 ⊢
  after_results_simp
  simp only [hesp, h2, h4]
  rfl

set_option maxHeartbeats 4000000 in
/-- The seeds' win mask is the reference's stage. -/
theorem tail_win_s (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W7 m ρ c (Proc.devRef .tc main_v63) = Cert.ReferenceIdeal.ReadP.val_main_v150 (F := F) x2 x3 x4 := by
  show StableHlo.after hostOps2 (W6 m ρ c) (Proc.devRef .tc main_v63) = _
  generalize W6 m ρ c = X at hesp h2 h4 ⊢
  after_results_simp
  simp only [hesp, h2, h4]
  rfl

set_option maxHeartbeats 4000000 in
/-- The edges' win mask is the reference's stage. -/
theorem tail_win_e (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W7 m ρ c (Proc.devRef .tc main_v71) = Cert.ReferenceIdeal.ReadP.val_main_v158 (F := F) x2 x3 x4 := by
  show StableHlo.after hostOps2 (W6 m ρ c) (Proc.devRef .tc main_v71) = _
  generalize W6 m ρ c = X at hesp h2 h4 ⊢
  after_results_simp
  simp only [hesp, h2, h4]
  rfl

set_option maxHeartbeats 4000000 in
/-- The table of zeros is the reference's stage. -/
theorem tail_zeros (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W7 m ρ c (Proc.devRef .tc main_v72) = Cert.ReferenceIdeal.ReadP.val_main_v159 (F := F) := by
  show StableHlo.after hostOps2 (W6 m ρ c) (Proc.devRef .tc main_v72) = _
  generalize W6 m ρ c = X at hesp h2 h4 ⊢
  after_results_simp
  rfl

set_option maxHeartbeats 4000000 in
/-- The out-of-range row index the losing writes are sent to is the reference's stage. -/
theorem tail_n (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W7 m ρ c (Proc.devRef .tc main_c_16) = Cert.ReferenceIdeal.ReadP.val_main_c_30 (F := F) := by
  show StableHlo.after hostOps2 (W6 m ρ c) (Proc.devRef .tc main_c_16) = _
  generalize W6 m ρ c = X at hesp h2 h4 ⊢
  after_results_simp
  rfl

/-! ### The two row scatters' inputs -/

set_option maxHeartbeats 4000000 in
/-- The table after the seeds' rows are scattered into it is the reference's stage. -/
theorem tail_table_s (c : Dev nD) (x1 : (⟨Cert.ReferenceIdeal.S2048x768, .f32⟩ : BufTy).Contents (Elt F)) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (x9 : (⟨Cert.ReferenceIdeal.S768x768, .f32⟩ : BufTy).Contents (Elt F)) (x10 : (⟨Cert.ReferenceIdeal.S768, .f32⟩ : BufTy).Contents (Elt F)) (hsub : W6 m ρ c (Proc.devRef .tc main_v12_0) = Cert.ReferenceIdeal.ReadP.val_main_v5 (F := F) x1 x9 x10) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W10 m ρ c (Proc.devRef .tc main_v80) = Cert.ReferenceIdeal.ReadP.val_main_v167 (F := F) x1 x2 x3 x4 x9 x10 := by
  have e63 : W7 m ρ c (Proc.devRef .tc main_v63) = Cert.ReferenceIdeal.ReadP.val_main_v150 (F := F) x2 x3 x4 := tail_win_s m ρ c x2 x3 x4 hesp h2 h4
  have e72 : W7 m ρ c (Proc.devRef .tc main_v72) = Cert.ReferenceIdeal.ReadP.val_main_v159 (F := F) := tail_zeros m ρ c x2 x3 x4 hesp h2 h4
  have e16 : W7 m ρ c (Proc.devRef .tc main_c_16) = Cert.ReferenceIdeal.ReadP.val_main_c_30 (F := F) := tail_n m ρ c x2 x3 x4 hesp h2 h4
  have a2 : W7 m ρ c (Proc.devRef .tc main_arg2) = x2 := (by show StableHlo.after hostOps2 (W6 m ρ c) (Proc.devRef .tc main_arg2) = _; after_results_simp; exact h2)
  have s0 : W7 m ρ c (Proc.devRef .tc main_v12_0) = Cert.ReferenceIdeal.ReadP.val_main_v5 (F := F) x1 x9 x10 := (by show StableHlo.after hostOps2 (W6 m ρ c) (Proc.devRef .tc main_v12_0) = _; after_results_simp; exact hsub)
  show StableHlo.after hostOps2_3 (StableHlo.after hostOps2_2 (StableHlo.after hostOps2_1 (W7 m ρ c))) (Proc.devRef .tc main_v80) = _
  generalize W7 m ρ c = X at e63 e72 e16 a2 s0 ⊢
  after_results_simp
  simp only [TRef.ofBuf, TRef.toBuf, cast_eq, e63, e72, e16, a2, s0]
  rfl

set_option maxHeartbeats 4000000 in
/-- The row index every edge's row is sent to is the reference's stage. -/
theorem tail_dest_e (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W10 m ρ c (Proc.devRef .tc main_v81) = Cert.ReferenceIdeal.ReadP.val_main_v168 (F := F) x2 x3 x4 := by
  have e71 : W7 m ρ c (Proc.devRef .tc main_v71) = Cert.ReferenceIdeal.ReadP.val_main_v158 (F := F) x2 x3 x4 := tail_win_e m ρ c x2 x3 x4 hesp h2 h4
  have a4 : W7 m ρ c (Proc.devRef .tc main_arg4) = x4 := (by show StableHlo.after hostOps2 (W6 m ρ c) (Proc.devRef .tc main_arg4) = _; after_results_simp; exact h4)
  show StableHlo.after hostOps2_3 (StableHlo.after hostOps2_2 (StableHlo.after hostOps2_1 (W7 m ρ c))) (Proc.devRef .tc main_v81) = _
  generalize W7 m ρ c = X at e71 a4 ⊢
  after_results_simp
  simp only [TRef.ofBuf, TRef.toBuf, cast_eq, e71, a4]
  rfl

set_option maxHeartbeats 4000000 in
/-- The latest write time per node is still in its buffer after the middle stretches. -/
theorem tail_best_kept (c : Dev nD) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (hesp : W6 m ρ c (Proc.devRef .tc main_v28) = Cert.ReferenceIdeal.ReadP.val_main_v60 (F := F) x2 x3) (h2 : W6 m ρ c (Proc.devRef .tc main_arg2) = x2) (h4 : W6 m ρ c (Proc.devRef .tc main_arg4) = x4) :
    W10 m ρ c (Proc.devRef .tc main_v55) = Cert.ReferenceIdeal.ReadP.val_main_v142 (F := F) x2 x3 x4 := by
  have e55 : W7 m ρ c (Proc.devRef .tc main_v55) = Cert.ReferenceIdeal.ReadP.val_main_v142 (F := F) x2 x3 x4 := tail_best m ρ c x2 x3 x4 hesp h2 h4
  show StableHlo.after hostOps2_3 (StableHlo.after hostOps2_2 (StableHlo.after hostOps2_1 (W7 m ρ c))) (Proc.devRef .tc main_v55) = _
  generalize W7 m ρ c = X at e55 ⊢
  after_results_simp
  exact e55

/-! ### The edges' rows, the re-indexed ids, the final choice -/

set_option maxHeartbeats 16000000 in
/-- If, when the second kernel has run, the three arrays and five arguments the closing chain reads hold the reference's
    stages and arguments, the kernel program's result buffer ends at the reference's result stage. -/
theorem tail_eq (c : Dev nD) (x0 : (⟨Cert.ReferenceIdeal.S1x768, .f32⟩ : BufTy).Contents (Elt F)) (x1 : (⟨Cert.ReferenceIdeal.S2048x768, .f32⟩ : BufTy).Contents (Elt F)) (x2 : (⟨Cert.ReferenceIdeal.S2048, .i32⟩ : BufTy).Contents (Elt F)) (x3 : (⟨Cert.ReferenceIdeal.S32768, .i32⟩ : BufTy).Contents (Elt F)) (x4 : (⟨Cert.ReferenceIdeal.S32768, .i32⟩ : BufTy).Contents (Elt F)) (x5 : (⟨Cert.ReferenceIdeal.S32768, .i32⟩ : BufTy).Contents (Elt F)) (x6 : (⟨Cert.ReferenceIdeal.S100000, .i32⟩ : BufTy).Contents (Elt F)) (x7 : (⟨Cert.ReferenceIdeal.S100000, .i32⟩ : BufTy).Contents (Elt F)) (x8 : (⟨Cert.ReferenceIdeal.S1000x768, .f32⟩ : BufTy).Contents (Elt F)) (x9 : (⟨Cert.ReferenceIdeal.S768x768, .f32⟩ : BufTy).Contents (Elt F)) (x10 : (⟨Cert.ReferenceIdeal.S768, .f32⟩ : BufTy).Contents (Elt F)) (x11 : (⟨Cert.ReferenceIdeal.S768x768, .f32⟩ : BufTy).Contents (Elt F)) (x12 : (⟨Cert.ReferenceIdeal.S768, .f32⟩ : BufTy).Contents (Elt F)) (x13 : (⟨Cert.ReferenceIdeal.S2304x768, .f32⟩ : BufTy).Contents (Elt F)) (x14 : (⟨Cert.ReferenceIdeal.S2304x768, .f32⟩ : BufTy).Contents (Elt F)) (x15 : (⟨Cert.ReferenceIdeal.S2304, .f32⟩ : BufTy).Contents (Elt F)) (x16 : (⟨Cert.ReferenceIdeal.S2304, .f32⟩ : BufTy).Contents (Elt F)) (x17 : (⟨Cert.ReferenceIdeal.S100000x768, .f32⟩ : BufTy).Contents (Elt F))
    (hsub : W6 m ρ c (Proc.devRef .tc main_v12_0) = Cert.ReferenceIdeal.ReadP.val_main_v5 (F := F) x1 x9 x10)
    (hobj : W6 m ρ c (Proc.devRef .tc main_v31) = Cert.ReferenceIdeal.ReadP.val_main_v118 (F := F) x0 x1 x3 x5 x8 x9 x10 x11 x12 x13 x14 x15 x16)
    (hesp : W6 m ρ c (Proc.devRef .tc main_v28) = Cert.ReferenceIdeal.ReadP.val_main_v60 (F := F) x2 x3)
    (h2 : W6 m ρ c (Proc.devRef .tc main_arg2) = x2) (h4 : W6 m ρ c (Proc.devRef .tc main_arg4) = x4) (h6 : W6 m ρ c (Proc.devRef .tc main_arg6) = x6) (h7 : W6 m ρ c (Proc.devRef .tc main_arg7) = x7) (h17 : W6 m ρ c (Proc.devRef .tc main_arg17) = x17) :
    W12 m ρ c (Proc.devRef .tc main_v113) = Cert.ReferenceIdeal.ReadP.val_main_v200 (F := F) x0 x1 x2 x3 x4 x5 x6 x7 x8 x9 x10 x11 x12 x13 x14 x15 x16 x17 := by
  have e55 : W10 m ρ c (Proc.devRef .tc main_v55) = Cert.ReferenceIdeal.ReadP.val_main_v142 (F := F) x2 x3 x4 := tail_best_kept m ρ c x2 x3 x4 hesp h2 h4
  have e80 : W10 m ρ c (Proc.devRef .tc main_v80) = Cert.ReferenceIdeal.ReadP.val_main_v167 (F := F) x1 x2 x3 x4 x9 x10 := tail_table_s m ρ c x1 x2 x3 x4 x9 x10 hsub hesp h2 h4
  have e81 : W10 m ρ c (Proc.devRef .tc main_v81) = Cert.ReferenceIdeal.ReadP.val_main_v168 (F := F) x2 x3 x4 := tail_dest_e m ρ c x2 x3 x4 hesp h2 h4
  have walk : ∀ b : Ref sig .tc, W10 m ρ c (Proc.devRef .tc b) = StableHlo.after hostOps2_3 (StableHlo.after hostOps2_2 (StableHlo.after hostOps2_1 (StableHlo.after hostOps2 (W6 m ρ c)))) (Proc.devRef .tc b) := fun _ => rfl
  have a6 : W10 m ρ c (Proc.devRef .tc main_arg6) = x6 := by rw [walk]; after_results_simp; exact h6
  have a7 : W10 m ρ c (Proc.devRef .tc main_arg7) = x7 := by rw [walk]; after_results_simp; exact h7
  have a17 : W10 m ρ c (Proc.devRef .tc main_arg17) = x17 := by rw [walk]; after_results_simp; exact h17
  have o31 : W10 m ρ c (Proc.devRef .tc main_v31) = Cert.ReferenceIdeal.ReadP.val_main_v118 (F := F) x0 x1 x3 x5 x8 x9 x10 x11 x12 x13 x14 x15 x16 := by rw [walk]; after_results_simp; exact hobj
  show StableHlo.after hostOps2_5 (StableHlo.after hostOps2_4 (W10 m ρ c)) (Proc.devRef .tc main_v113) = _
  generalize W10 m ρ c = X at e55 e80 e81 a6 a7 a17 o31 ⊢
  after_results_simp
  simp only [TRef.ofBuf, TRef.toBuf, cast_eq, e55, e80, e81, a6, a7, a17, o31]
  rfl

/-- The seed position of every edge's head, as the kernel program computes it between its kernels, is the reference's stage. -/
theorem esp_eq (c : Dev nD) (x2 : (⟨Cert.ReferenceIdeal.S2048, .i32⟩ : BufTy).Contents (Elt F)) (x3 : (⟨Cert.ReferenceIdeal.S32768, .i32⟩ : BufTy).Contents (Elt F))
    (h2 : W2 m ρ c (Proc.devRef .tc main_arg2) = x2) (h3 : W2 m ρ c (Proc.devRef .tc main_arg3) = x3) :
    W6 m ρ c (Proc.devRef .tc main_v28) = Cert.ReferenceIdeal.ReadP.val_main_v60 (F := F) x2 x3 := by
  refine (W6_of_ne m ρ c main_v28 (by decide)).trans ?_
  show StableHlo.after hostOps1_2 (StableHlo.after hostOps1_1 (StableHlo.after hostOps1 (W2 m ρ c))) (Proc.devRef .tc main_v28) = _
  after_results_simp
  rw [h2, h3]
  rfl

end Tail

/-! ## At the extended reals -/

section Ideal

variable [Cert.ReferenceIdeal.Facts] [Cert.Pre_finite_inputs.Facts]
variable (m : (ℓ : Loc nD τ sig) → Buf (Elt Ideal) ℓ) (ρ : Dev nD → PrngReg)

open Cert.KernelIdeal.Glue

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results
    all_goals rfl)

theorem W6_arg2 (c : Dev nD) : W6 m ρ c (Proc.devRef .tc main_arg2) = m ((c : Thread nD τ).loc main_arg2) :=
  (W6_of_ne m ρ c main_arg2 (by decide)).trans (by
    show StableHlo.after hostOps1_2 (StableHlo.after hostOps1_1 (StableHlo.after hostOps1 (W2 m ρ c))) (Proc.devRef .tc main_arg2) = _
    after_results_simp
    refine (W2_of_ne m ρ c main_arg2 (by decide)).trans ?_
    show StableHlo.after hostOps0 (W0 m ρ c) (Proc.devRef .tc main_arg2) = _
    after_results
    all_goals rfl)

theorem W6_arg4 (c : Dev nD) : W6 m ρ c (Proc.devRef .tc main_arg4) = m ((c : Thread nD τ).loc main_arg4) :=
  (W6_of_ne m ρ c main_arg4 (by decide)).trans (by
    show StableHlo.after hostOps1_2 (StableHlo.after hostOps1_1 (StableHlo.after hostOps1 (W2 m ρ c))) (Proc.devRef .tc main_arg4) = _
    after_results_simp
    refine (W2_of_ne m ρ c main_arg4 (by decide)).trans ?_
    show StableHlo.after hostOps0 (W0 m ρ c) (Proc.devRef .tc main_arg4) = _
    after_results
    all_goals rfl)

theorem W6_arg6 (c : Dev nD) : W6 m ρ c (Proc.devRef .tc main_arg6) = m ((c : Thread nD τ).loc main_arg6) :=
  (W6_of_ne m ρ c main_arg6 (by decide)).trans (by
    show StableHlo.after hostOps1_2 (StableHlo.after hostOps1_1 (StableHlo.after hostOps1 (W2 m ρ c))) (Proc.devRef .tc main_arg6) = _
    after_results_simp
    refine (W2_of_ne m ρ c main_arg6 (by decide)).trans ?_
    show StableHlo.after hostOps0 (W0 m ρ c) (Proc.devRef .tc main_arg6) = _
    after_results
    all_goals rfl)

theorem W6_arg7 (c : Dev nD) : W6 m ρ c (Proc.devRef .tc main_arg7) = m ((c : Thread nD τ).loc main_arg7) :=
  (W6_of_ne m ρ c main_arg7 (by decide)).trans (by
    show StableHlo.after hostOps1_2 (StableHlo.after hostOps1_1 (StableHlo.after hostOps1 (W2 m ρ c))) (Proc.devRef .tc main_arg7) = _
    after_results_simp
    refine (W2_of_ne m ρ c main_arg7 (by decide)).trans ?_
    show StableHlo.after hostOps0 (W0 m ρ c) (Proc.devRef .tc main_arg7) = _
    after_results
    all_goals rfl)

theorem W6_arg17 (c : Dev nD) : W6 m ρ c (Proc.devRef .tc main_arg17) = m ((c : Thread nD τ).loc main_arg17) :=
  (W6_of_ne m ρ c main_arg17 (by decide)).trans (by
    show StableHlo.after hostOps1_2 (StableHlo.after hostOps1_1 (StableHlo.after hostOps1 (W2 m ρ c))) (Proc.devRef .tc main_arg17) = _
    after_results_simp
    refine (W2_of_ne m ρ c main_arg17 (by decide)).trans ?_
    show StableHlo.after hostOps0 (W0 m ρ c) (Proc.devRef .tc main_arg17) = _
    after_results
    all_goals rfl)

/-- The per-seed embedding is still in its buffer when the second kernel has run. -/
theorem W6_sub (c : Dev nD) : W6 m ρ c (Proc.devRef .tc main_v12_0) = (dat0 (F := Ideal) (V1 m ρ) c).arrAt 8 cfg0.N :=
  (W6_of_ne m ρ c main_v12_0 (by decide)).trans (by
    show StableHlo.after hostOps1_2 (StableHlo.after hostOps1_1 (StableHlo.after hostOps1 (W2 m ρ c))) (Proc.devRef .tc main_v12_0) = _
    after_results_simp
    exact W2_arr m ρ c 8)

/-- The reference's gather of its first recurrent step is the gather the kernel program makes. -/
theorem ref_r0g (x0 : (⟨Cert.ReferenceIdeal.S1x768, .f32⟩ : BufTy).Contents (Elt Ideal)) (x1 : (⟨Cert.ReferenceIdeal.S2048x768, .f32⟩ : BufTy).Contents (Elt Ideal)) (x3 : (⟨Cert.ReferenceIdeal.S32768, .i32⟩ : BufTy).Contents (Elt Ideal)) (x9 : (⟨Cert.ReferenceIdeal.S768x768, .f32⟩ : BufTy).Contents (Elt Ideal)) (x10 : (⟨Cert.ReferenceIdeal.S768, .f32⟩ : BufTy).Contents (Elt Ideal)) (x13 : (⟨Cert.ReferenceIdeal.S2304x768, .f32⟩ : BufTy).Contents (Elt Ideal)) (x14 : (⟨Cert.ReferenceIdeal.S2304x768, .f32⟩ : BufTy).Contents (Elt Ideal)) (x15 : (⟨Cert.ReferenceIdeal.S2304, .f32⟩ : BufTy).Contents (Elt Ideal)) (x16 : (⟨Cert.ReferenceIdeal.S2304, .f32⟩ : BufTy).Contents (Elt Ideal)) :
    Cert.ReferenceIdeal.ReadP.val_main_v74 (F := Ideal) x0 x1 x3 x9 x10 x13 x14 x15 x16
      = Host.gather gather_S2048x768_S32768x1_S32768x768_1_0_n_n_0_1_1768
          (R0g (R := 2048) (row (r := 1) (c := 768) x0 0) x1 (wT (o := 768) (i := 768) x9) (vec (n := 768) x10)
            (wT (o := 2304) (i := 768) x13) (wT (o := 2304) (i := 768) x14) (vec (n := 2304) x15) (vec (n := 2304) x16))
          (wrap2048 x3) := by
  rw [← Cert.ReferenceIdeal.RefVal.ref_r0]
  rfl

/-- The reference's gather of the relation table is the gather the kernel program makes. -/
theorem ref_relg (x5 : (⟨Cert.ReferenceIdeal.S32768, .i32⟩ : BufTy).Contents (Elt Ideal)) (x8 : (⟨Cert.ReferenceIdeal.S1000x768, .f32⟩ : BufTy).Contents (Elt Ideal)) :
    Cert.ReferenceIdeal.ReadP.val_main_v67 (F := Ideal) x5 x8
      = Host.gather gather_S1000x768_S32768x1_S32768x768_1_0_n_n_0_1_1768 x8 (wrap1000 x5) := rfl

/-- Under the precondition the kernel program's result buffer ends at the reference's result stage of the same arguments. -/
theorem kernel_eq (hpre : Cert.Pre_KernelIdeal m) (c : Dev nD) :
    W12 m ρ c (Proc.devRef .tc main_v113) = Cert.ReferenceIdeal.ReadP.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hr3 := fun e => Cert.IndexRange.heads_range (hpre c) e
  have hr5 := fun e => Cert.IndexRange.types_range (hpre c) e
  refine tail_eq m ρ c _ _ _ _ _ _ _ _ _ _ _ _ _ _ _ _ _ _ ?_ ?_ ?_ (W6_arg2 m ρ c) (W6_arg4 m ρ c) (W6_arg6 m ρ c) (W6_arg7 m ρ c) (W6_arg17 m ρ c)
  · exact (W6_sub m ρ c).trans ((K_sub m ρ c).trans (Cert.ReferenceIdeal.RefVal.ref_sub _ _ _).symm)
  · refine (W6_arr m ρ c 8).trans ((K_obj m ρ c hr3 hr5).trans ?_)
    rw [Cert.ReferenceIdeal.RefVal.ref_obj, ref_r0g, ref_relg]
  · exact esp_eq m ρ c _ _ (W2_arg2 m ρ c) (W2_arg3 m ρ c)

end Ideal

end Cert.Bridge

end
-- ==== Proof.RefStage.lean ====
/-
  The reference's result, read stage by stage.

  The reference program is a straight line of 251 host operations, and its run leaves every buffer at
  the fold of those operations over the launch contents.  The fold of a concatenation is the fold of
  the second part over the fold of the first, so the list is read in stretches that end where the
  program's own stages end: the per-seed embedding, the first recurrent step, the seed positions and
  the two gathers, the per-edge embedding, and the closing bookkeeping in three parts (the time stamps
  and win masks; the seeds' rows; the edges' rows and the final choice).  Each stretch reads a handful
  of buffers from before it — earlier stages, which later stretches do not write, and arguments, which
  nothing writes — and what it leaves in its last buffer is the corresponding stage function of the
  arguments.  Composing them gives the result buffer at the result stage.
-/
import proofs.«419166_j82411832476066_1_alg».proof.Proof.RefRun
import proofs.«419166_j82411832476066_1_alg».proof.Proof.RefRead

set_option maxRecDepth 65536

noncomputable section

namespace Cert.ReferenceIdeal.Stage

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines run one after the other are the second line's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches of the operation list -/

/-- Operations 0–5: the per-seed embedding. -/
abbrev ops1 : List (HloOp τ sig (Elt F)) :=
  [ unary main_arg9 main_v0 ((transpose S768x768 [1, 0] · transposes_S768x768_S768x768_1_0) : (⟨S768x768, .f32⟩ : BufTy).Contents (Elt F) → (⟨S768x768, .f32⟩ : BufTy).Contents (Elt F)),
    binary main_arg1 main_v0 main_v1 ((fun l r => Host.dotGeneral dot_S2048x768_S768x768_S2048x768_1_0_0_1_n_n none l r) : (⟨S2048x768, .f32⟩ : BufTy).Contents (Elt F) → (⟨S768x768, .f32⟩ : BufTy).Contents (Elt F) → (⟨S2048x768, .f32⟩ : BufTy).Contents (Elt F)),
    unary main_arg10 main_v2 (broadcastInDim S1x768 ![1] bcast_S768_S1x768_1 : (⟨S768, .f32⟩ : BufTy).Contents (Elt F) → (⟨S1x768, .f32⟩ : BufTy).Contents (Elt F)),
    unary main_v2 main_v3 (broadcastInDim S2048x768 ![0, 1] bcast_S1x768_S2048x768_0_1 : (⟨S1x768, .f32⟩ : BufTy).Contents (Elt F) → (⟨S2048x768, .f32⟩ : BufTy).Contents (Elt F)),
    binary main_v1 main_v3 main_v4 (addf : (⟨S2048x768, .f32⟩ : BufTy).Contents (Elt F) → (⟨S2048x768, .f32⟩ : BufTy).Contents (Elt F) → (⟨S2048x768, .f32⟩ : BufTy).Contents (Elt F)),
    unary main_v4 main_v5 (Host.tanh : (⟨S2048x768, .f32⟩ : BufTy).Contents (Elt F) → (⟨S2048x768, .f32⟩ : BufTy).Contents (Elt F)) ]
/-- Operations 6–49: the first recurrent step. -/
abbrev ops2 : List (HloOp τ sig (Elt F)) :=
  [ unary main_arg0 main_v6 (broadcastInDim S2048x768 ![0, 1] bcast_S1x768_S2048x768_0_1 : (⟨S1x768, .f32⟩ : BufTy).Contents (Elt F) → (⟨S2048x768, .f32⟩ : BufTy).Contents (Elt F)),
    unary main_arg13 main_v7 ((transpose S768x2304 [1, 0] · transposes_S2304x768_S768x2304_1_0) : (⟨S2304x768, .f32⟩ : BufTy).Contents (Elt F) → (⟨S768x2304, .f32⟩ : BufTy).Contents (Elt F)),
    binary main_v6 main_v7 main_v8 ((fun l r => Host.dotGeneral dot_S2048x768_S768x2304_S2048x2304_1_0_0_1_n_n none l r) : (⟨S2048x768, .f32⟩ : BufTy).Contents (Elt F) → (⟨S768x2304, .f32⟩ : BufTy).Contents (Elt F) → (⟨S2048x2304, .f32⟩ : BufTy).Contents (Elt F)),
    unary main_arg15 main_v9 (broadcastInDim S1x2304 ![1] bcast_S2304_S1x2304_1 : (⟨S2304, .f32⟩ : BufTy).Contents (Elt F) → (⟨S1x2304, .f32⟩ : BufTy).Contents (Elt F)),
    unary main_v9 main_v10 (broadcastInDim S2048x2304 ![0, 1] bcast_S1x2304_S2048x2304_0_1 : (⟨S1x2304, .f32⟩ : BufTy).Contents (Elt F) → (⟨S2048x2304, .f32⟩ : BufTy).Contents (Elt F)),
    binary main_v8 main_v10 main_v11 (addf : (⟨S2048x2304, .f32⟩ : BufTy).Contents (Elt F) → (⟨S2048x2304, .f32⟩ : BufTy).Contents (Elt F) → (⟨S2048x2304, .f32⟩ : BufTy).Contents (Elt F)),
    unary main_arg14 main_v12 ((transpose S768x2304 [1, 0] · transposes_S2304x768_S768x2304_1_0) : (⟨S2304x768, .f32⟩ : BufTy).Contents (Elt F) → (⟨S768x2304, .f32⟩ : BufTy).Contents (Elt F)),
    binary main_v5 main_v12 main_v13 ((fun l r => Host.dotGeneral dot_S2048x768_S768x2304_S2048x2304_1_0_0_1_n_n none l r) : (⟨S2048x768, .f32⟩ : BufTy).Contents (Elt F) → (⟨S768x2304, .f32⟩ : BufTy).Contents (Elt F) → (⟨S2048x2304, .f32⟩ : BufTy).Contents (Elt F)),
    unary main_arg16 main_v14 (broadcastInDim S1x2304 ![1] bcast_S2304_S1x2304_1 : (⟨S2304, .f32⟩ : BufTy).Contents (Elt F) → (⟨S1x2304, .f32⟩ : BufTy).Contents (Elt F)),
    unary main_v14 main_v15 (broadcastInDim S2048x2304 ![0, 1] bcast_S1x2304_S2048x2304_0_1 : (⟨S1x2304, .f32⟩ : BufTy).Contents (Elt F) → (⟨S2048x2304, .f32⟩ : BufTy).Contents (Elt F)),
    binary main_v13 main_v15 main_v16 (addf : (⟨S2048x2304, .f32⟩ : BufTy).Contents (Elt F) → (⟨S2048x2304, .f32⟩ : BufTy).Contents (Elt F) → (⟨S2048x2304, .f32⟩ : BufTy).Contents (Elt F)),
    unary main_v11 main_v17 ((extractStridedSlice S2048x768 ![0, 0] · slices_S2048x2304_S2048x768_0_0) : (⟨S2048x2304, .f32⟩ : BufTy).Contents (Elt F) → (⟨S2048x768, .f32⟩ : BufTy).Contents (Elt F)),
    unary main_v11 main_v18 ((extractStridedSlice S2048x768 ![0, 768] · slices_S2048x2304_S2048x768_0_768) : (⟨S2048x2304, .f32⟩ : BufTy).Contents (Elt F) → (⟨S2048x768, .f32⟩ : BufTy).Contents (Elt F)),
    unary main_v11 main_v19 ((extractStridedSlice S2048x768 ![0, 1536] · slices_S2048x2304_S2048x768_0_1536) : (⟨S2048x2304, .f32⟩ : BufTy).Contents (Elt F) → (⟨S2048x768, .f32⟩ : BufTy).Contents (Elt F)),
    unary main_v16 main_v20 ((extractStridedSlice S2048x768 ![0, 0] · slices_S2048x2304_S2048x768_0_0) : (⟨S2048x2304, .f32⟩ : BufTy).Contents (Elt F) → (⟨S2048x768, .f32⟩ : BufTy).Contents (Elt F)),
    unary main_v16 main_v21 ((extractStridedSlice S2048x768 ![0, 768] · slices_S2048x2304_S2048x768_0_768) : (⟨S2048x2304, .f32⟩ : BufTy).Contents (Elt F) → (⟨S2048x768, .f32⟩ : BufTy).Contents (Elt F)),
    unary main_v16 main_v22 ((extractStridedSlice S2048x768 ![0, 1536] · slices_S2048x2304_S2048x768_0_1536) : (⟨S2048x2304, .f32⟩ : BufTy).Contents (Elt F) → (⟨S2048x768, .f32⟩ : BufTy).Contents (Elt F)),
    binary main_v17 main_v20 main_v23 (addf : (⟨S2048x768, .f32⟩ : BufTy).Contents (Elt F) → (⟨S2048x768, .f32⟩ : BufTy).Contents (Elt F) → (⟨S2048x768, .f32⟩ : BufTy).Contents (Elt F)),
    unary main_v23 main_v24 (Host.negf : (⟨S2048x768, .f32⟩ : BufTy).Contents (Elt F) → (⟨S2048x768, .f32⟩ : BufTy).Contents (Elt F)),
    unary main_v24 main_v25 (Host.exp : (⟨S2048x768, .f32⟩ : BufTy).Contents (Elt F) → (⟨S2048x768, .f32⟩ : BufTy).Contents (Elt F)),
    nullary main_cst (constant S_ .f32 0x3F800000#32),
    unary main_cst main_v26 (broadcastInDim S2048x768 ![] bcast_S_S2048x768 : (⟨S_, .f32⟩ : BufTy).Contents (Elt F) → (⟨S2048x768, .f32⟩ : BufTy).Contents (Elt F)),
    binary main_v26 main_v25 main_v27 (addf : (⟨S2048x768, .f32⟩ : BufTy).Contents (Elt F) → (⟨S2048x768, .f32⟩ : BufTy).Contents (Elt F) → (⟨S2048x768, .f32⟩ : BufTy).Contents (Elt F)),
    nullary main_cst_0 (constant S_ .f32 0x3F800000#32),
    unary main_cst_0 main_v28 (broadcastInDim S2048x768 ![] bcast_S_S2048x768 : (⟨S_, .f32⟩ : BufTy).Contents (Elt F) → (⟨S2048x768, .f32⟩ : BufTy).Contents (Elt F)),
    binary main_v28 main_v27 main_v29 (Host.divf : (⟨S2048x768, .f32⟩ : BufTy).Contents (Elt F) → (⟨S2048x768, .f32⟩ : BufTy).Contents (Elt F) → (⟨S2048x768, .f32⟩ : BufTy).Contents (Elt F)),
    binary main_v18 main_v21 main_v30 (addf : (⟨S2048x768, .f32⟩ : BufTy).Contents (Elt F) → (⟨S2048x768, .f32⟩ : BufTy).Contents (Elt F) → (⟨S2048x768, .f32⟩ : BufTy).Contents (Elt F)),
    unary main_v30 main_v31 (Host.negf : (⟨S2048x768, .f32⟩ : BufTy).Contents (Elt F) → (⟨S2048x768, .f32⟩ : BufTy).Contents (Elt F)),
    unary main_v31 main_v32 (Host.exp : (⟨S2048x768, .f32⟩ : BufTy).Contents (Elt F) → (⟨S2048x768, .f32⟩ : BufTy).Contents (Elt F)),
    nullary main_cst_1 (constant S_ .f32 0x3F800000#32),
    unary main_cst_1 main_v33 (broadcastInDim S2048x768 ![] bcast_S_S2048x768 : (⟨S_, .f32⟩ : BufTy).Contents (Elt F) → (⟨S2048x768, .f32⟩ : BufTy).Contents (Elt F)),
    binary main_v33 main_v32 main_v34 (addf : (⟨S2048x768, .f32⟩ : BufTy).Contents (Elt F) → (⟨S2048x768, .f32⟩ : BufTy).Contents (Elt F) → (⟨S2048x768, .f32⟩ : BufTy).Contents (Elt F)),
    nullary main_cst_2 (constant S_ .f32 0x3F800000#32),
    unary main_cst_2 main_v35 (broadcastInDim S2048x768 ![] bcast_S_S2048x768 : (⟨S_, .f32⟩ : BufTy).Contents (Elt F) → (⟨S2048x768, .f32⟩ : BufTy).Contents (Elt F)),
    binary main_v35 main_v34 main_v36 (Host.divf : (⟨S2048x768, .f32⟩ : BufTy).Contents (Elt F) → (⟨S2048x768, .f32⟩ : BufTy).Contents (Elt F) → (⟨S2048x768, .f32⟩ : BufTy).Contents (Elt F)),
    binary main_v29 main_v22 main_v37 (mulf : (⟨S2048x768, .f32⟩ : BufTy).Contents (Elt F) → (⟨S2048x768, .f32⟩ : BufTy).Contents (Elt F) → (⟨S2048x768, .f32⟩ : BufTy).Contents (Elt F)),
    binary main_v19 main_v37 main_v38 (addf : (⟨S2048x768, .f32⟩ : BufTy).Contents (Elt F) → (⟨S2048x768, .f32⟩ : BufTy).Contents (Elt F) → (⟨S2048x768, .f32⟩ : BufTy).Contents (Elt F)),
    unary main_v38 main_v39 (Host.tanh : (⟨S2048x768, .f32⟩ : BufTy).Contents (Elt F) → (⟨S2048x768, .f32⟩ : BufTy).Contents (Elt F)),
    nullary main_cst_3 (constant S_ .f32 0x3F800000#32),
    unary main_cst_3 main_v40 (broadcastInDim S2048x768 ![] bcast_S_S2048x768 : (⟨S_, .f32⟩ : BufTy).Contents (Elt F) → (⟨S2048x768, .f32⟩ : BufTy).Contents (Elt F)),
    binary main_v40 main_v36 main_v41 (subf : (⟨S2048x768, .f32⟩ : BufTy).Contents (Elt F) → (⟨S2048x768, .f32⟩ : BufTy).Contents (Elt F) → (⟨S2048x768, .f32⟩ : BufTy).Contents (Elt F)),
    binary main_v41 main_v39 main_v42 (mulf : (⟨S2048x768, .f32⟩ : BufTy).Contents (Elt F) → (⟨S2048x768, .f32⟩ : BufTy).Contents (Elt F) → (⟨S2048x768, .f32⟩ : BufTy).Contents (Elt F)),
    binary main_v36 main_v5 main_v43 (mulf : (⟨S2048x768, .f32⟩ : BufTy).Contents (Elt F) → (⟨S2048x768, .f32⟩ : BufTy).Contents (Elt F) → (⟨S2048x768, .f32⟩ : BufTy).Contents (Elt F)),
    binary main_v42 main_v43 main_v44 (addf : (⟨S2048x768, .f32⟩ : BufTy).Contents (Elt F) → (⟨S2048x768, .f32⟩ : BufTy).Contents (Elt F) → (⟨S2048x768, .f32⟩ : BufTy).Contents (Elt F)) ]
/-- Operations 50–88: the seed position of every edge's head, and the two gathers. -/
abbrev ops3 : List (HloOp τ sig (Elt F)) :=
  [ nullary main_c (constantI S_ 32 4294967295#32),
    unary main_c main_v45 (broadcastInDim S100000 ![] bcast_S_S100000 : (⟨S_, .i32⟩ : BufTy).Contents (Elt F) → (⟨S100000, .i32⟩ : BufTy).Contents (Elt F)),
    nullary main_v46 (iotaInDim S2048 32 0),
    nullary main_c_4 (constantI S_ 32 0#32),
    unary main_c_4 main_v47 (broadcastInDim S2048 ![] bcast_S_S2048 : (⟨S_, .i32⟩ : BufTy).Contents (Elt F) → (⟨S2048, .i32⟩ : BufTy).Contents (Elt F)),
    binary main_arg2 main_v47 main_v48 (cmpi .slt : (⟨S2048, .i32⟩ : BufTy).Contents (Elt F) → (⟨S2048, .i32⟩ : BufTy).Contents (Elt F) → (⟨S2048, .i1⟩ : BufTy).Contents (Elt F)),
    nullary main_c_5 (constantI S_ 32 100000#32),
    unary main_c_5 main_v49 (broadcastInDim S2048 ![] bcast_S_S2048 : (⟨S_, .i32⟩ : BufTy).Contents (Elt F) → (⟨S2048, .i32⟩ : BufTy).Contents (Elt F)),
    binary main_arg2 main_v49 main_v50 (addi : (⟨S2048, .i32⟩ : BufTy).Contents (Elt F) → (⟨S2048, .i32⟩ : BufTy).Contents (Elt F) → (⟨S2048, .i32⟩ : BufTy).Contents (Elt F)),
    ternary main_v48 main_v50 main_arg2 main_v51 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v51 main_v52 (broadcastInDim S2048x1 ![0] bcast_S2048_S2048x1_0 : (⟨S2048, .i32⟩ : BufTy).Contents (Elt F) → (⟨S2048x1, .i32⟩ : BufTy).Contents (Elt F)),
    ternary main_v45 main_v52 main_v46 main_v53 ((fun x i u => Host.scatter scatter_S100000_S2048x1_S2048_n_0_0_1 (fun _ b => b) x i u) : (⟨S100000, .i32⟩ : BufTy).Contents (Elt F) → (⟨S2048x1, .i32⟩ : BufTy).Contents (Elt F) → (⟨S2048, .i32⟩ : BufTy).Contents (Elt F) → (⟨S100000, .i32⟩ : BufTy).Contents (Elt F)),
    nullary main_c_6 (constantI S_ 32 0#32),
    unary main_c_6 main_v54 (broadcastInDim S32768 ![] bcast_S_S32768 : (⟨S_, .i32⟩ : BufTy).Contents (Elt F) → (⟨S32768, .i32⟩ : BufTy).Contents (Elt F)),
    binary main_arg3 main_v54 main_v55 (cmpi .slt : (⟨S32768, .i32⟩ : BufTy).Contents (Elt F) → (⟨S32768, .i32⟩ : BufTy).Contents (Elt F) → (⟨S32768, .i1⟩ : BufTy).Contents (Elt F)),
    nullary main_c_7 (constantI S_ 32 100000#32),
    unary main_c_7 main_v56 (broadcastInDim S32768 ![] bcast_S_S32768 : (⟨S_, .i32⟩ : BufTy).Contents (Elt F) → (⟨S32768, .i32⟩ : BufTy).Contents (Elt F)),
    binary main_arg3 main_v56 main_v57 (addi : (⟨S32768, .i32⟩ : BufTy).Contents (Elt F) → (⟨S32768, .i32⟩ : BufTy).Contents (Elt F) → (⟨S32768, .i32⟩ : BufTy).Contents (Elt F)),
    ternary main_v55 main_v57 main_arg3 main_v58 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v58 main_v59 (broadcastInDim S32768x1 ![0] bcast_S32768_S32768x1_0 : (⟨S32768, .i32⟩ : BufTy).Contents (Elt F) → (⟨S32768x1, .i32⟩ : BufTy).Contents (Elt F)),
    binary main_v53 main_v59 main_v60 ((fun x i => Host.gather gather_S100000_S32768x1_S32768_n_0_n_n_0_1_1 x i) : (⟨S100000, .i32⟩ : BufTy).Contents (Elt F) → (⟨S32768x1, .i32⟩ : BufTy).Contents (Elt F) → (⟨S32768, .i32⟩ : BufTy).Contents (Elt F)),
    nullary main_c_8 (constantI S_ 32 0#32),
    unary main_c_8 main_v61 (broadcastInDim S32768 ![] bcast_S_S32768 : (⟨S_, .i32⟩ : BufTy).Contents (Elt F) → (⟨S32768, .i32⟩ : BufTy).Contents (Elt F)),
    binary main_arg5 main_v61 main_v62 (cmpi .slt : (⟨S32768, .i32⟩ : BufTy).Contents (Elt F) → (⟨S32768, .i32⟩ : BufTy).Contents (Elt F) → (⟨S32768, .i1⟩ : BufTy).Contents (Elt F)),
    nullary main_c_9 (constantI S_ 32 1000#32),
    unary main_c_9 main_v63 (broadcastInDim S32768 ![] bcast_S_S32768 : (⟨S_, .i32⟩ : BufTy).Contents (Elt F) → (⟨S32768, .i32⟩ : BufTy).Contents (Elt F)),
    binary main_arg5 main_v63 main_v64 (addi : (⟨S32768, .i32⟩ : BufTy).Contents (Elt F) → (⟨S32768, .i32⟩ : BufTy).Contents (Elt F) → (⟨S32768, .i32⟩ : BufTy).Contents (Elt F)),
    ternary main_v62 main_v64 main_arg5 main_v65 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v65 main_v66 (broadcastInDim S32768x1 ![0] bcast_S32768_S32768x1_0 : (⟨S32768, .i32⟩ : BufTy).Contents (Elt F) → (⟨S32768x1, .i32⟩ : BufTy).Contents (Elt F)),
    binary main_arg8 main_v66 main_v67 ((fun x i => Host.gather gather_S1000x768_S32768x1_S32768x768_1_0_n_n_0_1_1768 x i) : (⟨S1000x768, .f32⟩ : BufTy).Contents (Elt F) → (⟨S32768x1, .i32⟩ : BufTy).Contents (Elt F) → (⟨S32768x768, .f32⟩ : BufTy).Contents (Elt F)),
    nullary main_c_10 (constantI S_ 32 0#32),
    unary main_c_10 main_v68 (broadcastInDim S32768 ![] bcast_S_S32768 : (⟨S_, .i32⟩ : BufTy).Contents (Elt F) → (⟨S32768, .i32⟩ : BufTy).Contents (Elt F)),
    binary main_arg3 main_v68 main_v69 (cmpi .slt : (⟨S32768, .i32⟩ : BufTy).Contents (Elt F) → (⟨S32768, .i32⟩ : BufTy).Contents (Elt F) → (⟨S32768, .i1⟩ : BufTy).Contents (Elt F)),
    nullary main_c_11 (constantI S_ 32 2048#32),
    unary main_c_11 main_v70 (broadcastInDim S32768 ![] bcast_S_S32768 : (⟨S_, .i32⟩ : BufTy).Contents (Elt F) → (⟨S32768, .i32⟩ : BufTy).Contents (Elt F)),
    binary main_arg3 main_v70 main_v71 (addi : (⟨S32768, .i32⟩ : BufTy).Contents (Elt F) → (⟨S32768, .i32⟩ : BufTy).Contents (Elt F) → (⟨S32768, .i32⟩ : BufTy).Contents (Elt F)),
    ternary main_v69 main_v71 main_arg3 main_v72 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v72 main_v73 (broadcastInDim S32768x1 ![0] bcast_S32768_S32768x1_0 : (⟨S32768, .i32⟩ : BufTy).Contents (Elt F) → (⟨S32768x1, .i32⟩ : BufTy).Contents (Elt F)),
    binary main_v44 main_v73 main_v74 ((fun x i => Host.gather gather_S2048x768_S32768x1_S32768x768_1_0_n_n_0_1_1768 x i) : (⟨S2048x768, .f32⟩ : BufTy).Contents (Elt F) → (⟨S32768x1, .i32⟩ : BufTy).Contents (Elt F) → (⟨S32768x768, .f32⟩ : BufTy).Contents (Elt F)) ]
/-- Operations 89–137: the per-edge recurrent step and embedding. -/
abbrev ops4 : List (HloOp τ sig (Elt F)) :=
  [ unary main_arg13 main_v75 ((transpose S768x2304 [1, 0] · transposes_S2304x768_S768x2304_1_0) : (⟨S2304x768, .f32⟩ : BufTy).Contents (Elt F) → (⟨S768x2304, .f32⟩ : BufTy).Contents (Elt F)),
    binary main_v74 main_v75 main_v76 ((fun l r => Host.dotGeneral dot_S32768x768_S768x2304_S32768x2304_1_0_0_1_n_n none l r) : (⟨S32768x768, .f32⟩ : BufTy).Contents (Elt F) → (⟨S768x2304, .f32⟩ : BufTy).Contents (Elt F) → (⟨S32768x2304, .f32⟩ : BufTy).Contents (Elt F)),
    unary main_arg15 main_v77 (broadcastInDim S1x2304 ![1] bcast_S2304_S1x2304_1 : (⟨S2304, .f32⟩ : BufTy).Contents (Elt F) → (⟨S1x2304, .f32⟩ : BufTy).Contents (Elt F)),
    unary main_v77 main_v78 (broadcastInDim S32768x2304 ![0, 1] bcast_S1x2304_S32768x2304_0_1 : (⟨S1x2304, .f32⟩ : BufTy).Contents (Elt F) → (⟨S32768x2304, .f32⟩ : BufTy).Contents (Elt F)),
    binary main_v76 main_v78 main_v79 (addf : (⟨S32768x2304, .f32⟩ : BufTy).Contents (Elt F) → (⟨S32768x2304, .f32⟩ : BufTy).Contents (Elt F) → (⟨S32768x2304, .f32⟩ : BufTy).Contents (Elt F)),
    unary main_arg14 main_v80 ((transpose S768x2304 [1, 0] · transposes_S2304x768_S768x2304_1_0) : (⟨S2304x768, .f32⟩ : BufTy).Contents (Elt F) → (⟨S768x2304, .f32⟩ : BufTy).Contents (Elt F)),
    binary main_v67 main_v80 main_v81 ((fun l r => Host.dotGeneral dot_S32768x768_S768x2304_S32768x2304_1_0_0_1_n_n none l r) : (⟨S32768x768, .f32⟩ : BufTy).Contents (Elt F) → (⟨S768x2304, .f32⟩ : BufTy).Contents (Elt F) → (⟨S32768x2304, .f32⟩ : BufTy).Contents (Elt F)),
    unary main_arg16 main_v82 (broadcastInDim S1x2304 ![1] bcast_S2304_S1x2304_1 : (⟨S2304, .f32⟩ : BufTy).Contents (Elt F) → (⟨S1x2304, .f32⟩ : BufTy).Contents (Elt F)),
    unary main_v82 main_v83 (broadcastInDim S32768x2304 ![0, 1] bcast_S1x2304_S32768x2304_0_1 : (⟨S1x2304, .f32⟩ : BufTy).Contents (Elt F) → (⟨S32768x2304, .f32⟩ : BufTy).Contents (Elt F)),
    binary main_v81 main_v83 main_v84 (addf : (⟨S32768x2304, .f32⟩ : BufTy).Contents (Elt F) → (⟨S32768x2304, .f32⟩ : BufTy).Contents (Elt F) → (⟨S32768x2304, .f32⟩ : BufTy).Contents (Elt F)),
    unary main_v79 main_v85 ((extractStridedSlice S32768x768 ![0, 0] · slices_S32768x2304_S32768x768_0_0) : (⟨S32768x2304, .f32⟩ : BufTy).Contents (Elt F) → (⟨S32768x768, .f32⟩ : BufTy).Contents (Elt F)),
    unary main_v79 main_v86 ((extractStridedSlice S32768x768 ![0, 768] · slices_S32768x2304_S32768x768_0_768) : (⟨S32768x2304, .f32⟩ : BufTy).Contents (Elt F) → (⟨S32768x768, .f32⟩ : BufTy).Contents (Elt F)),
    unary main_v79 main_v87 ((extractStridedSlice S32768x768 ![0, 1536] · slices_S32768x2304_S32768x768_0_1536) : (⟨S32768x2304, .f32⟩ : BufTy).Contents (Elt F) → (⟨S32768x768, .f32⟩ : BufTy).Contents (Elt F)),
    unary main_v84 main_v88 ((extractStridedSlice S32768x768 ![0, 0] · slices_S32768x2304_S32768x768_0_0) : (⟨S32768x2304, .f32⟩ : BufTy).Contents (Elt F) → (⟨S32768x768, .f32⟩ : BufTy).Contents (Elt F)),
    unary main_v84 main_v89 ((extractStridedSlice S32768x768 ![0, 768] · slices_S32768x2304_S32768x768_0_768) : (⟨S32768x2304, .f32⟩ : BufTy).Contents (Elt F) → (⟨S32768x768, .f32⟩ : BufTy).Contents (Elt F)),
    unary main_v84 main_v90 ((extractStridedSlice S32768x768 ![0, 1536] · slices_S32768x2304_S32768x768_0_1536) : (⟨S32768x2304, .f32⟩ : BufTy).Contents (Elt F) → (⟨S32768x768, .f32⟩ : BufTy).Contents (Elt F)),
    binary main_v85 main_v88 main_v91 (addf : (⟨S32768x768, .f32⟩ : BufTy).Contents (Elt F) → (⟨S32768x768, .f32⟩ : BufTy).Contents (Elt F) → (⟨S32768x768, .f32⟩ : BufTy).Contents (Elt F)),
    unary main_v91 main_v92 (Host.negf : (⟨S32768x768, .f32⟩ : BufTy).Contents (Elt F) → (⟨S32768x768, .f32⟩ : BufTy).Contents (Elt F)),
    unary main_v92 main_v93 (Host.exp : (⟨S32768x768, .f32⟩ : BufTy).Contents (Elt F) → (⟨S32768x768, .f32⟩ : BufTy).Contents (Elt F)),
    nullary main_cst_12 (constant S_ .f32 0x3F800000#32),
    unary main_cst_12 main_v94 (broadcastInDim S32768x768 ![] bcast_S_S32768x768 : (⟨S_, .f32⟩ : BufTy).Contents (Elt F) → (⟨S32768x768, .f32⟩ : BufTy).Contents (Elt F)),
    binary main_v94 main_v93 main_v95 (addf : (⟨S32768x768, .f32⟩ : BufTy).Contents (Elt F) → (⟨S32768x768, .f32⟩ : BufTy).Contents (Elt F) → (⟨S32768x768, .f32⟩ : BufTy).Contents (Elt F)),
    nullary main_cst_13 (constant S_ .f32 0x3F800000#32),
    unary main_cst_13 main_v96 (broadcastInDim S32768x768 ![] bcast_S_S32768x768 : (⟨S_, .f32⟩ : BufTy).Contents (Elt F) → (⟨S32768x768, .f32⟩ : BufTy).Contents (Elt F)),
    binary main_v96 main_v95 main_v97 (Host.divf : (⟨S32768x768, .f32⟩ : BufTy).Contents (Elt F) → (⟨S32768x768, .f32⟩ : BufTy).Contents (Elt F) → (⟨S32768x768, .f32⟩ : BufTy).Contents (Elt F)),
    binary main_v86 main_v89 main_v98 (addf : (⟨S32768x768, .f32⟩ : BufTy).Contents (Elt F) → (⟨S32768x768, .f32⟩ : BufTy).Contents (Elt F) → (⟨S32768x768, .f32⟩ : BufTy).Contents (Elt F)),
    unary main_v98 main_v99 (Host.negf : (⟨S32768x768, .f32⟩ : BufTy).Contents (Elt F) → (⟨S32768x768, .f32⟩ : BufTy).Contents (Elt F)),
    unary main_v99 main_v100 (Host.exp : (⟨S32768x768, .f32⟩ : BufTy).Contents (Elt F) → (⟨S32768x768, .f32⟩ : BufTy).Contents (Elt F)),
    nullary main_cst_14 (constant S_ .f32 0x3F800000#32),
    unary main_cst_14 main_v101 (broadcastInDim S32768x768 ![] bcast_S_S32768x768 : (⟨S_, .f32⟩ : BufTy).Contents (Elt F) → (⟨S32768x768, .f32⟩ : BufTy).Contents (Elt F)),
    binary main_v101 main_v100 main_v102 (addf : (⟨S32768x768, .f32⟩ : BufTy).Contents (Elt F) → (⟨S32768x768, .f32⟩ : BufTy).Contents (Elt F) → (⟨S32768x768, .f32⟩ : BufTy).Contents (Elt F)),
    nullary main_cst_15 (constant S_ .f32 0x3F800000#32),
    unary main_cst_15 main_v103 (broadcastInDim S32768x768 ![] bcast_S_S32768x768 : (⟨S_, .f32⟩ : BufTy).Contents (Elt F) → (⟨S32768x768, .f32⟩ : BufTy).Contents (Elt F)),
    binary main_v103 main_v102 main_v104 (Host.divf : (⟨S32768x768, .f32⟩ : BufTy).Contents (Elt F) → (⟨S32768x768, .f32⟩ : BufTy).Contents (Elt F) → (⟨S32768x768, .f32⟩ : BufTy).Contents (Elt F)),
    binary main_v97 main_v90 main_v105 (mulf : (⟨S32768x768, .f32⟩ : BufTy).Contents (Elt F) → (⟨S32768x768, .f32⟩ : BufTy).Contents (Elt F) → (⟨S32768x768, .f32⟩ : BufTy).Contents (Elt F)),
    binary main_v87 main_v105 main_v106 (addf : (⟨S32768x768, .f32⟩ : BufTy).Contents (Elt F) → (⟨S32768x768, .f32⟩ : BufTy).Contents (Elt F) → (⟨S32768x768, .f32⟩ : BufTy).Contents (Elt F)),
    unary main_v106 main_v107 (Host.tanh : (⟨S32768x768, .f32⟩ : BufTy).Contents (Elt F) → (⟨S32768x768, .f32⟩ : BufTy).Contents (Elt F)),
    nullary main_cst_16 (constant S_ .f32 0x3F800000#32),
    unary main_cst_16 main_v108 (broadcastInDim S32768x768 ![] bcast_S_S32768x768 : (⟨S_, .f32⟩ : BufTy).Contents (Elt F) → (⟨S32768x768, .f32⟩ : BufTy).Contents (Elt F)),
    binary main_v108 main_v104 main_v109 (subf : (⟨S32768x768, .f32⟩ : BufTy).Contents (Elt F) → (⟨S32768x768, .f32⟩ : BufTy).Contents (Elt F) → (⟨S32768x768, .f32⟩ : BufTy).Contents (Elt F)),
    binary main_v109 main_v107 main_v110 (mulf : (⟨S32768x768, .f32⟩ : BufTy).Contents (Elt F) → (⟨S32768x768, .f32⟩ : BufTy).Contents (Elt F) → (⟨S32768x768, .f32⟩ : BufTy).Contents (Elt F)),
    binary main_v104 main_v67 main_v111 (mulf : (⟨S32768x768, .f32⟩ : BufTy).Contents (Elt F) → (⟨S32768x768, .f32⟩ : BufTy).Contents (Elt F) → (⟨S32768x768, .f32⟩ : BufTy).Contents (Elt F)),
    binary main_v110 main_v111 main_v112 (addf : (⟨S32768x768, .f32⟩ : BufTy).Contents (Elt F) → (⟨S32768x768, .f32⟩ : BufTy).Contents (Elt F) → (⟨S32768x768, .f32⟩ : BufTy).Contents (Elt F)),
    unary main_arg11 main_v113 ((transpose S768x768 [1, 0] · transposes_S768x768_S768x768_1_0) : (⟨S768x768, .f32⟩ : BufTy).Contents (Elt F) → (⟨S768x768, .f32⟩ : BufTy).Contents (Elt F)),
    binary main_v112 main_v113 main_v114 ((fun l r => Host.dotGeneral dot_S32768x768_S768x768_S32768x768_1_0_0_1_n_n none l r) : (⟨S32768x768, .f32⟩ : BufTy).Contents (Elt F) → (⟨S768x768, .f32⟩ : BufTy).Contents (Elt F) → (⟨S32768x768, .f32⟩ : BufTy).Contents (Elt F)),
    unary main_arg12 main_v115 (broadcastInDim S1x768 ![1] bcast_S768_S1x768_1 : (⟨S768, .f32⟩ : BufTy).Contents (Elt F) → (⟨S1x768, .f32⟩ : BufTy).Contents (Elt F)),
    unary main_v115 main_v116 (broadcastInDim S32768x768 ![0, 1] bcast_S1x768_S32768x768_0_1 : (⟨S1x768, .f32⟩ : BufTy).Contents (Elt F) → (⟨S32768x768, .f32⟩ : BufTy).Contents (Elt F)),
    binary main_v114 main_v116 main_v117 (addf : (⟨S32768x768, .f32⟩ : BufTy).Contents (Elt F) → (⟨S32768x768, .f32⟩ : BufTy).Contents (Elt F) → (⟨S32768x768, .f32⟩ : BufTy).Contents (Elt F)),
    unary main_v117 main_v118 (Host.tanh : (⟨S32768x768, .f32⟩ : BufTy).Contents (Elt F) → (⟨S32768x768, .f32⟩ : BufTy).Contents (Elt F)) ]
/-- Operations 138–192: the time stamps, the latest write per node, the two win masks, the table of zeros. -/
abbrev ops5a : List (HloOp τ sig (Elt F)) :=
  [ nullary main_v119 (iotaInDim S2048 32 0),
    nullary main_c_17 (constantI S_ 32 32769#32),
    unary main_c_17 main_v120 (broadcastInDim S2048 ![] bcast_S_S2048 : (⟨S_, .i32⟩ : BufTy).Contents (Elt F) → (⟨S2048, .i32⟩ : BufTy).Contents (Elt F)),
    binary main_v119 main_v120 main_v121 (muli : (⟨S2048, .i32⟩ : BufTy).Contents (Elt F) → (⟨S2048, .i32⟩ : BufTy).Contents (Elt F) → (⟨S2048, .i32⟩ : BufTy).Contents (Elt F)),
    nullary main_c_18 (constantI S_ 32 32769#32),
    unary main_c_18 main_v122 (broadcastInDim S32768 ![] bcast_S_S32768 : (⟨S_, .i32⟩ : BufTy).Contents (Elt F) → (⟨S32768, .i32⟩ : BufTy).Contents (Elt F)),
    binary main_v60 main_v122 main_v123 (muli : (⟨S32768, .i32⟩ : BufTy).Contents (Elt F) → (⟨S32768, .i32⟩ : BufTy).Contents (Elt F) → (⟨S32768, .i32⟩ : BufTy).Contents (Elt F)),
    nullary main_c_19 (constantI S_ 32 1#32),
    unary main_c_19 main_v124 (broadcastInDim S32768 ![] bcast_S_S32768 : (⟨S_, .i32⟩ : BufTy).Contents (Elt F) → (⟨S32768, .i32⟩ : BufTy).Contents (Elt F)),
    binary main_v123 main_v124 main_v125 (addi : (⟨S32768, .i32⟩ : BufTy).Contents (Elt F) → (⟨S32768, .i32⟩ : BufTy).Contents (Elt F) → (⟨S32768, .i32⟩ : BufTy).Contents (Elt F)),
    nullary main_v126 (iotaInDim S32768 32 0),
    binary main_v125 main_v126 main_v127 (addi : (⟨S32768, .i32⟩ : BufTy).Contents (Elt F) → (⟨S32768, .i32⟩ : BufTy).Contents (Elt F) → (⟨S32768, .i32⟩ : BufTy).Contents (Elt F)),
    nullary main_c_20 (constantI S_ 32 4294967295#32),
    unary main_c_20 main_v128 (broadcastInDim S100000 ![] bcast_S_S100000 : (⟨S_, .i32⟩ : BufTy).Contents (Elt F) → (⟨S100000, .i32⟩ : BufTy).Contents (Elt F)),
    nullary main_c_21 (constantI S_ 32 0#32),
    unary main_c_21 main_v129 (broadcastInDim S2048 ![] bcast_S_S2048 : (⟨S_, .i32⟩ : BufTy).Contents (Elt F) → (⟨S2048, .i32⟩ : BufTy).Contents (Elt F)),
    binary main_arg2 main_v129 main_v130 (cmpi .slt : (⟨S2048, .i32⟩ : BufTy).Contents (Elt F) → (⟨S2048, .i32⟩ : BufTy).Contents (Elt F) → (⟨S2048, .i1⟩ : BufTy).Contents (Elt F)),
    nullary main_c_22 (constantI S_ 32 100000#32),
    unary main_c_22 main_v131 (broadcastInDim S2048 ![] bcast_S_S2048 : (⟨S_, .i32⟩ : BufTy).Contents (Elt F) → (⟨S2048, .i32⟩ : BufTy).Contents (Elt F)),
    binary main_arg2 main_v131 main_v132 (addi : (⟨S2048, .i32⟩ : BufTy).Contents (Elt F) → (⟨S2048, .i32⟩ : BufTy).Contents (Elt F) → (⟨S2048, .i32⟩ : BufTy).Contents (Elt F)),
    ternary main_v130 main_v132 main_arg2 main_v133 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v133 main_v134 (broadcastInDim S2048x1 ![0] bcast_S2048_S2048x1_0 : (⟨S2048, .i32⟩ : BufTy).Contents (Elt F) → (⟨S2048x1, .i32⟩ : BufTy).Contents (Elt F)),
    ternary main_v128 main_v134 main_v121 main_v135 ((fun x i u => Host.scatter scatter_S100000_S2048x1_S2048_n_0_0_1 IntOp.maxsi x i u) : (⟨S100000, .i32⟩ : BufTy).Contents (Elt F) → (⟨S2048x1, .i32⟩ : BufTy).Contents (Elt F) → (⟨S2048, .i32⟩ : BufTy).Contents (Elt F) → (⟨S100000, .i32⟩ : BufTy).Contents (Elt F)),
    nullary main_c_23 (constantI S_ 32 0#32),
    unary main_c_23 main_v136 (broadcastInDim S32768 ![] bcast_S_S32768 : (⟨S_, .i32⟩ : BufTy).Contents (Elt F) → (⟨S32768, .i32⟩ : BufTy).Contents (Elt F)),
    binary main_arg4 main_v136 main_v137 (cmpi .slt : (⟨S32768, .i32⟩ : BufTy).Contents (Elt F) → (⟨S32768, .i32⟩ : BufTy).Contents (Elt F) → (⟨S32768, .i1⟩ : BufTy).Contents (Elt F)),
    nullary main_c_24 (constantI S_ 32 100000#32),
    unary main_c_24 main_v138 (broadcastInDim S32768 ![] bcast_S_S32768 : (⟨S_, .i32⟩ : BufTy).Contents (Elt F) → (⟨S32768, .i32⟩ : BufTy).Contents (Elt F)),
    binary main_arg4 main_v138 main_v139 (addi : (⟨S32768, .i32⟩ : BufTy).Contents (Elt F) → (⟨S32768, .i32⟩ : BufTy).Contents (Elt F) → (⟨S32768, .i32⟩ : BufTy).Contents (Elt F)),
    ternary main_v137 main_v139 main_arg4 main_v140 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v140 main_v141 (broadcastInDim S32768x1 ![0] bcast_S32768_S32768x1_0 : (⟨S32768, .i32⟩ : BufTy).Contents (Elt F) → (⟨S32768x1, .i32⟩ : BufTy).Contents (Elt F)),
    ternary main_v135 main_v141 main_v127 main_v142 ((fun x i u => Host.scatter scatter_S100000_S32768x1_S32768_n_0_0_1 IntOp.maxsi x i u) : (⟨S100000, .i32⟩ : BufTy).Contents (Elt F) → (⟨S32768x1, .i32⟩ : BufTy).Contents (Elt F) → (⟨S32768, .i32⟩ : BufTy).Contents (Elt F) → (⟨S100000, .i32⟩ : BufTy).Contents (Elt F)),
    nullary main_c_25 (constantI S_ 32 0#32),
    unary main_c_25 main_v143 (broadcastInDim S2048 ![] bcast_S_S2048 : (⟨S_, .i32⟩ : BufTy).Contents (Elt F) → (⟨S2048, .i32⟩ : BufTy).Contents (Elt F)),
    binary main_arg2 main_v143 main_v144 (cmpi .slt : (⟨S2048, .i32⟩ : BufTy).Contents (Elt F) → (⟨S2048, .i32⟩ : BufTy).Contents (Elt F) → (⟨S2048, .i1⟩ : BufTy).Contents (Elt F)),
    nullary main_c_26 (constantI S_ 32 100000#32),
    unary main_c_26 main_v145 (broadcastInDim S2048 ![] bcast_S_S2048 : (⟨S_, .i32⟩ : BufTy).Contents (Elt F) → (⟨S2048, .i32⟩ : BufTy).Contents (Elt F)),
    binary main_arg2 main_v145 main_v146 (addi : (⟨S2048, .i32⟩ : BufTy).Contents (Elt F) → (⟨S2048, .i32⟩ : BufTy).Contents (Elt F) → (⟨S2048, .i32⟩ : BufTy).Contents (Elt F)),
    ternary main_v144 main_v146 main_arg2 main_v147 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v147 main_v148 (broadcastInDim S2048x1 ![0] bcast_S2048_S2048x1_0 : (⟨S2048, .i32⟩ : BufTy).Contents (Elt F) → (⟨S2048x1, .i32⟩ : BufTy).Contents (Elt F)),
    binary main_v142 main_v148 main_v149 ((fun x i => Host.gather gather_S100000_S2048x1_S2048_n_0_n_n_0_1_1 x i) : (⟨S100000, .i32⟩ : BufTy).Contents (Elt F) → (⟨S2048x1, .i32⟩ : BufTy).Contents (Elt F) → (⟨S2048, .i32⟩ : BufTy).Contents (Elt F)),
    binary main_v149 main_v121 main_v150 (cmpi .eq : (⟨S2048, .i32⟩ : BufTy).Contents (Elt F) → (⟨S2048, .i32⟩ : BufTy).Contents (Elt F) → (⟨S2048, .i1⟩ : BufTy).Contents (Elt F)),
    nullary main_c_27 (constantI S_ 32 0#32),
    unary main_c_27 main_v151 (broadcastInDim S32768 ![] bcast_S_S32768 : (⟨S_, .i32⟩ : BufTy).Contents (Elt F) → (⟨S32768, .i32⟩ : BufTy).Contents (Elt F)),
    binary main_arg4 main_v151 main_v152 (cmpi .slt : (⟨S32768, .i32⟩ : BufTy).Contents (Elt F) → (⟨S32768, .i32⟩ : BufTy).Contents (Elt F) → (⟨S32768, .i1⟩ : BufTy).Contents (Elt F)),
    nullary main_c_28 (constantI S_ 32 100000#32),
    unary main_c_28 main_v153 (broadcastInDim S32768 ![] bcast_S_S32768 : (⟨S_, .i32⟩ : BufTy).Contents (Elt F) → (⟨S32768, .i32⟩ : BufTy).Contents (Elt F)),
    binary main_arg4 main_v153 main_v154 (addi : (⟨S32768, .i32⟩ : BufTy).Contents (Elt F) → (⟨S32768, .i32⟩ : BufTy).Contents (Elt F) → (⟨S32768, .i32⟩ : BufTy).Contents (Elt F)),
    ternary main_v152 main_v154 main_arg4 main_v155 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v155 main_v156 (broadcastInDim S32768x1 ![0] bcast_S32768_S32768x1_0 : (⟨S32768, .i32⟩ : BufTy).Contents (Elt F) → (⟨S32768x1, .i32⟩ : BufTy).Contents (Elt F)),
    binary main_v142 main_v156 main_v157 ((fun x i => Host.gather gather_S100000_S32768x1_S32768_n_0_n_n_0_1_1 x i) : (⟨S100000, .i32⟩ : BufTy).Contents (Elt F) → (⟨S32768x1, .i32⟩ : BufTy).Contents (Elt F) → (⟨S32768, .i32⟩ : BufTy).Contents (Elt F)),
    binary main_v157 main_v127 main_v158 (cmpi .eq : (⟨S32768, .i32⟩ : BufTy).Contents (Elt F) → (⟨S32768, .i32⟩ : BufTy).Contents (Elt F) → (⟨S32768, .i1⟩ : BufTy).Contents (Elt F)),
    nullary main_cst_29 (constant S_ .f32 0x00000000#32),
    unary main_cst_29 main_v159 (broadcastInDim S100000x768 ![] bcast_S_S100000x768 : (⟨S_, .f32⟩ : BufTy).Contents (Elt F) → (⟨S100000x768, .f32⟩ : BufTy).Contents (Elt F)),
    nullary main_c_30 (constantI S_ 32 100000#32) ]
/-- Operations 193–208: the seeds' rows scattered into the table, and the row index of every edge's row. -/
abbrev ops5b : List (HloOp τ sig (Elt F)) :=
  [ TRef.unary (TRef.of (T := ⟨S_, .i32⟩) main_c_30) (TRef.of (T := ⟨S_, .i32⟩) main_call0_v0) id,
    TRef.unary (TRef.of (T := ⟨S_, .i32⟩) main_call0_v0) (TRef.of (T := ⟨S2048, .i32⟩) main_call0_v1) (broadcastInDim S2048 ![] bcast_S_S2048),
    TRef.ternary (TRef.of (T := ⟨S2048, .i1⟩) main_v150) (TRef.of (T := ⟨S2048, .i32⟩) main_arg2) (TRef.of (T := ⟨S2048, .i32⟩) main_call0_v1) (TRef.of (T := ⟨S2048, .i32⟩) main_v160) select,
    nullary main_c_31 (constantI S_ 32 0#32),
    unary main_c_31 main_v161 (broadcastInDim S2048 ![] bcast_S_S2048 : (⟨S_, .i32⟩ : BufTy).Contents (Elt F) → (⟨S2048, .i32⟩ : BufTy).Contents (Elt F)),
    binary main_v160 main_v161 main_v162 (cmpi .slt : (⟨S2048, .i32⟩ : BufTy).Contents (Elt F) → (⟨S2048, .i32⟩ : BufTy).Contents (Elt F) → (⟨S2048, .i1⟩ : BufTy).Contents (Elt F)),
    nullary main_c_32 (constantI S_ 32 100000#32),
    unary main_c_32 main_v163 (broadcastInDim S2048 ![] bcast_S_S2048 : (⟨S_, .i32⟩ : BufTy).Contents (Elt F) → (⟨S2048, .i32⟩ : BufTy).Contents (Elt F)),
    binary main_v160 main_v163 main_v164 (addi : (⟨S2048, .i32⟩ : BufTy).Contents (Elt F) → (⟨S2048, .i32⟩ : BufTy).Contents (Elt F) → (⟨S2048, .i32⟩ : BufTy).Contents (Elt F)),
    ternary main_v162 main_v164 main_v160 main_v165 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v165 main_v166 (broadcastInDim S2048x1 ![0] bcast_S2048_S2048x1_0 : (⟨S2048, .i32⟩ : BufTy).Contents (Elt F) → (⟨S2048x1, .i32⟩ : BufTy).Contents (Elt F)),
    ternary main_v159 main_v166 main_v5 main_v167 ((fun x i u => Host.scatter scatter_S100000x768_S2048x1_S2048x768_1_0_0_1 (fun _ b => b) x i u) : (⟨S100000x768, .f32⟩ : BufTy).Contents (Elt F) → (⟨S2048x1, .i32⟩ : BufTy).Contents (Elt F) → (⟨S2048x768, .f32⟩ : BufTy).Contents (Elt F) → (⟨S100000x768, .f32⟩ : BufTy).Contents (Elt F)),
    nullary main_c_33 (constantI S_ 32 100000#32),
    TRef.unary (TRef.of (T := ⟨S_, .i32⟩) main_c_33) (TRef.of (T := ⟨S_, .i32⟩) main_call1_v0) id,
    TRef.unary (TRef.of (T := ⟨S_, .i32⟩) main_call1_v0) (TRef.of (T := ⟨S32768, .i32⟩) main_call1_v1) (broadcastInDim S32768 ![] bcast_S_S32768),
    TRef.ternary (TRef.of (T := ⟨S32768, .i1⟩) main_v158) (TRef.of (T := ⟨S32768, .i32⟩) main_arg4) (TRef.of (T := ⟨S32768, .i32⟩) main_call1_v1) (TRef.of (T := ⟨S32768, .i32⟩) main_v168) select ]
/-- Operations 209–250: the edges' rows, the re-indexed ids, the final choice. -/
abbrev ops5c : List (HloOp τ sig (Elt F)) :=
  [ nullary main_c_34 (constantI S_ 32 0#32),
    unary main_c_34 main_v169 (broadcastInDim S32768 ![] bcast_S_S32768 : (⟨S_, .i32⟩ : BufTy).Contents (Elt F) → (⟨S32768, .i32⟩ : BufTy).Contents (Elt F)),
    binary main_v168 main_v169 main_v170 (cmpi .slt : (⟨S32768, .i32⟩ : BufTy).Contents (Elt F) → (⟨S32768, .i32⟩ : BufTy).Contents (Elt F) → (⟨S32768, .i1⟩ : BufTy).Contents (Elt F)),
    nullary main_c_35 (constantI S_ 32 100000#32),
    unary main_c_35 main_v171 (broadcastInDim S32768 ![] bcast_S_S32768 : (⟨S_, .i32⟩ : BufTy).Contents (Elt F) → (⟨S32768, .i32⟩ : BufTy).Contents (Elt F)),
    binary main_v168 main_v171 main_v172 (addi : (⟨S32768, .i32⟩ : BufTy).Contents (Elt F) → (⟨S32768, .i32⟩ : BufTy).Contents (Elt F) → (⟨S32768, .i32⟩ : BufTy).Contents (Elt F)),
    ternary main_v170 main_v172 main_v168 main_v173 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v173 main_v174 (broadcastInDim S32768x1 ![0] bcast_S32768_S32768x1_0 : (⟨S32768, .i32⟩ : BufTy).Contents (Elt F) → (⟨S32768x1, .i32⟩ : BufTy).Contents (Elt F)),
    ternary main_v167 main_v174 main_v118 main_v175 ((fun x i u => Host.scatter scatter_S100000x768_S32768x1_S32768x768_1_0_0_1 (fun _ b => b) x i u) : (⟨S100000x768, .f32⟩ : BufTy).Contents (Elt F) → (⟨S32768x1, .i32⟩ : BufTy).Contents (Elt F) → (⟨S32768x768, .f32⟩ : BufTy).Contents (Elt F) → (⟨S100000x768, .f32⟩ : BufTy).Contents (Elt F)),
    nullary main_c_36 (constantI S_ 32 0#32),
    unary main_c_36 main_v176 (broadcastInDim S100000 ![] bcast_S_S100000 : (⟨S_, .i32⟩ : BufTy).Contents (Elt F) → (⟨S100000, .i32⟩ : BufTy).Contents (Elt F)),
    binary main_arg7 main_v176 main_v177 (cmpi .slt : (⟨S100000, .i32⟩ : BufTy).Contents (Elt F) → (⟨S100000, .i32⟩ : BufTy).Contents (Elt F) → (⟨S100000, .i1⟩ : BufTy).Contents (Elt F)),
    nullary main_c_37 (constantI S_ 32 100000#32),
    unary main_c_37 main_v178 (broadcastInDim S100000 ![] bcast_S_S100000 : (⟨S_, .i32⟩ : BufTy).Contents (Elt F) → (⟨S100000, .i32⟩ : BufTy).Contents (Elt F)),
    binary main_arg7 main_v178 main_v179 (addi : (⟨S100000, .i32⟩ : BufTy).Contents (Elt F) → (⟨S100000, .i32⟩ : BufTy).Contents (Elt F) → (⟨S100000, .i32⟩ : BufTy).Contents (Elt F)),
    ternary main_v177 main_v179 main_arg7 main_v180 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v180 main_v181 (broadcastInDim S100000x1 ![0] bcast_S100000_S100000x1_0 : (⟨S100000, .i32⟩ : BufTy).Contents (Elt F) → (⟨S100000x1, .i32⟩ : BufTy).Contents (Elt F)),
    binary main_arg6 main_v181 main_v182 ((fun x i => Host.gather gather_S100000_S100000x1_S100000_n_0_n_n_0_1_1 x i) : (⟨S100000, .i32⟩ : BufTy).Contents (Elt F) → (⟨S100000x1, .i32⟩ : BufTy).Contents (Elt F) → (⟨S100000, .i32⟩ : BufTy).Contents (Elt F)),
    nullary main_c_38 (constantI S_ 32 0#32),
    unary main_c_38 main_v183 (broadcastInDim S100000 ![] bcast_S_S100000 : (⟨S_, .i32⟩ : BufTy).Contents (Elt F) → (⟨S100000, .i32⟩ : BufTy).Contents (Elt F)),
    binary main_v182 main_v183 main_v184 (cmpi .slt : (⟨S100000, .i32⟩ : BufTy).Contents (Elt F) → (⟨S100000, .i32⟩ : BufTy).Contents (Elt F) → (⟨S100000, .i1⟩ : BufTy).Contents (Elt F)),
    nullary main_c_39 (constantI S_ 32 100000#32),
    unary main_c_39 main_v185 (broadcastInDim S100000 ![] bcast_S_S100000 : (⟨S_, .i32⟩ : BufTy).Contents (Elt F) → (⟨S100000, .i32⟩ : BufTy).Contents (Elt F)),
    binary main_v182 main_v185 main_v186 (addi : (⟨S100000, .i32⟩ : BufTy).Contents (Elt F) → (⟨S100000, .i32⟩ : BufTy).Contents (Elt F) → (⟨S100000, .i32⟩ : BufTy).Contents (Elt F)),
    ternary main_v184 main_v186 main_v182 main_v187 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v187 main_v188 (broadcastInDim S100000x1 ![0] bcast_S100000_S100000x1_0 : (⟨S100000, .i32⟩ : BufTy).Contents (Elt F) → (⟨S100000x1, .i32⟩ : BufTy).Contents (Elt F)),
    binary main_v142 main_v188 main_v189 ((fun x i => Host.gather gather_S100000_S100000x1_S100000_n_0_n_n_0_1_1 x i) : (⟨S100000, .i32⟩ : BufTy).Contents (Elt F) → (⟨S100000x1, .i32⟩ : BufTy).Contents (Elt F) → (⟨S100000, .i32⟩ : BufTy).Contents (Elt F)),
    nullary main_c_40 (constantI S_ 32 0#32),
    unary main_c_40 main_v190 (broadcastInDim S100000 ![] bcast_S_S100000 : (⟨S_, .i32⟩ : BufTy).Contents (Elt F) → (⟨S100000, .i32⟩ : BufTy).Contents (Elt F)),
    binary main_v189 main_v190 main_v191 (cmpi .sge : (⟨S100000, .i32⟩ : BufTy).Contents (Elt F) → (⟨S100000, .i32⟩ : BufTy).Contents (Elt F) → (⟨S100000, .i1⟩ : BufTy).Contents (Elt F)),
    unary main_v191 main_v192 (broadcastInDim S100000x1 ![0] bcast_S100000_S100000x1_0 : (⟨S100000, .i1⟩ : BufTy).Contents (Elt F) → (⟨S100000x1, .i1⟩ : BufTy).Contents (Elt F)),
    nullary main_c_41 (constantI S_ 32 0#32),
    unary main_c_41 main_v193 (broadcastInDim S100000 ![] bcast_S_S100000 : (⟨S_, .i32⟩ : BufTy).Contents (Elt F) → (⟨S100000, .i32⟩ : BufTy).Contents (Elt F)),
    binary main_v182 main_v193 main_v194 (cmpi .slt : (⟨S100000, .i32⟩ : BufTy).Contents (Elt F) → (⟨S100000, .i32⟩ : BufTy).Contents (Elt F) → (⟨S100000, .i1⟩ : BufTy).Contents (Elt F)),
    nullary main_c_42 (constantI S_ 32 100000#32),
    unary main_c_42 main_v195 (broadcastInDim S100000 ![] bcast_S_S100000 : (⟨S_, .i32⟩ : BufTy).Contents (Elt F) → (⟨S100000, .i32⟩ : BufTy).Contents (Elt F)),
    binary main_v182 main_v195 main_v196 (addi : (⟨S100000, .i32⟩ : BufTy).Contents (Elt F) → (⟨S100000, .i32⟩ : BufTy).Contents (Elt F) → (⟨S100000, .i32⟩ : BufTy).Contents (Elt F)),
    ternary main_v194 main_v196 main_v182 main_v197 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v197 main_v198 (broadcastInDim S100000x1 ![0] bcast_S100000_S100000x1_0 : (⟨S100000, .i32⟩ : BufTy).Contents (Elt F) → (⟨S100000x1, .i32⟩ : BufTy).Contents (Elt F)),
    binary main_v175 main_v198 main_v199 ((fun x i => Host.gather gather_S100000x768_S100000x1_S100000x768_1_0_n_n_0_1_1768 x i) : (⟨S100000x768, .f32⟩ : BufTy).Contents (Elt F) → (⟨S100000x1, .i32⟩ : BufTy).Contents (Elt F) → (⟨S100000x768, .f32⟩ : BufTy).Contents (Elt F)),
    TRef.unary (TRef.of (T := ⟨S100000x1, .i1⟩) main_v192) (TRef.of (T := ⟨S100000x768, .i1⟩) main_call2_v0) (broadcastInDim S100000x768 ![0, 1] bcast_S100000x1_S100000x768_0_1),
    TRef.ternary (TRef.of (T := ⟨S100000x768, .i1⟩) main_call2_v0) (TRef.of (T := ⟨S100000x768, .f32⟩) main_v199) (TRef.of (T := ⟨S100000x768, .f32⟩) main_arg17) (TRef.of (T := ⟨S100000x768, .f32⟩) main_v200) select ]

/-- The operation list is its seven stretches in order. -/
theorem ops_split : (ops : List (HloOp τ sig (Elt F))) = ops1 ++ ops2 ++ ops3 ++ ops4 ++ ops5a ++ ops5b ++ ops5c := rfl

variable (m : (ℓ : Loc nD τ sig) → Buf (Elt F) ℓ) (c : Dev nD)

/-! ## What each stretch leaves -/

/-- After the first stretch the embedding's buffer holds the embedding stage of the arguments. -/
theorem at_v5 : after ops1 (launchContents m c) (Proc.devRef .tc main_v5) = val_main_v5 (F := F) (m ((c.tc : Thread nD τ).loc main_arg1)) (m ((c.tc : Thread nD τ).loc main_arg9)) (m ((c.tc : Thread nD τ).loc main_arg10)) := by
  after_results_simp
  rfl

set_option maxHeartbeats 4000000 in
/-- After the second stretch the first recurrent step's buffer holds its stage. -/
theorem at_v44 : after ops2 (after ops1 (launchContents m c)) (Proc.devRef .tc main_v44) = val_main_v44 (F := F) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) := by
  generalize hX : after ops1 (launchContents m c) = X
  have e5 : X (Proc.devRef .tc main_v5) = val_main_v5 (F := F) (m ((c.tc : Thread nD τ).loc main_arg1)) (m ((c.tc : Thread nD τ).loc main_arg9)) (m ((c.tc : Thread nD τ).loc main_arg10)) := hX ▸ at_v5 m c
  have a0 : X (Proc.devRef .tc main_arg0) = m ((c.tc : Thread nD τ).loc main_arg0) := by subst hX; after_results_simp <;> rfl
  have a13 : X (Proc.devRef .tc main_arg13) = m ((c.tc : Thread nD τ).loc main_arg13) := by subst hX; after_results_simp <;> rfl
  have a14 : X (Proc.devRef .tc main_arg14) = m ((c.tc : Thread nD τ).loc main_arg14) := by subst hX; after_results_simp <;> rfl
  have a15 : X (Proc.devRef .tc main_arg15) = m ((c.tc : Thread nD τ).loc main_arg15) := by subst hX; after_results_simp <;> rfl
  have a16 : X (Proc.devRef .tc main_arg16) = m ((c.tc : Thread nD τ).loc main_arg16) := by subst hX; after_results_simp <;> rfl
  after_results_simp
  simp only [e5, a0, a13, a14, a15, a16]
  rfl

set_option maxHeartbeats 4000000 in
/-- After the third stretch the seed positions' buffer holds its stage. -/
theorem at_v60 : after ops3 (after ops2 (after ops1 (launchContents m c))) (Proc.devRef .tc main_v60) = val_main_v60 (F := F) (m ((c.tc : Thread nD τ).loc main_arg2)) (m ((c.tc : Thread nD τ).loc main_arg3)) := by
  generalize hX : after ops2 (after ops1 (launchContents m c)) = X
  have a2 : X (Proc.devRef .tc main_arg2) = m ((c.tc : Thread nD τ).loc main_arg2) := by subst hX; after_results_simp <;> rfl
  have a3 : X (Proc.devRef .tc main_arg3) = m ((c.tc : Thread nD τ).loc main_arg3) := by subst hX; after_results_simp <;> rfl
  after_results_simp
  simp only [a2, a3]
  rfl

set_option maxHeartbeats 4000000 in
/-- After the third stretch the gathered relation rows' buffer holds its stage. -/
theorem at_v67 : after ops3 (after ops2 (after ops1 (launchContents m c))) (Proc.devRef .tc main_v67) = val_main_v67 (F := F) (m ((c.tc : Thread nD τ).loc main_arg5)) (m ((c.tc : Thread nD τ).loc main_arg8)) := by
  generalize hX : after ops2 (after ops1 (launchContents m c)) = X
  have a5 : X (Proc.devRef .tc main_arg5) = m ((c.tc : Thread nD τ).loc main_arg5) := by subst hX; after_results_simp <;> rfl
  have a8 : X (Proc.devRef .tc main_arg8) = m ((c.tc : Thread nD τ).loc main_arg8) := by subst hX; after_results_simp <;> rfl
  after_results_simp
  simp only [a5, a8]
  rfl

set_option maxHeartbeats 4000000 in
/-- After the third stretch the gathered recurrent rows' buffer holds its stage. -/
theorem at_v74 : after ops3 (after ops2 (after ops1 (launchContents m c))) (Proc.devRef .tc main_v74) = val_main_v74 (F := F) (m ((c.tc : Thread nD τ).loc main_arg0)) (m ((c.tc : Thread nD τ).loc main_arg1)) (m ((c.tc : Thread nD τ).loc main_arg3)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) := by
  generalize hX : after ops2 (after ops1 (launchContents m c)) = X
  have e44 : X (Proc.devRef .tc main_v44) = val_main_v44 (F := F) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) := hX ▸ at_v44 m c
  have a3 : X (Proc.devRef .tc main_arg3) = m ((c.tc : Thread nD τ).loc main_arg3) := by subst hX; after_results_simp <;> rfl
  after_results_simp
  simp only [e44, a3]
  rfl

set_option maxHeartbeats 4000000 in
/-- After the fourth stretch the per-edge embedding's buffer holds its stage. -/
theorem at_v118 : after ops4 (after ops3 (after ops2 (after ops1 (launchContents m c)))) (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  generalize hX : after ops3 (after ops2 (after ops1 (launchContents m c))) = X
  have e74 : X (Proc.devRef .tc main_v74) = val_main_v74 (F := F) (m ((c.tc : Thread nD τ).loc main_arg0)) (m ((c.tc : Thread nD τ).loc main_arg1)) (m ((c.tc : Thread nD τ).loc main_arg3)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) := hX ▸ at_v74 m c
  have e67 : X (Proc.devRef .tc main_v67) = val_main_v67 (F := F) (m ((c.tc : Thread nD τ).loc main_arg5)) (m ((c.tc : Thread nD τ).loc main_arg8)) := hX ▸ at_v67 m c
  have a11 : X (Proc.devRef .tc main_arg11) = m ((c.tc : Thread nD τ).loc main_arg11) := by subst hX; after_results_simp <;> rfl
  have a12 : X (Proc.devRef .tc main_arg12) = m ((c.tc : Thread nD τ).loc main_arg12) := by subst hX; after_results_simp <;> rfl
  have a13 : X (Proc.devRef .tc main_arg13) = m ((c.tc : Thread nD τ).loc main_arg13) := by subst hX; after_results_simp <;> rfl
  have a14 : X (Proc.devRef .tc main_arg14) = m ((c.tc : Thread nD τ).loc main_arg14) := by subst hX; after_results_simp <;> rfl
  have a15 : X (Proc.devRef .tc main_arg15) = m ((c.tc : Thread nD τ).loc main_arg15) := by subst hX; after_results_simp <;> rfl
  have a16 : X (Proc.devRef .tc main_arg16) = m ((c.tc : Thread nD τ).loc main_arg16) := by subst hX; after_results_simp <;> rfl
  after_results_simp
  simp only [e74, e67, a11, a12, a13, a14, a15, a16]
  rfl

set_option maxHeartbeats 4000000 in
/-- The fourth stretch writes neither the embedding nor the seed positions: they are still there after it. -/
theorem keep_v5 : after ops4 (after ops3 (after ops2 (after ops1 (launchContents m c)))) (Proc.devRef .tc main_v5) = val_main_v5 (F := F) (m ((c.tc : Thread nD τ).loc main_arg1)) (m ((c.tc : Thread nD τ).loc main_arg9)) (m ((c.tc : Thread nD τ).loc main_arg10)) := by
  generalize hX : after ops1 (launchContents m c) = X
  have e5 : X (Proc.devRef .tc main_v5) = val_main_v5 (F := F) (m ((c.tc : Thread nD τ).loc main_arg1)) (m ((c.tc : Thread nD τ).loc main_arg9)) (m ((c.tc : Thread nD τ).loc main_arg10)) := hX ▸ at_v5 m c
  after_results_simp
  exact e5
set_option maxHeartbeats 4000000 in
theorem keep_v60 : after ops4 (after ops3 (after ops2 (after ops1 (launchContents m c)))) (Proc.devRef .tc main_v60) = val_main_v60 (F := F) (m ((c.tc : Thread nD τ).loc main_arg2)) (m ((c.tc : Thread nD τ).loc main_arg3)) := by
  generalize hX : after ops3 (after ops2 (after ops1 (launchContents m c))) = X
  have e60 : X (Proc.devRef .tc main_v60) = val_main_v60 (F := F) (m ((c.tc : Thread nD τ).loc main_arg2)) (m ((c.tc : Thread nD τ).loc main_arg3)) := hX ▸ at_v60 m c
  after_results_simp
  exact e60

set_option maxHeartbeats 4000000 in
/-- After the first stretch of the closing bookkeeping the latest write time per node holds its stage. -/
theorem at_v142 : after ops5a (after ops4 (after ops3 (after ops2 (after ops1 (launchContents m c))))) (Proc.devRef .tc main_v142) = val_main_v142 (F := F) (m ((c.tc : Thread nD τ).loc main_arg2)) (m ((c.tc : Thread nD τ).loc main_arg3)) (m ((c.tc : Thread nD τ).loc main_arg4)) := by
  generalize hX : after ops4 (after ops3 (after ops2 (after ops1 (launchContents m c)))) = X
  have e60 : X (Proc.devRef .tc main_v60) = val_main_v60 (F := F) (m ((c.tc : Thread nD τ).loc main_arg2)) (m ((c.tc : Thread nD τ).loc main_arg3)) := hX ▸ keep_v60 m c
  have a2 : X (Proc.devRef .tc main_arg2) = m ((c.tc : Thread nD τ).loc main_arg2) := by subst hX; after_results_simp <;> rfl
  have a4 : X (Proc.devRef .tc main_arg4) = m ((c.tc : Thread nD τ).loc main_arg4) := by subst hX; after_results_simp <;> rfl
  after_results_simp
  simp only [e60, a2, a4]
  rfl

set_option maxHeartbeats 4000000 in
/-- The seeds' win mask holds its stage. -/
theorem at_v150 : after ops5a (after ops4 (after ops3 (after ops2 (after ops1 (launchContents m c))))) (Proc.devRef .tc main_v150) = val_main_v150 (F := F) (m ((c.tc : Thread nD τ).loc main_arg2)) (m ((c.tc : Thread nD τ).loc main_arg3)) (m ((c.tc : Thread nD τ).loc main_arg4)) := by
  generalize hX : after ops4 (after ops3 (after ops2 (after ops1 (launchContents m c)))) = X
  have e60 : X (Proc.devRef .tc main_v60) = val_main_v60 (F := F) (m ((c.tc : Thread nD τ).loc main_arg2)) (m ((c.tc : Thread nD τ).loc main_arg3)) := hX ▸ keep_v60 m c
  have a2 : X (Proc.devRef .tc main_arg2) = m ((c.tc : Thread nD τ).loc main_arg2) := by subst hX; after_results_simp <;> rfl
  have a4 : X (Proc.devRef .tc main_arg4) = m ((c.tc : Thread nD τ).loc main_arg4) := by subst hX; after_results_simp <;> rfl
  after_results_simp
  simp only [e60, a2, a4]
  rfl

set_option maxHeartbeats 4000000 in
/-- The edges' win mask holds its stage. -/
theorem at_v158 : after ops5a (after ops4 (after ops3 (after ops2 (after ops1 (launchContents m c))))) (Proc.devRef .tc main_v158) = val_main_v158 (F := F) (m ((c.tc : Thread nD τ).loc main_arg2)) (m ((c.tc : Thread nD τ).loc main_arg3)) (m ((c.tc : Thread nD τ).loc main_arg4)) := by
  generalize hX : after ops4 (after ops3 (after ops2 (after ops1 (launchContents m c)))) = X
  have e60 : X (Proc.devRef .tc main_v60) = val_main_v60 (F := F) (m ((c.tc : Thread nD τ).loc main_arg2)) (m ((c.tc : Thread nD τ).loc main_arg3)) := hX ▸ keep_v60 m c
  have a2 : X (Proc.devRef .tc main_arg2) = m ((c.tc : Thread nD τ).loc main_arg2) := by subst hX; after_results_simp <;> rfl
  have a4 : X (Proc.devRef .tc main_arg4) = m ((c.tc : Thread nD τ).loc main_arg4) := by subst hX; after_results_simp <;> rfl
  after_results_simp
  simp only [e60, a2, a4]
  rfl

set_option maxHeartbeats 4000000 in
/-- The table of zeros holds its stage. -/
theorem at_v159 : after ops5a (after ops4 (after ops3 (after ops2 (after ops1 (launchContents m c))))) (Proc.devRef .tc main_v159) = val_main_v159 (F := F) := by
  generalize hX : after ops4 (after ops3 (after ops2 (after ops1 (launchContents m c)))) = X
  have e60 : X (Proc.devRef .tc main_v60) = val_main_v60 (F := F) (m ((c.tc : Thread nD τ).loc main_arg2)) (m ((c.tc : Thread nD τ).loc main_arg3)) := hX ▸ keep_v60 m c
  have a2 : X (Proc.devRef .tc main_arg2) = m ((c.tc : Thread nD τ).loc main_arg2) := by subst hX; after_results_simp <;> rfl
  have a4 : X (Proc.devRef .tc main_arg4) = m ((c.tc : Thread nD τ).loc main_arg4) := by subst hX; after_results_simp <;> rfl
  after_results_simp
  rfl

set_option maxHeartbeats 4000000 in
/-- The out-of-range row index holds its stage. -/
theorem at_c30 : after ops5a (after ops4 (after ops3 (after ops2 (after ops1 (launchContents m c))))) (Proc.devRef .tc main_c_30) = val_main_c_30 (F := F) := by
  generalize hX : after ops4 (after ops3 (after ops2 (after ops1 (launchContents m c)))) = X
  have e60 : X (Proc.devRef .tc main_v60) = val_main_v60 (F := F) (m ((c.tc : Thread nD τ).loc main_arg2)) (m ((c.tc : Thread nD τ).loc main_arg3)) := hX ▸ keep_v60 m c
  have a2 : X (Proc.devRef .tc main_arg2) = m ((c.tc : Thread nD τ).loc main_arg2) := by subst hX; after_results_simp <;> rfl
  have a4 : X (Proc.devRef .tc main_arg4) = m ((c.tc : Thread nD τ).loc main_arg4) := by subst hX; after_results_simp <;> rfl
  after_results_simp
  rfl

set_option maxHeartbeats 4000000 in
/-- The embedding is still in its buffer after that stretch. -/
theorem keep5a_v5 : after ops5a (after ops4 (after ops3 (after ops2 (after ops1 (launchContents m c))))) (Proc.devRef .tc main_v5) = val_main_v5 (F := F) (m ((c.tc : Thread nD τ).loc main_arg1)) (m ((c.tc : Thread nD τ).loc main_arg9)) (m ((c.tc : Thread nD τ).loc main_arg10)) := by
  generalize hX : after ops4 (after ops3 (after ops2 (after ops1 (launchContents m c)))) = X
  have e : X (Proc.devRef .tc main_v5) = val_main_v5 (F := F) (m ((c.tc : Thread nD τ).loc main_arg1)) (m ((c.tc : Thread nD τ).loc main_arg9)) (m ((c.tc : Thread nD τ).loc main_arg10)) := hX ▸ keep_v5 m c
  after_results_simp
  exact e

set_option maxHeartbeats 4000000 in
/-- So is the per-edge embedding. -/
theorem keep5a_v118 : after ops5a (after ops4 (after ops3 (after ops2 (after ops1 (launchContents m c))))) (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  generalize hX : after ops4 (after ops3 (after ops2 (after ops1 (launchContents m c)))) = X
  have e : X (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := hX ▸ at_v118 m c
  after_results_simp
  exact e

set_option maxHeartbeats 4000000 in
/-- After the second stretch the table with the seeds' rows holds its stage. -/
theorem at_v167 : after ops5b (after ops5a (after ops4 (after ops3 (after ops2 (after ops1 (launchContents m c)))))) (Proc.devRef .tc main_v167) = val_main_v167 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) := by
  generalize hX : after ops5a (after ops4 (after ops3 (after ops2 (after ops1 (launchContents m c))))) = X
  have e150 : X (Proc.devRef .tc main_v150) = val_main_v150 (F := F) (m ((c.tc : Thread nD τ).loc main_arg2)) (m ((c.tc : Thread nD τ).loc main_arg3)) (m ((c.tc : Thread nD τ).loc main_arg4)) := hX ▸ at_v150 m c
  have e159 : X (Proc.devRef .tc main_v159) = val_main_v159 (F := F) := hX ▸ at_v159 m c
  have e30 : X (Proc.devRef .tc main_c_30) = val_main_c_30 (F := F) := hX ▸ at_c30 m c
  have e5 : X (Proc.devRef .tc main_v5) = val_main_v5 (F := F) (m ((c.tc : Thread nD τ).loc main_arg1)) (m ((c.tc : Thread nD τ).loc main_arg9)) (m ((c.tc : Thread nD τ).loc main_arg10)) := hX ▸ keep5a_v5 m c
  have a2 : X (Proc.devRef .tc main_arg2) = m ((c.tc : Thread nD τ).loc main_arg2) := by subst hX; after_results_simp <;> rfl
  after_results_simp
  simp only [TRef.ofBuf, TRef.toBuf, cast_eq, e150, e159, e30, e5, a2]
  rfl

set_option maxHeartbeats 4000000 in
/-- After the second stretch the row index of every edge's row holds its stage. -/
theorem at_v168 : after ops5b (after ops5a (after ops4 (after ops3 (after ops2 (after ops1 (launchContents m c)))))) (Proc.devRef .tc main_v168) = val_main_v168 (F := F) (m ((c.tc : Thread nD τ).loc main_arg2)) (m ((c.tc : Thread nD τ).loc main_arg3)) (m ((c.tc : Thread nD τ).loc main_arg4)) := by
  generalize hX : after ops5a (after ops4 (after ops3 (after ops2 (after ops1 (launchContents m c))))) = X
  have e158 : X (Proc.devRef .tc main_v158) = val_main_v158 (F := F) (m ((c.tc : Thread nD τ).loc main_arg2)) (m ((c.tc : Thread nD τ).loc main_arg3)) (m ((c.tc : Thread nD τ).loc main_arg4)) := hX ▸ at_v158 m c
  have a4 : X (Proc.devRef .tc main_arg4) = m ((c.tc : Thread nD τ).loc main_arg4) := by subst hX; after_results_simp <;> rfl
  after_results_simp
  simp only [TRef.ofBuf, TRef.toBuf, cast_eq, e158, a4]
  rfl

set_option maxHeartbeats 4000000 in
/-- The latest write time per node is still in its buffer after the second stretch. -/
theorem keep5b_v142 : after ops5b (after ops5a (after ops4 (after ops3 (after ops2 (after ops1 (launchContents m c)))))) (Proc.devRef .tc main_v142) = val_main_v142 (F := F) (m ((c.tc : Thread nD τ).loc main_arg2)) (m ((c.tc : Thread nD τ).loc main_arg3)) (m ((c.tc : Thread nD τ).loc main_arg4)) := by
  generalize hX : after ops5a (after ops4 (after ops3 (after ops2 (after ops1 (launchContents m c))))) = X
  have e : X (Proc.devRef .tc main_v142) = val_main_v142 (F := F) (m ((c.tc : Thread nD τ).loc main_arg2)) (m ((c.tc : Thread nD τ).loc main_arg3)) (m ((c.tc : Thread nD τ).loc main_arg4)) := hX ▸ at_v142 m c
  after_results_simp
  exact e

set_option maxHeartbeats 4000000 in
/-- So is the per-edge embedding. -/
theorem keep5b_v118 : after ops5b (after ops5a (after ops4 (after ops3 (after ops2 (after ops1 (launchContents m c)))))) (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  generalize hX : after ops5a (after ops4 (after ops3 (after ops2 (after ops1 (launchContents m c))))) = X
  have e : X (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := hX ▸ keep5a_v118 m c
  after_results_simp
  exact e

set_option maxHeartbeats 16000000 in
/-- After the last stretch the result buffer holds the result stage of the arguments. -/
theorem at_v200 : after ops5c (after ops5b (after ops5a (after ops4 (after ops3 (after ops2 (after ops1 (launchContents m c))))))) (Proc.devRef .tc main_v200) = val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  generalize hX : after ops5b (after ops5a (after ops4 (after ops3 (after ops2 (after ops1 (launchContents m c)))))) = X
  have e142 : X (Proc.devRef .tc main_v142) = val_main_v142 (F := F) (m ((c.tc : Thread nD τ).loc main_arg2)) (m ((c.tc : Thread nD τ).loc main_arg3)) (m ((c.tc : Thread nD τ).loc main_arg4)) := hX ▸ keep5b_v142 m c
  have e167 : X (Proc.devRef .tc main_v167) = val_main_v167 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) := hX ▸ at_v167 m c
  have e168 : X (Proc.devRef .tc main_v168) = val_main_v168 (F := F) (m ((c.tc : Thread nD τ).loc main_arg2)) (m ((c.tc : Thread nD τ).loc main_arg3)) (m ((c.tc : Thread nD τ).loc main_arg4)) := hX ▸ at_v168 m c
  have e118 : X (Proc.devRef .tc main_v118) = val_main_v118 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := hX ▸ keep5b_v118 m c
  have a6 : X (Proc.devRef .tc main_arg6) = m ((c.tc : Thread nD τ).loc main_arg6) := by subst hX; after_results_simp <;> rfl
  have a7 : X (Proc.devRef .tc main_arg7) = m ((c.tc : Thread nD τ).loc main_arg7) := by subst hX; after_results_simp <;> rfl
  have a17 : X (Proc.devRef .tc main_arg17) = m ((c.tc : Thread nD τ).loc main_arg17) := by subst hX; after_results_simp <;> rfl
  after_results_simp
  simp only [TRef.ofBuf, TRef.toBuf, cast_eq, e142, e167, e168, e118, a6, a7, a17]
  rfl

/-- The fold of the whole operation list at the result buffer is the result stage of the arguments. -/
theorem result_eq : after ops (launchContents m c) (Proc.devRef .tc main_v200) = val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [ops_split]
  simp only [after_append]
  exact at_v200 m c

/-- The reference's run with its result at the result stage: every weakly fair execution terminates, nothing faulting,
    the result buffer at `val_main_v200` of the launch contents of the arguments, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v200) = val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (result_eq m c), (h c).2⟩) (Cert.ReferenceIdeal.ValueP.run m ρ)

end Cert.ReferenceIdeal.Stage

end
-- ==== Proof.lean ====
/-
  A graph-propagation step written as two Pallas kernels with host bookkeeping around them, against its
  plain jnp reference, over the extended reals.

  The computation.  For every seed, an embedding `sub = tanh (mask · W_subᵀ + b_sub)` and a first
  recurrent step `r0 = cell (encoder row, sub)`; for every edge, a second recurrent step on the row of
  `r0` its head names and the row of the relation table its type names, then `obj = tanh (· W_objᵀ +
  b_obj)`; finally a last-write-wins merge of `sub` and `obj` into the node table.  The kernel program
  computes `sub`, `r0` and `obj` in row blocks of 256 inside two kernels, with weights transposed and
  changed in format beforehand; the reference computes them as whole-array products.  On the extended
  reals a change of format is the identity and both sides add the same products, so the three arrays
  agree entry by entry; the merge is the same chain of operations in both programs and is carried along
  unopened.

  The one place the two differ is the row gather between the kernels: the kernel program's take fills a
  row with a junk value where the wrapped index falls outside the table, the reference's gather clamps
  it.  The precondition states the two index ranges (edge heads in [-2048, 2048), edge types in
  [-1000, 1000), an index below zero being wrapped); inside them the take's test holds at every edge and
  the two gathers are one.  The finiteness of the float inputs is not used: no step moves a factor
  across a sum.

  The three frames: the two kernel programs' are the generated frame certificates; the reference's is
  its run, read stage by stage, with the result dropped.  The idealization rewrote nothing, so
  `preserves` holds trivially.
-/
import proofs.«419166_j82411832476066_1_alg».proof.Defs
import proofs.«419166_j82411832476066_1_alg».proof.Proof.Gen.Kernel
import proofs.«419166_j82411832476066_1_alg».proof.Proof.Gen.Kernel.Frame
import proofs.«419166_j82411832476066_1_alg».proof.Proof.Gen.KernelIdeal
import proofs.«419166_j82411832476066_1_alg».proof.Proof.Gen.KernelIdeal.Frame
import proofs.«419166_j82411832476066_1_alg».proof.Proof.Gen.ReferenceIdeal
import proofs.«419166_j82411832476066_1_alg».proof.Proof.Gen.Pre_finite_inputs
import proofs.«419166_j82411832476066_1_alg».proof.Proof.KRun
import proofs.«419166_j82411832476066_1_alg».proof.Proof.Bridge
import proofs.«419166_j82411832476066_1_alg».proof.Proof.RefStage
import Idealize.ShloMosaic.Adequacy
import Idealize.ShloMosaic.Init

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its staged run with the result dropped. -/
theorem frame_ri : Cert.frame_ReferenceIdeal := fun m ρ _ =>
  (θ_run Cert.ReferenceIdeal.defs _ _).mono (fun _ h c => (h c).2) (Cert.ReferenceIdeal.Stage.run (F := Ideal) m ρ)

/-- From memories agreeing on the arguments both programs end with the reference's result stage of those arguments:
    the kernel program by the two kernels' value lemmas, the index ranges and the shared closing chain; the reference by
    its own run. -/
theorem algebraic : Cert.algebraic_KernelIdeal_ReferenceIdeal := by
  intro m ρ m' ρ' hpre hagree
  refine ⟨fun c => Cert.ReferenceIdeal.ReadP.val_main_v200 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.Bridge.kernel_eq m ρ hpre c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Stage.run (F := Ideal) m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
